-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x11008 : Shape := ⟨2, ![4096, 11008]⟩
abbrev S11008x4096 : Shape := ⟨2, ![11008, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x11008 : S_.BroadcastsInDim S4096x11008 (![] : Fin 0 → Fin S4096x11008.rank)
  reducesTo_S4096x11008_S_d0_1 : S4096x11008.ReducesTo [0, 1] S_
  bcast_S_S11008x4096 : S_.BroadcastsInDim S11008x4096 (![] : Fin 0 → Fin S11008x4096.rank)
  reducesTo_S11008x4096_S_d0_1 : S11008x4096.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S4096x4096 .f32) (main_arg1 : FVec F S4096x11008 .f32) (main_arg2 : FVec F S11008x4096 .f32) (main_arg3 : FVec F S4096x11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x11008 .f32 := Host.absf main_arg1
  let main_cst_0 : FVec F S_ .f32 := constant S_ .f32 0x7F800000#32
  let main_v5 : FVec F S4096x11008 .f32 := broadcastInDim S4096x11008 ![] bcast_S_S4096x11008 main_cst_0
  let main_v6 : IVec S4096x11008 1 := cmpf .olt main_v4 main_v5
  let main_c_1 : IVec S_ 1 := constantI S_ 1 1#1
  let main_v7 : IVec S_ 1 := (fun x v => Host.reduce IntOp.andi x v reducesTo_S4096x11008_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S4096x4096 : Shape := ⟨2, ![4096, 4096]⟩
abbrev S4096x11008 : Shape := ⟨2, ![4096, 11008]⟩
abbrev S11008x4096 : Shape := ⟨2, ![11008, 4096]⟩
abbrev S_ : Shape := ⟨0, ![]⟩
abbrev S4096x11264 : Shape := ⟨2, ![4096, 11264]⟩
abbrev S11264x4096 : Shape := ⟨2, ![11264, 4096]⟩
abbrev S512x1024 : Shape := ⟨2, ![512, 1024]⟩
abbrev S1024x1024 : Shape := ⟨2, ![1024, 1024]⟩

abbrev nBuf : Space → Nat
  | .hbm => 19
  | .vmem => 17
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S11008x4096, .f32⟩
  | .hbm, ⟨3, _⟩ => ⟨S4096x11008, .f32⟩
  | .hbm, ⟨4, _⟩ => ⟨S4096x4096, .bf16⟩
  | .hbm, ⟨5, _⟩ => ⟨S4096x11008, .bf16⟩
  | .hbm, ⟨6, _⟩ => ⟨S_, .i32⟩
  | .hbm, ⟨7, _⟩ => ⟨S_, .bf16⟩
  | .hbm, ⟨8, _⟩ => ⟨S4096x11264, .bf16⟩
  | .hbm, ⟨9, _⟩ => ⟨S4096x11008, .bf16⟩
  | .hbm, ⟨10, _⟩ => ⟨S_, .i32⟩
  | .hbm, ⟨11, _⟩ => ⟨S_, .bf16⟩
  | .hbm, ⟨12, _⟩ => ⟨S4096x11264, .bf16⟩
  | .hbm, ⟨13, _⟩ => ⟨S11008x4096, .bf16⟩
  | .hbm, ⟨14, _⟩ => ⟨S_, .i32⟩
  | .hbm, ⟨15, _⟩ => ⟨S_, .bf16⟩
  | .hbm, ⟨16, _⟩ => ⟨S11264x4096, .bf16⟩
  | .hbm, ⟨17, _⟩ => ⟨S4096x11264, .bf16⟩
  | .hbm, ⟨18, _⟩ => ⟨S4096x4096, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![8, 11, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 4, 11], ![false, false, false]⟩

def k1_cond2 (i : grid1.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  bitsLt_bf16_f32 : FTy.bits .bf16 < FTy.bits .f32
  pads_S4096x11008_S4096x11264_000_02560 : S4096x11008.Pads (![0, 0] : Fin 2 → Nat) ![0, 256] ![0, 0] S4096x11264
  h_S_ : 0 < S_.numel
  pads_S11008x4096_S11264x4096_02560_000 : S11008x4096.Pads (![0, 0] : Fin 2 → Nat) ![256, 0] ![0, 0] S11264x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .bf16 = 32 ∨ (Rect.block (s := S4096x4096) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x11264.size a
  hwx0_1 : ∀ i : grid0.Coords, EltTy.bits .bf16 = 32 ∨ (Rect.block (s := S4096x11264) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x11264.size a
  hwx0_2 : ∀ i : grid0.Coords, EltTy.bits .bf16 = 32 ∨ (Rect.block (s := S4096x11264) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x11264.size a
  hwx0_3 : ∀ i : grid0.Coords, EltTy.bits .bf16 = 32 ∨ (Rect.block (s := S4096x11264) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x11264.size a
  hwx1_0 : ∀ i : grid1.Coords, EltTy.bits .bf16 = 32 ∨ (Rect.block (s := S4096x11264) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S11264x4096.size a
  hwx1_1 : ∀ i : grid1.Coords, EltTy.bits .bf16 = 32 ∨ (Rect.block (s := S11264x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x4096.size a
  hwx1_2 : ∀ i : grid1.Coords, EltTy.bits .f32 = 32 ∨ (Rect.block (s := S4096x4096) S512x1024.size (cc1_transform_2 i) (hinb1_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v7) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x11008 : Shape := ⟨2, ![4096, 11008]⟩
abbrev S11008x4096 : Shape := ⟨2, ![11008, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S11008x4096, .f32⟩
  | .hbm, ⟨3, _⟩ => ⟨S4096x11008, .f32⟩
  | .hbm, ⟨4, _⟩ => ⟨S4096x11008, .f32⟩
  | .hbm, ⟨5, _⟩ => ⟨S4096x11008, .f32⟩
  | .hbm, ⟨6, _⟩ => ⟨S4096x11008, .f32⟩
  | .hbm, ⟨7, _⟩ => ⟨S4096x11008, .f32⟩
  | .hbm, ⟨8, _⟩ => ⟨S_, .f32⟩
  | .hbm, ⟨9, _⟩ => ⟨S4096x11008, .f32⟩
  | .hbm, ⟨10, _⟩ => ⟨S4096x11008, .f32⟩
  | .hbm, ⟨11, _⟩ => ⟨S_, .f32⟩
  | .hbm, ⟨12, _⟩ => ⟨S4096x11008, .f32⟩
  | .hbm, ⟨13, _⟩ => ⟨S4096x11008, .f32⟩
  | .hbm, ⟨14, _⟩ => ⟨S4096x11008, .f32⟩
  | .hbm, ⟨15, _⟩ => ⟨S4096x11008, .f32⟩
  | .hbm, ⟨16, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S4096x11008 : S_.BroadcastsInDim S4096x11008 (![] : Fin 0 → Fin S4096x11008.rank)
  dot_S4096x4096_S4096x11008_S4096x11008_1_0_0_1_n_n_wf : DotDims.WF S4096x4096 S4096x11008 S4096x11008 [1] [0] [0] [1] [] []
  dot_S4096x11008_S11008x4096_S4096x4096_1_0_0_1_n_n_wf : DotDims.WF S4096x11008 S11008x4096 S4096x4096 [1] [0] [0] [1] [] []

variable [Facts₀]

def dot_S4096x4096_S4096x11008_S4096x11008_1_0_0_1_n_n : DotDims S4096x4096 S4096x11008 S4096x11008 where
  lhsContracting := [1]
  rhsContracting := [0]
  lhsNonContracting := [0]
  rhsNonContracting := [1]
  lhsBatch := []
  rhsBatch := []
  wf := dot_S4096x4096_S4096x11008_S4096x11008_1_0_0_1_n_n_wf
def dot_S4096x11008_S11008x4096_S4096x4096_1_0_0_1_n_n : DotDims S4096x11008 S11008x4096 S4096x4096 where
  lhsContracting := [1]
  rhsContracting := [0]
  lhsNonContracting := [0]
  rhsNonContracting := [1]
  lhsBatch := []
  rhsBatch := []
  wf := dot_S4096x11008_S11008x4096_S4096x4096_1_0_0_1_n_n_wf

class Facts : Prop extends Facts₀ where

variable [Facts]
-- ==== Proof.K.R0Base.lean ====
/-
  Region 0 (the gate/up projection): what every control case of its body shares.
  The body runs at 8 × 11 × 4 grid points (i, j, k); k walks the contraction axis in four blocks of 1024.
  At k = 0 it zeroes the two f32 accumulators it keeps in scratch, at every k it adds one block product onto
  each, and at k = 3 it writes silu(gate) · up into the output window, which is idle at the other points.
-/
import proofs.«178229_j42717744726585_1_alg».proof.Proof.Gen.Kernel.Launch
import proofs.«178229_j42717744726585_1_alg».proof.Proof.Gen.Kernel.Skeleton
import proofs.«178229_j42717744726585_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {U' : Type} [URA U'] {c : Dev nD} (dat : Dat τ (Elt F) Unit ℕ U' ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {U' : Type} [URA U'] {c : Dev nD} (dat : Dat τ (Elt F) Unit ℕ U' ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {U' : Type} [URA U'] {c : Dev nD} (dat : Dat τ (Elt F) Unit ℕ U' ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

/-! ## The body's two branch conditions, decided over the grid -/

/-- "this is the first block of the contraction" (k = 0): the accumulators are zeroed. -/
abbrev first0 (i : grid0.Coords) : Prop := (Scalar.cmpi .ne (Scalar.extui (Scalar.cmpi .eq (BitVec.ofNat 32 (i 2).val) 0#32)) 0#32) = 1#1
theorem hfirst0 : ∀ t : Fin cfg0.N, first0 (grid0.coords t) ↔ t.val % 4 = 0 :=
  (by decide +kernel : ∀ t : Fin grid0.N, first0 (grid0.coords t) ↔ t.val % 4 = 0)
/-- "this is the last block" (k = 3): the output block is written. -/
abbrev last0 (i : grid0.Coords) : Prop := k0_cond2 i = 1#1
theorem hlast0 : ∀ t : Fin cfg0.N, last0 (grid0.coords t) ↔ t.val % 4 = 3 :=
  (by decide +kernel : ∀ t : Fin grid0.N, last0 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last block the output window is idle and is not written back. -/
theorem idleAt0_3 : ∀ t : Fin cfg0.N, ¬last0 (grid0.coords t) → cfg0.idle 3 (grid0.coords t) = true := by decide +kernel
theorem noFlush0_3 : ∀ t : Fin cfg0.N, ¬last0 (grid0.coords t) → (cfg0.win 3).flush t = false := by decide +kernel
theorem liveAt0_3 : ∀ t : Fin cfg0.N, last0 (grid0.coords t) → cfg0.idle 3 (grid0.coords t) = false := by decide +kernel

/-! ## The memrefs the body is called with -/

abbrev VO0_3 : View sig .tc .vmem S512x1024 .bf16 := (Memref.whole cc0_stg3_0 : Memref sig .tc .vmem S512x1024 .bf16).view
abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
/-- The two accumulators: whole scoped buffers of the kernel's own, carried from point to point. -/
abbrev scM0_0 : Memref sig .tc .vmem S512x1024 .f32 := Memref.whole cc0_scratch0
abbrev scM0_1 : Memref sig .tc .vmem S512x1024 .f32 := Memref.whole cc0_scratch1
abbrev VS0_0 : View sig .tc .vmem S512x1024 .f32 := scM0_0.view
abbrev VS0_1 : View sig .tc .vmem S512x1024 .f32 := scM0_1.view

end Cert.Kernel.Hand

end
-- ==== Proof.K.R0RunA.lean ====
/-
  Region 0, the body's run at a point with k = 0: both accumulators are zeroed and then take the first block product;
  the output window is left as found.
-/
import proofs.«178229_j42717744726585_1_alg».proof.Proof.K.R0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a first block: the pieces the run leaves in the two accumulators (the zero store under the updating store, last
    first), with the proof that the body, on whole memrefs — inputs at their contents, the idle output at `xi3`, the
    accumulators at anything — runs to the continuation with the inputs and the output as found and each accumulator
    with its pieces written. -/
noncomputable def kernelRun0_A (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : first0 i) (hc1 : ¬last0 i)
    (x0 : Vec F S512x1024 .bf16) (x1 x2 : Vec F S1024x1024 .bf16) :
    Σ' (LS0 : List (View.Piece (Elt F) S512x1024 .f32)), { LS1 : List (View.Piece (Elt F) S512x1024 .f32) //
      ∀ (xi3 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__ffn1_kernel i arg3 harg3 arg4 harg4 arg5 harg5 arg6 harg6 arg7 harg7 arg8 harg8) K } := by
  refine ⟨?_, ?_, fun xi3 E K => ?run⟩
  case run =>
    simp only [cc0__ffn1_kernel_eq_skeleton]; unfold cc0__ffn1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Hand

end
-- ==== Proof.K.R0RunB.lean ====
/-
  Region 0, the body's run at a point with 0 < k < 3: each accumulator takes one more block product over what the
  point before left in it; the output window is left as found.
-/
import proofs.«178229_j42717744726585_1_alg».proof.Proof.K.R0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a middle block: the accumulators enter at `xs0`, `xs1` (what the point before left) and leave with one
    updating store each; inputs and the idle output as found. -/
noncomputable def kernelRun0_B (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : ¬last0 i)
    (x0 : Vec F S512x1024 .bf16) (x1 x2 : Vec F S1024x1024 .bf16) (xs0 xs1 : Vec F S512x1024 .f32) :
    Σ' (LS0 : List (View.Piece (Elt F) S512x1024 .f32)), { LS1 : List (View.Piece (Elt F) S512x1024 .f32) //
      ∀ (xi3 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__ffn1_kernel i arg3 harg3 arg4 harg4 arg5 harg5 arg6 harg6 arg7 harg7 arg8 harg8) K } := by
  refine ⟨?_, ?_, fun xi3 E K => ?run⟩
  case run =>
    simp only [cc0__ffn1_kernel_eq_skeleton]; unfold cc0__ffn1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Hand

end
-- ==== Proof.K.R0RunC.lean ====
/-
  Region 0, the body's run at a point with k = 3: each accumulator takes the last block product, and the output
  window receives silu(gate) · up of the finished accumulators.
-/
import proofs.«178229_j42717744726585_1_alg».proof.Proof.K.R0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a last block: the accumulators enter at `xs0`, `xs1`, leave with one updating store each, and the output
    window, entered at anything, leaves with the one store of the activation. -/
noncomputable def kernelRun0_C (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : last0 i)
    (x0 : Vec F S512x1024 .bf16) (x1 x2 : Vec F S1024x1024 .bf16) (xs0 xs1 : Vec F S512x1024 .f32) :
    Σ' (L3 : List (View.Piece (Elt F) S512x1024 .bf16)) (LS0 : List (View.Piece (Elt F) S512x1024 .f32)), { LS1 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__ffn1_kernel i arg3 harg3 arg4 harg4 arg5 harg5 arg6 harg6 arg7 harg7 arg8 harg8) K } := by
  refine ⟨?_, ?_, ?_, fun E K => ?run⟩
  case run =>
    simp only [cc0__ffn1_kernel_eq_skeleton]; unfold cc0__ffn1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.Kernel.Hand

end
-- ==== Proof.K.R0Frame.lean ====
/-
  Region 0: what its accumulators and its output window hold after every grid point, the pipeline's proof data
  over those contents, and the body's obligation at a generic point.
  A point t = (i·11 + j)·4 + k of the 352 is a first block when t % 4 = 0 and a last block when t % 4 = 3.
-/
import proofs.«178229_j42717744726585_1_alg».proof.Proof.K.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pieces each case leaves cover their buffers -/

theorem scoverA0 (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : first0 i) (hc1 : ¬last0 i) (x0 : Vec F S512x1024 .bf16) (x1 x2 : Vec F S1024x1024 .bf16) (y : S512x1024.Idx) :
    ∃ pc ∈ (kernelRun0_A c i arg3 harg3 arg4 harg4 arg5 harg5 arg6 harg6 arg7 harg7 arg8 harg8 hc0 hc1 x0 x1 x2).1, y ∈ pc.1.set :=
  View.cover_of_tiledL _ S512x1024.size (by sl_kernel_rfl) y
theorem scoverA1 (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : first0 i) (hc1 : ¬last0 i) (x0 : Vec F S512x1024 .bf16) (x1 x2 : Vec F S1024x1024 .bf16) (y : S512x1024.Idx) :
    ∃ pc ∈ (kernelRun0_A c i arg3 harg3 arg4 harg4 arg5 harg5 arg6 harg6 arg7 harg7 arg8 harg8 hc0 hc1 x0 x1 x2).2.1, y ∈ pc.1.set :=
  View.cover_of_tiledL _ S512x1024.size (by sl_kernel_rfl) y
theorem scoverB0 (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : ¬last0 i) (x0 : Vec F S512x1024 .bf16) (x1 x2 : Vec F S1024x1024 .bf16) (xs0 xs1 : Vec F S512x1024 .f32) (y : S512x1024.Idx) :
    ∃ pc ∈ (kernelRun0_B c i arg3 harg3 arg4 harg4 arg5 harg5 arg6 harg6 arg7 harg7 arg8 harg8 hc0 hc1 x0 x1 x2 xs0 xs1).1, y ∈ pc.1.set :=
  View.cover_of_tiledL _ S512x1024.size (by sl_kernel_rfl) y
theorem scoverB1 (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : ¬last0 i) (x0 : Vec F S512x1024 .bf16) (x1 x2 : Vec F S1024x1024 .bf16) (xs0 xs1 : Vec F S512x1024 .f32) (y : S512x1024.Idx) :
    ∃ pc ∈ (kernelRun0_B c i arg3 harg3 arg4 harg4 arg5 harg5 arg6 harg6 arg7 harg7 arg8 harg8 hc0 hc1 x0 x1 x2 xs0 xs1).2.1, y ∈ pc.1.set :=
  View.cover_of_tiledL _ S512x1024.size (by sl_kernel_rfl) y
theorem coverC3 (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : last0 i) (x0 : Vec F S512x1024 .bf16) (x1 x2 : Vec F S1024x1024 .bf16) (xs0 xs1 : Vec F S512x1024 .f32) (y : S512x1024.Idx) :
    ∃ pc ∈ (kernelRun0_C c i arg3 harg3 arg4 harg4 arg5 harg5 arg6 harg6 arg7 harg7 arg8 harg8 hc0 hc1 x0 x1 x2 xs0 xs1).1, y ∈ pc.1.set :=
  View.cover_of_tiledL _ S512x1024.size (by sl_kernel_rfl) y
theorem scoverC0 (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : last0 i) (x0 : Vec F S512x1024 .bf16) (x1 x2 : Vec F S1024x1024 .bf16) (xs0 xs1 : Vec F S512x1024 .f32) (y : S512x1024.Idx) :
    ∃ pc ∈ (kernelRun0_C c i arg3 harg3 arg4 harg4 arg5 harg5 arg6 harg6 arg7 harg7 arg8 harg8 hc0 hc1 x0 x1 x2 xs0 xs1).2.1, y ∈ pc.1.set :=
  View.cover_of_tiledL _ S512x1024.size (by sl_kernel_rfl) y
theorem scoverC1 (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : last0 i) (x0 : Vec F S512x1024 .bf16) (x1 x2 : Vec F S1024x1024 .bf16) (xs0 xs1 : Vec F S512x1024 .f32) (y : S512x1024.Idx) :
    ∃ pc ∈ (kernelRun0_C c i arg3 harg3 arg4 harg4 arg5 harg5 arg6 harg6 arg7 harg7 arg8 harg8 hc0 hc1 x0 x1 x2 xs0 xs1).2.2.1, y ∈ pc.1.set :=
  View.cover_of_tiledL _ S512x1024.size (by sl_kernel_rfl) y

/-! ## What a point leaves: (output block, gate accumulator, up accumulator) -/

/-- The three buffers a point leaves, as one triple. -/
abbrev Trip0 (F : FTy → Type) : Type := Vec F S512x1024 .bf16 × Vec F S512x1024 .f32 × Vec F S512x1024 .f32

/-- A piece list read back over junk through the output window's view. -/
abbrev readO0 (L : List (View.Piece (Elt F) S512x1024 .bf16)) : Vec F S512x1024 .bf16 := VO0_3.read (Elt F) (VO0_3.writes (Elt F) VO0_3.junk L)
/-- A piece list read back over junk through the gate accumulator's view. -/
abbrev readS0 (L : List (View.Piece (Elt F) S512x1024 .f32)) : Vec F S512x1024 .f32 := VS0_0.read (Elt F) (VS0_0.writes (Elt F) VS0_0.junk L)
/-- A piece list read back over junk through the up accumulator's view. -/
abbrev readS1 (L : List (View.Piece (Elt F) S512x1024 .f32)) : Vec F S512x1024 .f32 := VS0_1.read (Elt F) (VS0_1.writes (Elt F) VS0_1.junk L)

/-- A first block: the output is a placeholder nothing consults (the window is idle there and not written back). -/
def stepA0 (c : Dev nD) (t : Fin cfg0.N) (h0 : t.val % 4 = 0) (h3 : ¬t.val % 4 = 3) : Trip0 F :=
  let R := kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hfirst0 t).mpr h0) (fun h => h3 ((hlast0 t).mp h)) (iblk0 V c 0 t) (iblk0 V c 1 t) (iblk0 V c 2 t)
  (readO0 [], readS0 R.1, readS1 R.2.1)
/-- A middle block, over what the point before left in the accumulators. -/
def stepB0 (c : Dev nD) (t : Fin cfg0.N) (h0 : ¬t.val % 4 = 0) (h3 : ¬t.val % 4 = 3) (xs0 xs1 : Vec F S512x1024 .f32) : Trip0 F :=
  let R := kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hfirst0 t).mp h)) (fun h => h3 ((hlast0 t).mp h)) (iblk0 V c 0 t) (iblk0 V c 1 t) (iblk0 V c 2 t) xs0 xs1
  (readO0 [], readS0 R.1, readS1 R.2.1)
/-- A last block, over what the point before left in the accumulators. -/
def stepC0 (c : Dev nD) (t : Fin cfg0.N) (h0 : ¬t.val % 4 = 0) (h3 : t.val % 4 = 3) (xs0 xs1 : Vec F S512x1024 .f32) : Trip0 F :=
  let R := kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hfirst0 t).mp h)) ((hlast0 t).mpr h3) (iblk0 V c 0 t) (iblk0 V c 1 t) (iblk0 V c 2 t) xs0 xs1
  (readO0 R.1, readS0 R.2.1, readS1 R.2.2.1)

/-- THE ACCUMULATION: what the point at position `n` leaves, by the case `n % 4` selects, a later block over what
    position `n - 1` left. -/
def outsAt0 (c : Dev nD) : (n : ℕ) → n < cfg0.N → Trip0 F
  | 0, hn => stepA0 V c ⟨0, hn⟩ (Nat.zero_mod _) (by show ¬(0 : ℕ) % 4 = 3; decide)
  | n + 1, hn =>
    if h0 : (n + 1) % 4 = 0 then
      if h3 : (n + 1) % 4 = 3 then False.elim (by omega)
      else stepA0 V c ⟨n + 1, hn⟩ h0 h3
    else
      if h3 : (n + 1) % 4 = 3 then stepC0 V c ⟨n + 1, hn⟩ h0 h3 (outsAt0 c n (Nat.lt_of_succ_lt hn)).2.1 (outsAt0 c n (Nat.lt_of_succ_lt hn)).2.2
      else stepB0 V c ⟨n + 1, hn⟩ h0 h3 (outsAt0 c n (Nat.lt_of_succ_lt hn)).2.1 (outsAt0 c n (Nat.lt_of_succ_lt hn)).2.2

theorem outsAt0_A (c : Dev nD) (t : Fin cfg0.N) (h0 : t.val % 4 = 0) (h3 : ¬t.val % 4 = 3) :
    outsAt0 V c t.val t.isLt = stepA0 V c t h0 h3 := by
  obtain ⟨n, hn⟩ := t
  cases n with
  | zero => rfl
  | succ n => exact (dif_pos h0).trans (dif_neg h3)
theorem outsAt0_B (c : Dev nD) (t : Fin cfg0.N) (h0 : ¬t.val % 4 = 0) (h3 : ¬t.val % 4 = 3) :
    outsAt0 V c t.val t.isLt = stepB0 V c t h0 h3 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_neg h3)
theorem outsAt0_C (c : Dev nD) (t : Fin cfg0.N) (h0 : ¬t.val % 4 = 0) (h3 : t.val % 4 = 3) :
    outsAt0 V c t.val t.isLt = stepC0 V c t h0 h3 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_pos h3)

/-! ## The region invariant: the accumulators at what the point before left -/

/-- The core's scoped buffers that belong to the other pallas_call, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 (F := F) c) ∗ (∃ r, prngReg c r)) := by
  unfold Pipeline.ΦA others0; rw [scopedRest0_eq]; first | done | (simp only [scM0_0, scM0_1, owns_whole]; try rfl)

/-- Before position `n`: at the first point the class invariant (the accumulators at anything); afterwards the
    accumulators at what position `n - 1` left. -/
def Phi0 (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2 ∗ others0 (F := F) c) ∗ (∃ r, prngReg c r))

theorem Phi0_succ (c : Dev nD) (n : ℕ) (hn : n < cfg0.N) :
    Phi0 V c (n + 1) hn = iprop(iprop(owns (c : Thread nD τ) scM0_0 fullShare (outsAt0 V c n hn).2.1 ∗ owns (c : Thread nD τ) scM0_1 fullShare (outsAt0 V c n hn).2.2 ∗ others0 (F := F) c) ∗ (∃ r, prngReg c r)) := rfl
theorem Phi0_pos (c : Dev nD) (n : ℕ) (h : n ≤ cfg0.N) (hz : n ≠ 0) :
    Phi0 V c n h = iprop(iprop(owns (c : Thread nD τ) scM0_0 fullShare (outsAt0 V c (n - 1) (by omega)).2.1 ∗ owns (c : Thread nD τ) scM0_1 fullShare (outsAt0 V c (n - 1) (by omega)).2.2 ∗ others0 (F := F) c) ∗ (∃ r, prngReg c r)) := by
  cases n with
  | zero => exact absurd rfl hz
  | succ n => rfl
/-- At any position the invariant yields the accumulators at SOME contents. -/
theorem Phi0_some (c : Dev nD) (n : ℕ) (h : n ≤ cfg0.N) :
    Phi0 V c n h ⊢ iprop(iprop((∃ d, owns (c : Thread nD τ) scM0_0 fullShare d) ∗ (∃ d, owns (c : Thread nD τ) scM0_1 fullShare d) ∗ others0 (F := F) c) ∗ (∃ r, prngReg c r)) := by
  cases n with
  | zero => rw [show Phi0 V c 0 h = Pipeline.ΦA spec0 c from rfl, PhiA0_eq]; try exact .rfl
  | succ n =>
    rw [Phi0_succ]
    iintro ⟨⟨H0, H1, Ho⟩, Hg⟩
    isplitr [Hg]
    · isplitl [H0]; · iexists _; iexact H0
      isplitl [H1]; · iexists _; iexact H1
      iexact Ho
    iexact Hg

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := Phi0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem Phi0_castSucc (c : Dev nD) (t : Fin cfg0.N) : (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ, leaves0_0, leaves0_1, leaves0_2, Phi0_castSucc]
  have hN : t.val < 352 := lt_of_lt_of_eq t.isLt (show cfg0.N = 352 from N_0)
  by_cases h0 : t.val % 4 = 0
  · have h3 : ¬t.val % 4 = 3 := by omega
    rw [Dat.leavesExact_idle (dat0 V c) 3 t (idleAt0_3 t (fun h => h3 ((hlast0 t).mp h))) (noFlush0_3 t (fun h => h3 ((hlast0 t).mp h)))]
    rw [outsAt0_A V c t h0 h3]
    unfold stepA0; dsimp only
    iintro ⟨HΦ, Ho, ⟨%d0, H0⟩, ⟨%d1, H1⟩, ⟨%d2, H2⟩, ⟨%d3, H3⟩⟩
    ihave HΦ' := (Phi0_some V c _ _) $$ HΦ
    icases HΦ' with ⟨⟨HS0, HS1, Hoth⟩, Hg⟩
    iapply ((kernelRun0_A c (grid0.coords t) _ _ _ _ _ _ _ _ _ _ _ _ ((hfirst0 t).mpr h0) (fun h => h3 ((hlast0 t).mp h)) (iblk0 V c 0 t) (iblk0 V c 1 t) (iblk0 V c 2 t)).2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hoth Hg]
    · isplitr [Hg]
      · isplitl [HS0]
        · unfold owns; iexists _; isplitr
          swap; · iexact HS0
          ipureintro; exact View.read_writes_of_cover _ _ _ _ _ (scoverA0 c _ _ _ _ _ _ _ _ _ _ _ _ _ _ _ _ _ _)
        isplitl [HS1]
        · unfold owns; iexists _; isplitr
          swap; · iexact HS1
          ipureintro; exact View.read_writes_of_cover _ _ _ _ _ (scoverA1 c _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    iexists _; iexact H3
  · have hz : t.val ≠ 0 := fun h => h0 (by rw [h])
    rw [Phi0_pos V c _ _ hz]
    by_cases h3 : t.val % 4 = 3
    · rw [show (dat0 V c).leavesExact 3 t = owns (c : Thread nD τ) (ms0_3 t) fullShare ((dat0 V c).after 3 t) from by
        unfold Dat.leavesExact; rw [liveAt0_3 t ((hlast0 t).mpr h3)], after0_3]
      rw [outsAt0_C V c t h0 h3]
      unfold stepC0; dsimp only
      iintro ⟨⟨⟨HS0, HS1, Hoth⟩, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hfirst0 t).mp h)) ((hlast0 t).mpr h3) (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scoverC0 c _ _ _ _ _ _ _ _ _ _ _ _ _ _ _ _ _ _ _ _)
          isplitl [HS1]
          · unfold owns; iexists _; isplitr
            swap; · iexact HS1
            ipureintro; exact View.read_writes_of_cover _ _ _ _ _ (scoverC1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC3 c _ _ _ _ _ _ _ _ _ _ _ _ _ _ _ _ _ _ _ _)
    · rw [Dat.leavesExact_idle (dat0 V c) 3 t (idleAt0_3 t (fun h => h3 ((hlast0 t).mp h))) (noFlush0_3 t (fun h => h3 ((hlast0 t).mp h)))]
      rw [outsAt0_B V c t h0 h3]
      unfold stepB0; dsimp only
      iintro ⟨⟨⟨HS0, HS1, Hoth⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hfirst0 t).mp h)) (fun h => h3 ((hlast0 t).mp h)) (iblk0 V c 0 t) (iblk0 V c 1 t) (iblk0 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scoverB0 c _ _ _ _ _ _ _ _ _ _ _ _ _ _ _ _ _ _ _ _)
          isplitl [HS1]
          · unfold owns; iexists _; isplitr
            swap; · iexact HS1
            ipureintro; exact View.read_writes_of_cover _ _ _ _ _ (scoverB1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

/-- The class invariant is the region invariant before the first point. -/
theorem hin0 (c : Dev nD) : Pipeline.ΦA spec0 c ⊢ (dat0 V c).Φ 0 := by
  rw [show (dat0 V c).Φ 0 = Phi0 V c 0 (Nat.zero_le _) from rfl]; exact .rfl
/-- After the last point the accumulators' contents are forgotten again. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl, PhiA0_eq]
  exact Phi0_some V c _ _

end Cert.Kernel.Hand

end
-- ==== Proof.K.R1Base.lean ====
/-
  Region 1 (the down projection): what every control case of its body shares.
  The body runs at 8 × 4 × 11 grid points (i, j, k); k walks the padded hidden axis in eleven blocks of 1024.
  At k = 0 it zeroes the f32 accumulator it keeps in scratch, at every k it adds one block product onto it, and at
  k = 10 it copies the accumulator into the output window, which is idle at the other points.
-/
import proofs.«178229_j42717744726585_1_alg».proof.Proof.Gen.Kernel.Launch
import proofs.«178229_j42717744726585_1_alg».proof.Proof.Gen.Kernel.Skeleton
import proofs.«178229_j42717744726585_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {U' : Type} [URA U'] {c : Dev nD} (dat : Dat τ (Elt F) Unit ℕ U' ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {U' : Type} [URA U'] {c : Dev nD} (dat : Dat τ (Elt F) Unit ℕ U' ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's two branch conditions, decided over the grid -/

/-- "this is the first block of the contraction" (k = 0): the accumulator is zeroed. -/
abbrev first1 (i : grid1.Coords) : Prop := (Scalar.cmpi .ne (Scalar.extui (Scalar.cmpi .eq (BitVec.ofNat 32 (i 2).val) 0#32)) 0#32) = 1#1
theorem hfirst1 : ∀ t : Fin cfg1.N, first1 (grid1.coords t) ↔ t.val % 11 = 0 :=
  (by decide +kernel : ∀ t : Fin grid1.N, first1 (grid1.coords t) ↔ t.val % 11 = 0)
/-- "this is the last block" (k = 10): the output block is written. -/
abbrev last1 (i : grid1.Coords) : Prop := k1_cond2 i = 1#1
theorem hlast1 : ∀ t : Fin cfg1.N, last1 (grid1.coords t) ↔ t.val % 11 = 10 :=
  (by decide +kernel : ∀ t : Fin grid1.N, last1 (grid1.coords t) ↔ t.val % 11 = 10)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem liveAt1_2 : ∀ t : Fin cfg1.N, last1 (grid1.coords t) → cfg1.idle 2 (grid1.coords t) = false := by decide +kernel

abbrev VO1_2 : View sig .tc .vmem S512x1024 .f32 := (Memref.whole cc1_stg2_0 : Memref sig .tc .vmem S512x1024 .f32).view
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
/-- The accumulator: a whole scoped buffer of the kernel's own, carried from point to point. -/
abbrev scM1_0 : Memref sig .tc .vmem S512x1024 .f32 := Memref.whole cc1_scratch0
abbrev VS1_0 : View sig .tc .vmem S512x1024 .f32 := scM1_0.view

end Cert.Kernel.Hand

end
-- ==== Proof.K.R1RunA.lean ====
/-
  Region 1, the body's run at a point with k = 0: the accumulator is zeroed and takes the first block product; the output window is left as found.
-/
import proofs.«178229_j42717744726585_1_alg».proof.Proof.K.R1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : first1 i) (hc1 : ¬last1 i)
    (x0 : Vec F S512x1024 .bf16) (x1 : Vec F S1024x1024 .bf16) :
    { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__ffn2_kernel i arg3 harg3 arg4 harg4 arg5 harg5 arg6 harg6) K } := by
  refine ⟨?_, fun xi2 E K => ?run⟩
  case run =>
    simp only [cc1__ffn2_kernel_eq_skeleton]; unfold cc1__ffn2_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.R1RunB.lean ====
/-
  Region 1, the body's run at a point with 0 < k < 10: the accumulator takes one more block product over what the point before left; the output window is left as found.
-/
import proofs.«178229_j42717744726585_1_alg».proof.Proof.K.R1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬first1 i) (hc1 : ¬last1 i)
    (x0 : Vec F S512x1024 .bf16) (x1 : Vec F S1024x1024 .bf16) (xs0 : Vec F S512x1024 .f32) :
    { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__ffn2_kernel i arg3 harg3 arg4 harg4 arg5 harg5 arg6 harg6) K } := by
  refine ⟨?_, fun xi2 E K => ?run⟩
  case run =>
    simp only [cc1__ffn2_kernel_eq_skeleton]; unfold cc1__ffn2_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.R1RunC.lean ====
/-
  Region 1, the body's run at a point with k = 10: the accumulator takes the last block product and is copied into the output window.
-/
import proofs.«178229_j42717744726585_1_alg».proof.Proof.K.R1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬first1 i) (hc1 : last1 i)
    (x0 : Vec F S512x1024 .bf16) (x1 : Vec F S1024x1024 .bf16) (xs0 : Vec F S512x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__ffn2_kernel i arg3 harg3 arg4 harg4 arg5 harg5 arg6 harg6) K } := by
  refine ⟨?_, ?_, fun E K => ?run⟩
  case run =>
    simp only [cc1__ffn2_kernel_eq_skeleton]; unfold cc1__ffn2_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.K.R1Frame.lean ====
/-
  Region 1: what its accumulator and its output window hold after every grid point, the pipeline's proof data over
  those contents, and the body's obligation at a generic point.
  A point t = (i·4 + j)·11 + k of the 352 is a first block when t % 11 = 0 and a last block when t % 11 = 10.
-/
import proofs.«178229_j42717744726585_1_alg».proof.Proof.K.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scover1A (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : first1 i) (hc1 : ¬last1 i) (x0 : Vec F S512x1024 .bf16) (x1 : Vec F S1024x1024 .bf16) (y : S512x1024.Idx) :
    ∃ pc ∈ (kernelRun1_A c i arg3 harg3 arg4 harg4 arg5 harg5 arg6 harg6 hc0 hc1 x0 x1).1, y ∈ pc.1.set :=
  View.cover_of_tiledL _ S512x1024.size (by sl_kernel_rfl) y
theorem scover1B (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬first1 i) (hc1 : ¬last1 i) (x0 : Vec F S512x1024 .bf16) (x1 : Vec F S1024x1024 .bf16) (xs0 : Vec F S512x1024 .f32) (y : S512x1024.Idx) :
    ∃ pc ∈ (kernelRun1_B c i arg3 harg3 arg4 harg4 arg5 harg5 arg6 harg6 hc0 hc1 x0 x1 xs0).1, y ∈ pc.1.set :=
  View.cover_of_tiledL _ S512x1024.size (by sl_kernel_rfl) y
theorem cover1C (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬first1 i) (hc1 : last1 i) (x0 : Vec F S512x1024 .bf16) (x1 : Vec F S1024x1024 .bf16) (xs0 : Vec F S512x1024 .f32) (y : S512x1024.Idx) :
    ∃ pc ∈ (kernelRun1_C c i arg3 harg3 arg4 harg4 arg5 harg5 arg6 harg6 hc0 hc1 x0 x1 xs0).1, y ∈ pc.1.set :=
  View.cover_of_tiledL _ S512x1024.size (by sl_kernel_rfl) y
theorem scover1C (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬first1 i) (hc1 : last1 i) (x0 : Vec F S512x1024 .bf16) (x1 : Vec F S1024x1024 .bf16) (xs0 : Vec F S512x1024 .f32) (y : S512x1024.Idx) :
    ∃ pc ∈ (kernelRun1_C c i arg3 harg3 arg4 harg4 arg5 harg5 arg6 harg6 hc0 hc1 x0 x1 xs0).2.1, y ∈ pc.1.set :=
  View.cover_of_tiledL _ S512x1024.size (by sl_kernel_rfl) y

/-- What a point leaves: (output block, accumulator). -/
abbrev Pair1 (F : FTy → Type) : Type := Vec F S512x1024 .f32 × Vec F S512x1024 .f32
abbrev readO1 (L : List (View.Piece (Elt F) S512x1024 .f32)) : Vec F S512x1024 .f32 := VO1_2.read (Elt F) (VO1_2.writes (Elt F) VO1_2.junk L)
abbrev readT1 (L : List (View.Piece (Elt F) S512x1024 .f32)) : Vec F S512x1024 .f32 := VS1_0.read (Elt F) (VS1_0.writes (Elt F) VS1_0.junk L)

def stepA1 (c : Dev nD) (t : Fin cfg1.N) (h0 : t.val % 11 = 0) (h3 : ¬t.val % 11 = 10) : Pair1 F :=
  let R := kernelRun1_A (F := F) c (grid1.coords t) (ms1_0 t) (hs1_0 t) (ms1_1 t) (hs1_1 t) (ms1_2 t) (hs1_2 t) scM1_0 (Memref.isWhole_whole _) ((hfirst1 t).mpr h0) (fun h => h3 ((hlast1 t).mp h)) (iblk1 V c 0 t) (iblk1 V c 1 t)
  (readO1 [], readT1 R.1)
def stepB1 (c : Dev nD) (t : Fin cfg1.N) (h0 : ¬t.val % 11 = 0) (h3 : ¬t.val % 11 = 10) (xs0 : Vec F S512x1024 .f32) : Pair1 F :=
  let R := kernelRun1_B (F := F) c (grid1.coords t) (ms1_0 t) (hs1_0 t) (ms1_1 t) (hs1_1 t) (ms1_2 t) (hs1_2 t) scM1_0 (Memref.isWhole_whole _) (fun h => h0 ((hfirst1 t).mp h)) (fun h => h3 ((hlast1 t).mp h)) (iblk1 V c 0 t) (iblk1 V c 1 t) xs0
  (readO1 [], readT1 R.1)
def stepC1 (c : Dev nD) (t : Fin cfg1.N) (h0 : ¬t.val % 11 = 0) (h3 : t.val % 11 = 10) (xs0 : Vec F S512x1024 .f32) : Pair1 F :=
  let R := kernelRun1_C (F := F) c (grid1.coords t) (ms1_0 t) (hs1_0 t) (ms1_1 t) (hs1_1 t) (ms1_2 t) (hs1_2 t) scM1_0 (Memref.isWhole_whole _) (fun h => h0 ((hfirst1 t).mp h)) ((hlast1 t).mpr h3) (iblk1 V c 0 t) (iblk1 V c 1 t) xs0
  (readO1 R.1, readT1 R.2.1)

/-- THE ACCUMULATION: what the point at position `n` leaves, by the case `n % 11` selects. -/
def outsAt1 (c : Dev nD) : (n : ℕ) → n < cfg1.N → Pair1 F
  | 0, hn => stepA1 V c ⟨0, hn⟩ (Nat.zero_mod _) (by show ¬(0 : ℕ) % 11 = 10; decide)
  | n + 1, hn =>
    if h0 : (n + 1) % 11 = 0 then
      if h3 : (n + 1) % 11 = 10 then False.elim (by omega)
      else stepA1 V c ⟨n + 1, hn⟩ h0 h3
    else
      if h3 : (n + 1) % 11 = 10 then stepC1 V c ⟨n + 1, hn⟩ h0 h3 (outsAt1 c n (Nat.lt_of_succ_lt hn)).2
      else stepB1 V c ⟨n + 1, hn⟩ h0 h3 (outsAt1 c n (Nat.lt_of_succ_lt hn)).2

theorem outsAt1_A (c : Dev nD) (t : Fin cfg1.N) (h0 : t.val % 11 = 0) (h3 : ¬t.val % 11 = 10) :
    outsAt1 V c t.val t.isLt = stepA1 V c t h0 h3 := by
  obtain ⟨n, hn⟩ := t
  cases n with
  | zero => rfl
  | succ n => exact (dif_pos h0).trans (dif_neg h3)
theorem outsAt1_B (c : Dev nD) (t : Fin cfg1.N) (h0 : ¬t.val % 11 = 0) (h3 : ¬t.val % 11 = 10) :
    outsAt1 V c t.val t.isLt = stepB1 V c t h0 h3 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h3)
theorem outsAt1_C (c : Dev nD) (t : Fin cfg1.N) (h0 : ¬t.val % 11 = 0) (h3 : t.val % 11 = 10) :
    outsAt1 V c t.val t.isLt = stepC1 V c t h0 h3 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h3)

/-- The core's scoped buffers that are no staging buffer of this call: the other call's, each at some contents, and
    last the accumulator in the state `acc`. -/
def chain1 (c : Dev nD) (acc : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ acc)

theorem PhiA1_eq (c : Dev nD) :
    (Pipeline.ΦA spec1 c : sProp 𝕄) = iprop(chain1 (F := F) c iprop(∃ d, owns (c : Thread nD τ) scM1_0 fullShare d) ∗ (∃ r, prngReg c r)) := by
  unfold Pipeline.ΦA chain1; rw [scopedRest1_eq]; first | done | (simp only [scM1_0, owns_whole]; try rfl)

def Phi1 (c : Dev nD) : (n : ℕ) → n ≤ cfg1.N → sProp 𝕄
  | 0, _ => Pipeline.ΦA spec1 c
  | n + 1, hn => iprop(chain1 (F := F) c (owns (c : Thread nD τ) scM1_0 fullShare (outsAt1 V c n hn).2) ∗ (∃ r, prngReg c r))

theorem Phi1_succ (c : Dev nD) (n : ℕ) (hn : n < cfg1.N) :
    Phi1 V c (n + 1) hn = iprop(chain1 (F := F) c (owns (c : Thread nD τ) scM1_0 fullShare (outsAt1 V c n hn).2) ∗ (∃ r, prngReg c r)) := rfl
theorem Phi1_pos (c : Dev nD) (n : ℕ) (h : n ≤ cfg1.N) (hz : n ≠ 0) :
    Phi1 V c n h = iprop(chain1 (F := F) c (owns (c : Thread nD τ) scM1_0 fullShare (outsAt1 V c (n - 1) (by omega)).2) ∗ (∃ r, prngReg c r)) := by
  cases n with
  | zero => exact absurd rfl hz
  | succ n => rfl
/-- The chain is monotone in the accumulator's state. -/
theorem chain1_mono (c : Dev nD) {P Q : sProp 𝕄} (h : P ⊢ Q) : chain1 (F := F) c P ⊢ chain1 (F := F) c Q := by
  unfold chain1
  iintro ⟨O0, O1, O2, O3, O4, O5, O6, O7, O8, O9, HP⟩
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  iapply h; iexact HP
theorem Phi1_some (c : Dev nD) (n : ℕ) (h : n ≤ cfg1.N) :
    Phi1 V c n h ⊢ iprop(chain1 (F := F) c iprop(∃ d, owns (c : Thread nD τ) scM1_0 fullShare d) ∗ (∃ r, prngReg c r)) := by
  cases n with
  | zero => rw [show Phi1 V c 0 h = Pipeline.ΦA spec1 c from rfl, PhiA1_eq]; try exact .rfl
  | succ n =>
    rw [Phi1_succ]
    iintro ⟨Hc, Hg⟩
    isplitl [Hc]
    · iapply (chain1_mono c (show owns (c : Thread nD τ) scM1_0 fullShare (outsAt1 V c n h).2 ⊢ (iprop(∃ d, owns (c : Thread nD τ) scM1_0 fullShare d) : sProp 𝕄) from by iintro H; iexists _; iexact H))
      iexact Hc
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := Phi1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem Phi1_castSucc (c : Dev nD) (t : Fin cfg1.N) : (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ, leaves1_0, leaves1_1, Phi1_castSucc]
  have hN : t.val < 352 := lt_of_lt_of_eq t.isLt (show cfg1.N = 352 from N_1)
  by_cases h0 : t.val % 11 = 0
  · have h3 : ¬t.val % 11 = 10 := by omega
    rw [Dat.leavesExact_idle (dat1 V c) 2 t (idleAt1_2 t (fun h => h3 ((hlast1 t).mp h))) (noFlush1_2 t (fun h => h3 ((hlast1 t).mp h)))]
    rw [outsAt1_A V c t h0 h3]
    unfold stepA1; dsimp only
    iintro ⟨HΦ, Ho, ⟨%d0, H0⟩, ⟨%d1, H1⟩, ⟨%d2, H2⟩⟩
    ihave HΦ' := (Phi1_some V c _ _) $$ HΦ
    unfold chain1
    icases HΦ' with ⟨⟨O0, O1, O2, O3, O4, O5, O6, O7, O8, O9, HS0⟩, Hg⟩
    iapply ((kernelRun1_A c (grid1.coords t) _ _ _ _ _ _ _ _ ((hfirst1 t).mpr h0) (fun h => h3 ((hlast1 t).mp h)) (iblk1 V c 0 t) (iblk1 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [O0 O1 O2 O3 O4 O5 O6 O7 O8 O9 HS0 Hg]
    · isplitr [Hg]
      ·
        isplitl [O0]; · iexact O0
        isplitl [O1]; · iexact O1
        isplitl [O2]; · iexact O2
        isplitl [O3]; · iexact O3
        isplitl [O4]; · iexact O4
        isplitl [O5]; · iexact O5
        isplitl [O6]; · iexact O6
        isplitl [O7]; · iexact O7
        isplitl [O8]; · iexact O8
        isplitl [O9]; · iexact O9
        unfold owns; iexists _; isplitr
        swap; · iexact HS0
        ipureintro; exact View.read_writes_of_cover _ _ _ _ _ (scover1A c _ _ _ _ _ _ _ _ _ _ _ _ _)
      iexact Hg
    isplitl [Ho]; · iexact Ho
    isplitl [H0]; · iexact H0
    isplitl [H1]; · iexact H1
    iexists _; iexact H2
  · have hz : t.val ≠ 0 := fun h => h0 (by rw [h])
    rw [Phi1_pos V c _ _ hz]
    unfold chain1
    by_cases h3 : t.val % 11 = 10
    · rw [show (dat1 V c).leavesExact 2 t = owns (c : Thread nD τ) (ms1_2 t) fullShare ((dat1 V c).after 2 t) from by
        unfold Dat.leavesExact; rw [liveAt1_2 t ((hlast1 t).mpr h3)], after1_2]
      rw [outsAt1_C V c t h0 h3]
      unfold stepC1; dsimp only
      iintro ⟨⟨⟨O0, O1, O2, O3, O4, O5, O6, O7, O8, O9, HS0⟩, Hg⟩, Ho, ⟨%d0, H0⟩, ⟨%d1, H1⟩, ⟨%d2, H2⟩⟩
      iapply ((kernelRun1_C c (grid1.coords t) _ _ _ _ _ _ _ _ (fun h => h0 ((hfirst1 t).mp h)) ((hlast1 t).mpr h3) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [O0 O1 O2 O3 O4 O5 O6 O7 O8 O9 HS0 Hg]
      · isplitr [Hg]
        ·
          isplitl [O0]; · iexact O0
          isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          unfold owns; iexists _; isplitr
          swap; · iexact HS0
          ipureintro; exact View.read_writes_of_cover _ _ _ _ _ (scover1C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1C c _ _ _ _ _ _ _ _ _ _ _ _ _ _)
    · rw [Dat.leavesExact_idle (dat1 V c) 2 t (idleAt1_2 t (fun h => h3 ((hlast1 t).mp h))) (noFlush1_2 t (fun h => h3 ((hlast1 t).mp h)))]
      rw [outsAt1_B V c t h0 h3]
      unfold stepB1; dsimp only
      iintro ⟨⟨⟨O0, O1, O2, O3, O4, O5, O6, O7, O8, O9, HS0⟩, Hg⟩, Ho, ⟨%d0, H0⟩, ⟨%d1, H1⟩, ⟨%d2, H2⟩⟩
      iapply ((kernelRun1_B c (grid1.coords t) _ _ _ _ _ _ _ _ (fun h => h0 ((hfirst1 t).mp h)) (fun h => h3 ((hlast1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [O0 O1 O2 O3 O4 O5 O6 O7 O8 O9 HS0 Hg]
      · isplitr [Hg]
        ·
          isplitl [O0]; · iexact O0
          isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          unfold owns; iexists _; isplitr
          swap; · iexact HS0
          ipureintro; exact View.read_writes_of_cover _ _ _ _ _ (scover1B c _ _ _ _ _ _ _ _ _ _ _ _ _ _)
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Phi1 V c 0 (Nat.zero_le _) from rfl]; exact .rfl
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl, PhiA1_eq]
  exact Phi1_some V c _ _

end Cert.Kernel.Hand

end
-- ==== Proof.K.Run.lean ====
/-
  The whole program as a chain of segments: six stretches of host operations (the bf16 conversions and the zero
  padding of the three weights), then the two kernel regions. Between segments the core holds every unscoped buffer
  at a known valuation; a region replaces its arrays' contents by what its write-backs leave and touches nothing else.
  The conclusion names what the result buffer holds at the end and says that the four arguments are unchanged.
-/
import proofs.«178229_j42717744726585_1_alg».proof.Proof.K.R0Frame
import proofs.«178229_j42717744726585_1_alg».proof.Proof.K.R1Frame
import proofs.«178229_j42717744726585_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents at the two regions' boundaries -/

/-- What region 0 finds: the launch memory after the six host stretches. -/
abbrev E0 (c : Dev nD) (b : Ref sig .tc) : Buf (Elt F) ((c : Thread nD τ).loc b) := V6 m c b
/-- At region 0's exit its arrays hold what the pipeline leaves; every other buffer is as entered. -/
def W7 (c : Dev nD) : Valuation τ sig (Elt F) :=
  Pipeline.withArrays spec0 c (V6 m c) fun w => (dat0 (E0 m) c).arrAt w cfg0.N
theorem W7_arr (c : Dev nD) (w : Fin cfg0.W) :
    W7 m c (Proc.devRef .tc (Pipeline.arrRef spec0 w)) = (dat0 (E0 m) c).arrAt w cfg0.N := by
  unfold W7; exact Pipeline.withArrays_arr spec0 launch0.win.arr_inj c _ _ w
theorem W7_of_ne (c : Dev nD) (b : Ref sig .tc) (hb : ∀ w, Pipeline.arrRef spec0 w ≠ b) :
    W7 m c (Proc.devRef .tc b) = V6 m c (Proc.devRef .tc b) := by
  unfold W7; exact Pipeline.withArrays_of_ne spec0 c _ _ b hb
/-- What region 1 finds. -/
abbrev E1 (c : Dev nD) (b : Ref sig .tc) : Buf (Elt F) ((c : Thread nD τ).loc b) := W7 m c b
theorem hF0 (c : Dev nD) (w : Fin cfg0.W) : (dat0 (E0 m) c).arrAt w cfg0.N = E1 m c (Pipeline.arrRef spec0 w) := (W7_arr m c w).symm
theorem hrest0 (c : Dev nD) : ∀ b, b ∉ Finset.univ.image (Pipeline.arrRef spec0) → E1 m c b = E0 m c b :=
  fun b hb => W7_of_ne m c b fun w e => hb (Finset.mem_image.mpr ⟨w, Finset.mem_univ _, e⟩)

/-- At region 1's exit. -/
def W8 (c : Dev nD) : Valuation τ sig (Elt F) :=
  Pipeline.withArrays spec1 c (W7 m c) fun w => (dat1 (E1 m) c).arrAt w cfg1.N
theorem W8_arr (c : Dev nD) (w : Fin cfg1.W) :
    W8 m c (Proc.devRef .tc (Pipeline.arrRef spec1 w)) = (dat1 (E1 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev E2 (c : Dev nD) (b : Ref sig .tc) : Buf (Elt F) ((c : Thread nD τ).loc b) := W8 m c b
theorem hF1 (c : Dev nD) (w : Fin cfg1.W) : (dat1 (E1 m) c).arrAt w cfg1.N = E2 m c (Pipeline.arrRef spec1 w) := (W8_arr m c w).symm
theorem hrest1 (c : Dev nD) : ∀ b, b ∉ Finset.univ.image (Pipeline.arrRef spec1) → E2 m c b = E1 m c b :=
  fun b hb => W8_of_ne m c b fun w e => hb (Finset.mem_image.mpr ⟨w, Finset.mem_univ _, e⟩)

/-! ## No segment writes an argument -/

theorem V6_main_arg0 (c : Dev nD) : V6 m c main_arg0 = m ((c : Thread nD τ).loc main_arg0) :=
  (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
theorem W8_main_arg0 (c : Dev nD) : W8 m c (Proc.devRef .tc main_arg0) = m ((c : Thread nD τ).loc main_arg0) :=
  (W8_of_ne m c main_arg0 (by decide)).trans <| (W7_of_ne m c main_arg0 (by decide)).trans (V6_main_arg0 m c)
theorem V6_main_arg1 (c : Dev nD) : V6 m c main_arg1 = m ((c : Thread nD τ).loc main_arg1) :=
  (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem W8_main_arg1 (c : Dev nD) : W8 m c (Proc.devRef .tc main_arg1) = m ((c : Thread nD τ).loc main_arg1) :=
  (W8_of_ne m c main_arg1 (by decide)).trans <| (W7_of_ne m c main_arg1 (by decide)).trans (V6_main_arg1 m c)
theorem V6_main_arg2 (c : Dev nD) : V6 m c main_arg2 = m ((c : Thread nD τ).loc main_arg2) :=
  (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
theorem W8_main_arg2 (c : Dev nD) : W8 m c (Proc.devRef .tc main_arg2) = m ((c : Thread nD τ).loc main_arg2) :=
  (W8_of_ne m c main_arg2 (by decide)).trans <| (W7_of_ne m c main_arg2 (by decide)).trans (V6_main_arg2 m c)
theorem V6_main_arg3 (c : Dev nD) : V6 m c main_arg3 = m ((c : Thread nD τ).loc main_arg3) :=
  (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl
theorem W8_main_arg3 (c : Dev nD) : W8 m c (Proc.devRef .tc main_arg3) = m ((c : Thread nD τ).loc main_arg3) :=
  (W8_of_ne m c main_arg3 (by decide)).trans <| (W7_of_ne m c main_arg3 (by decide)).trans (V6_main_arg3 m c)

/-! ## The proof data family and what rides beside the buffers -/

/-- Routing at a region's entry: the generator register and the scoped rest make the class invariant; the (empty)
    table family is dropped. -/
theorem rot_in (P Q S : sProp 𝕄) : iprop(P ∗ Q ∗ S) ⊢ iprop(S ∗ P) := by
  iintro ⟨Hp, -, Hr⟩
  isplitl [Hr]; · iexact Hr
  iexact Hp
/-- Routing at a region's exit: the class invariant gives the register and the scoped rest back. -/
theorem rot_out (P S : sProp 𝕄) : iprop(S ∗ P) ⊢ iprop(P ∗ BI.emp ∗ S) := by
  iintro ⟨Hr, Hp⟩
  isplitl [Hp]; · iexact Hp
  isplitr; · iempintro
  iexact Hr

def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- Beside the buffers: the core's generator register at some state and the core owing nothing. -/
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W8 m c) ∗ ∃ r, prngReg c r)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0 as a segment of @main: entered with every unscoped buffer at the boundary's contents, its arrays split
    out of them and, at the exit, put back at what the write-backs leave; the generator register passes through the
    region invariant; nothing is owed and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (rot_in _ _ _).trans (hin0 (E0 m) c)
  hout c := by
    rw [Pipeline.ownSems0_none]
    exact (hout0 (E0 m) c).trans (rot_out _ _)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at the boundary's contents, its arrays split
    out of them and, at the exit, put back at what the write-backs leave; the generator register passes through the
    region invariant; nothing is owed and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (rot_in _ _ _).trans (hin1 (E1 m) c)
  hout c := by
    rw [Pipeline.ownSems0_none]
    exact (hout1 (E1 m) c).trans (rot_out _ _)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The rest state is the same at the three places the host side names one. -/
abbrev Erest : Fin 3 → Dev nD → sProp 𝕄 := fun _ c => R c

set_option backward.isDefEq.respectTransparency.types false in
/-- Every weakly fair execution of @main terminates without a fault; at the end the result buffer holds what region
    1's write-backs leave and the four arguments are as launched. -/
theorem run_main : θ_run defs (onTc (τ := τ) (main (F := F))) ⟨m, fun _ => 0, ρ⟩ (fun r => ∀ c : Dev nD,
      r.2.mem ((c.tc : Thread nD τ).loc main_v8) = W8 m c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_dev (pcfgs (F := F)) adm (pdats m) () cellOf_inj emb₁ defs₀ 𝒱₀ L lv m ρ main
    (fun c => segs m 𝒱₀ L lv (Erest (F := F)) () (pdats m) (reg0 m) (reg1 m) c)
    (fun c Q => by
      rewrite [main_chain c, Seg.run_eq_chain,
        show (segs m 𝒱₀ L lv (Erest (F := F)) () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c =>
      ⟨h c _ (mem_uc main_v8 (by decide)),
       (h c _ (mem_uc main_arg0 (by decide))).trans (W8_main_arg0 m c),
       (h c _ (mem_uc main_arg1 (by decide))).trans (W8_main_arg1 m c),
       (h c _ (mem_uc main_arg2 (by decide))).trans (W8_main_arg2 m c),
       (h c _ (mem_uc main_arg3 (by decide))).trans (W8_main_arg3 m c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Hand

end
-- ==== Proof.KI.R0Base.lean ====
/-
  Region 0 (the gate/up projection): what every control case of its body shares.
  The body runs at 8 × 11 × 4 grid points (i, j, k); k walks the contraction axis in four blocks of 1024.
  At k = 0 it zeroes the two f32 accumulators it keeps in scratch, at every k it adds one block product onto
  each, and at k = 3 it writes silu(gate) · up into the output window, which is idle at the other points.
-/
import proofs.«178229_j42717744726585_1_alg».proof.Proof.Gen.KernelIdeal.Launch
import proofs.«178229_j42717744726585_1_alg».proof.Proof.Gen.KernelIdeal.Skeleton
import proofs.«178229_j42717744726585_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {U' : Type} [URA U'] {c : Dev nD} (dat : Dat τ (Elt F) Unit ℕ U' ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {U' : Type} [URA U'] {c : Dev nD} (dat : Dat τ (Elt F) Unit ℕ U' ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {U' : Type} [URA U'] {c : Dev nD} (dat : Dat τ (Elt F) Unit ℕ U' ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

/-! ## The body's two branch conditions, decided over the grid -/

/-- "this is the first block of the contraction" (k = 0): the accumulators are zeroed. -/
abbrev first0 (i : grid0.Coords) : Prop := (Scalar.cmpi .ne (Scalar.extui (Scalar.cmpi .eq (BitVec.ofNat 32 (i 2).val) 0#32)) 0#32) = 1#1
theorem hfirst0 : ∀ t : Fin cfg0.N, first0 (grid0.coords t) ↔ t.val % 4 = 0 :=
  (by decide +kernel : ∀ t : Fin grid0.N, first0 (grid0.coords t) ↔ t.val % 4 = 0)
/-- "this is the last block" (k = 3): the output block is written. -/
abbrev last0 (i : grid0.Coords) : Prop := k0_cond2 i = 1#1
theorem hlast0 : ∀ t : Fin cfg0.N, last0 (grid0.coords t) ↔ t.val % 4 = 3 :=
  (by decide +kernel : ∀ t : Fin grid0.N, last0 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last block the output window is idle and is not written back. -/
theorem idleAt0_3 : ∀ t : Fin cfg0.N, ¬last0 (grid0.coords t) → cfg0.idle 3 (grid0.coords t) = true := by decide +kernel
theorem noFlush0_3 : ∀ t : Fin cfg0.N, ¬last0 (grid0.coords t) → (cfg0.win 3).flush t = false := by decide +kernel
theorem liveAt0_3 : ∀ t : Fin cfg0.N, last0 (grid0.coords t) → cfg0.idle 3 (grid0.coords t) = false := by decide +kernel

/-! ## The memrefs the body is called with -/

abbrev VO0_3 : View sig .tc .vmem S512x1024 .bf16 := (Memref.whole cc0_stg3_0 : Memref sig .tc .vmem S512x1024 .bf16).view
abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
/-- The two accumulators: whole scoped buffers of the kernel's own, carried from point to point. -/
abbrev scM0_0 : Memref sig .tc .vmem S512x1024 .f32 := Memref.whole cc0_scratch0
abbrev scM0_1 : Memref sig .tc .vmem S512x1024 .f32 := Memref.whole cc0_scratch1
abbrev VS0_0 : View sig .tc .vmem S512x1024 .f32 := scM0_0.view
abbrev VS0_1 : View sig .tc .vmem S512x1024 .f32 := scM0_1.view

end Cert.KernelIdeal.Hand

end
-- ==== Proof.KI.R0RunA.lean ====
/-
  Region 0, the body's run at a point with k = 0: both accumulators are zeroed and then take the first block product;
  the output window is left as found.
-/
import proofs.«178229_j42717744726585_1_alg».proof.Proof.KI.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a first block: the pieces the run leaves in the two accumulators (the zero store under the updating store, last
    first), with the proof that the body, on whole memrefs — inputs at their contents, the idle output at `xi3`, the
    accumulators at anything — runs to the continuation with the inputs and the output as found and each accumulator
    with its pieces written. -/
noncomputable def kernelRun0_A (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : first0 i) (hc1 : ¬last0 i)
    (x0 : Vec F S512x1024 .bf16) (x1 x2 : Vec F S1024x1024 .bf16) :
    Σ' (LS0 : List (View.Piece (Elt F) S512x1024 .f32)), { LS1 : List (View.Piece (Elt F) S512x1024 .f32) //
      ∀ (xi3 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__ffn1_kernel i arg3 harg3 arg4 harg4 arg5 harg5 arg6 harg6 arg7 harg7 arg8 harg8) K } := by
  refine ⟨?_, ?_, fun xi3 E K => ?run⟩
  case run =>
    simp only [cc0__ffn1_kernel_eq_skeleton]; unfold cc0__ffn1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Hand

end
-- ==== Proof.KI.R0RunB.lean ====
/-
  Region 0, the body's run at a point with 0 < k < 3: each accumulator takes one more block product over what the
  point before left in it; the output window is left as found.
-/
import proofs.«178229_j42717744726585_1_alg».proof.Proof.KI.R0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a middle block: the accumulators enter at `xs0`, `xs1` (what the point before left) and leave with one
    updating store each; inputs and the idle output as found. -/
noncomputable def kernelRun0_B (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : ¬last0 i)
    (x0 : Vec F S512x1024 .bf16) (x1 x2 : Vec F S1024x1024 .bf16) (xs0 xs1 : Vec F S512x1024 .f32) :
    Σ' (LS0 : List (View.Piece (Elt F) S512x1024 .f32)), { LS1 : List (View.Piece (Elt F) S512x1024 .f32) //
      ∀ (xi3 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__ffn1_kernel i arg3 harg3 arg4 harg4 arg5 harg5 arg6 harg6 arg7 harg7 arg8 harg8) K } := by
  refine ⟨?_, ?_, fun xi3 E K => ?run⟩
  case run =>
    simp only [cc0__ffn1_kernel_eq_skeleton]; unfold cc0__ffn1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Hand

end
-- ==== Proof.KI.R0RunC.lean ====
/-
  Region 0, the body's run at a point with k = 3: each accumulator takes the last block product, and the output
  window receives silu(gate) · up of the finished accumulators.
-/
import proofs.«178229_j42717744726585_1_alg».proof.Proof.KI.R0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a last block: the accumulators enter at `xs0`, `xs1`, leave with one updating store each, and the output
    window, entered at anything, leaves with the one store of the activation. -/
noncomputable def kernelRun0_C (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : last0 i)
    (x0 : Vec F S512x1024 .bf16) (x1 x2 : Vec F S1024x1024 .bf16) (xs0 xs1 : Vec F S512x1024 .f32) :
    Σ' (L3 : List (View.Piece (Elt F) S512x1024 .bf16)) (LS0 : List (View.Piece (Elt F) S512x1024 .f32)), { LS1 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__ffn1_kernel i arg3 harg3 arg4 harg4 arg5 harg5 arg6 harg6 arg7 harg7 arg8 harg8) K } := by
  refine ⟨?_, ?_, ?_, fun E K => ?run⟩
  case run =>
    simp only [cc0__ffn1_kernel_eq_skeleton]; unfold cc0__ffn1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.KernelIdeal.Hand

end
-- ==== Proof.KI.R0Frame.lean ====
/-
  Region 0: what its accumulators and its output window hold after every grid point, the pipeline's proof data
  over those contents, and the body's obligation at a generic point.
  A point t = (i·11 + j)·4 + k of the 352 is a first block when t % 4 = 0 and a last block when t % 4 = 3.
-/
import proofs.«178229_j42717744726585_1_alg».proof.Proof.KI.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pieces each case leaves cover their buffers -/

theorem scoverA0 (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : first0 i) (hc1 : ¬last0 i) (x0 : Vec F S512x1024 .bf16) (x1 x2 : Vec F S1024x1024 .bf16) (y : S512x1024.Idx) :
    ∃ pc ∈ (kernelRun0_A c i arg3 harg3 arg4 harg4 arg5 harg5 arg6 harg6 arg7 harg7 arg8 harg8 hc0 hc1 x0 x1 x2).1, y ∈ pc.1.set :=
  View.cover_of_tiledL _ S512x1024.size (by sl_kernel_rfl) y
theorem scoverA1 (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : first0 i) (hc1 : ¬last0 i) (x0 : Vec F S512x1024 .bf16) (x1 x2 : Vec F S1024x1024 .bf16) (y : S512x1024.Idx) :
    ∃ pc ∈ (kernelRun0_A c i arg3 harg3 arg4 harg4 arg5 harg5 arg6 harg6 arg7 harg7 arg8 harg8 hc0 hc1 x0 x1 x2).2.1, y ∈ pc.1.set :=
  View.cover_of_tiledL _ S512x1024.size (by sl_kernel_rfl) y
theorem scoverB0 (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : ¬last0 i) (x0 : Vec F S512x1024 .bf16) (x1 x2 : Vec F S1024x1024 .bf16) (xs0 xs1 : Vec F S512x1024 .f32) (y : S512x1024.Idx) :
    ∃ pc ∈ (kernelRun0_B c i arg3 harg3 arg4 harg4 arg5 harg5 arg6 harg6 arg7 harg7 arg8 harg8 hc0 hc1 x0 x1 x2 xs0 xs1).1, y ∈ pc.1.set :=
  View.cover_of_tiledL _ S512x1024.size (by sl_kernel_rfl) y
theorem scoverB1 (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : ¬last0 i) (x0 : Vec F S512x1024 .bf16) (x1 x2 : Vec F S1024x1024 .bf16) (xs0 xs1 : Vec F S512x1024 .f32) (y : S512x1024.Idx) :
    ∃ pc ∈ (kernelRun0_B c i arg3 harg3 arg4 harg4 arg5 harg5 arg6 harg6 arg7 harg7 arg8 harg8 hc0 hc1 x0 x1 x2 xs0 xs1).2.1, y ∈ pc.1.set :=
  View.cover_of_tiledL _ S512x1024.size (by sl_kernel_rfl) y
theorem coverC3 (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : last0 i) (x0 : Vec F S512x1024 .bf16) (x1 x2 : Vec F S1024x1024 .bf16) (xs0 xs1 : Vec F S512x1024 .f32) (y : S512x1024.Idx) :
    ∃ pc ∈ (kernelRun0_C c i arg3 harg3 arg4 harg4 arg5 harg5 arg6 harg6 arg7 harg7 arg8 harg8 hc0 hc1 x0 x1 x2 xs0 xs1).1, y ∈ pc.1.set :=
  View.cover_of_tiledL _ S512x1024.size (by sl_kernel_rfl) y
theorem scoverC0 (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : last0 i) (x0 : Vec F S512x1024 .bf16) (x1 x2 : Vec F S1024x1024 .bf16) (xs0 xs1 : Vec F S512x1024 .f32) (y : S512x1024.Idx) :
    ∃ pc ∈ (kernelRun0_C c i arg3 harg3 arg4 harg4 arg5 harg5 arg6 harg6 arg7 harg7 arg8 harg8 hc0 hc1 x0 x1 x2 xs0 xs1).2.1, y ∈ pc.1.set :=
  View.cover_of_tiledL _ S512x1024.size (by sl_kernel_rfl) y
theorem scoverC1 (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : last0 i) (x0 : Vec F S512x1024 .bf16) (x1 x2 : Vec F S1024x1024 .bf16) (xs0 xs1 : Vec F S512x1024 .f32) (y : S512x1024.Idx) :
    ∃ pc ∈ (kernelRun0_C c i arg3 harg3 arg4 harg4 arg5 harg5 arg6 harg6 arg7 harg7 arg8 harg8 hc0 hc1 x0 x1 x2 xs0 xs1).2.2.1, y ∈ pc.1.set :=
  View.cover_of_tiledL _ S512x1024.size (by sl_kernel_rfl) y

/-! ## What a point leaves: (output block, gate accumulator, up accumulator) -/

/-- The three buffers a point leaves, as one triple. -/
abbrev Trip0 (F : FTy → Type) : Type := Vec F S512x1024 .bf16 × Vec F S512x1024 .f32 × Vec F S512x1024 .f32

/-- A piece list read back over junk through the output window's view. -/
abbrev readO0 (L : List (View.Piece (Elt F) S512x1024 .bf16)) : Vec F S512x1024 .bf16 := VO0_3.read (Elt F) (VO0_3.writes (Elt F) VO0_3.junk L)
/-- A piece list read back over junk through the gate accumulator's view. -/
abbrev readS0 (L : List (View.Piece (Elt F) S512x1024 .f32)) : Vec F S512x1024 .f32 := VS0_0.read (Elt F) (VS0_0.writes (Elt F) VS0_0.junk L)
/-- A piece list read back over junk through the up accumulator's view. -/
abbrev readS1 (L : List (View.Piece (Elt F) S512x1024 .f32)) : Vec F S512x1024 .f32 := VS0_1.read (Elt F) (VS0_1.writes (Elt F) VS0_1.junk L)

/-- A first block: the output is a placeholder nothing consults (the window is idle there and not written back). -/
def stepA0 (c : Dev nD) (t : Fin cfg0.N) (h0 : t.val % 4 = 0) (h3 : ¬t.val % 4 = 3) : Trip0 F :=
  let R := kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hfirst0 t).mpr h0) (fun h => h3 ((hlast0 t).mp h)) (iblk0 V c 0 t) (iblk0 V c 1 t) (iblk0 V c 2 t)
  (readO0 [], readS0 R.1, readS1 R.2.1)
/-- A middle block, over what the point before left in the accumulators. -/
def stepB0 (c : Dev nD) (t : Fin cfg0.N) (h0 : ¬t.val % 4 = 0) (h3 : ¬t.val % 4 = 3) (xs0 xs1 : Vec F S512x1024 .f32) : Trip0 F :=
  let R := kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hfirst0 t).mp h)) (fun h => h3 ((hlast0 t).mp h)) (iblk0 V c 0 t) (iblk0 V c 1 t) (iblk0 V c 2 t) xs0 xs1
  (readO0 [], readS0 R.1, readS1 R.2.1)
/-- A last block, over what the point before left in the accumulators. -/
def stepC0 (c : Dev nD) (t : Fin cfg0.N) (h0 : ¬t.val % 4 = 0) (h3 : t.val % 4 = 3) (xs0 xs1 : Vec F S512x1024 .f32) : Trip0 F :=
  let R := kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hfirst0 t).mp h)) ((hlast0 t).mpr h3) (iblk0 V c 0 t) (iblk0 V c 1 t) (iblk0 V c 2 t) xs0 xs1
  (readO0 R.1, readS0 R.2.1, readS1 R.2.2.1)

/-- THE ACCUMULATION: what the point at position `n` leaves, by the case `n % 4` selects, a later block over what
    position `n - 1` left. -/
def outsAt0 (c : Dev nD) : (n : ℕ) → n < cfg0.N → Trip0 F
  | 0, hn => stepA0 V c ⟨0, hn⟩ (Nat.zero_mod _) (by show ¬(0 : ℕ) % 4 = 3; decide)
  | n + 1, hn =>
    if h0 : (n + 1) % 4 = 0 then
      if h3 : (n + 1) % 4 = 3 then False.elim (by omega)
      else stepA0 V c ⟨n + 1, hn⟩ h0 h3
    else
      if h3 : (n + 1) % 4 = 3 then stepC0 V c ⟨n + 1, hn⟩ h0 h3 (outsAt0 c n (Nat.lt_of_succ_lt hn)).2.1 (outsAt0 c n (Nat.lt_of_succ_lt hn)).2.2
      else stepB0 V c ⟨n + 1, hn⟩ h0 h3 (outsAt0 c n (Nat.lt_of_succ_lt hn)).2.1 (outsAt0 c n (Nat.lt_of_succ_lt hn)).2.2

theorem outsAt0_A (c : Dev nD) (t : Fin cfg0.N) (h0 : t.val % 4 = 0) (h3 : ¬t.val % 4 = 3) :
    outsAt0 V c t.val t.isLt = stepA0 V c t h0 h3 := by
  obtain ⟨n, hn⟩ := t
  cases n with
  | zero => rfl
  | succ n => exact (dif_pos h0).trans (dif_neg h3)
theorem outsAt0_B (c : Dev nD) (t : Fin cfg0.N) (h0 : ¬t.val % 4 = 0) (h3 : ¬t.val % 4 = 3) :
    outsAt0 V c t.val t.isLt = stepB0 V c t h0 h3 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_neg h3)
theorem outsAt0_C (c : Dev nD) (t : Fin cfg0.N) (h0 : ¬t.val % 4 = 0) (h3 : t.val % 4 = 3) :
    outsAt0 V c t.val t.isLt = stepC0 V c t h0 h3 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_pos h3)

/-! ## The region invariant: the accumulators at what the point before left -/

/-- The core's scoped buffers that belong to the other pallas_call, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 (F := F) c) ∗ (∃ r, prngReg c r)) := by
  unfold Pipeline.ΦA others0; rw [scopedRest0_eq]; first | done | (simp only [scM0_0, scM0_1, owns_whole]; try rfl)

/-- Before position `n`: at the first point the class invariant (the accumulators at anything); afterwards the
    accumulators at what position `n - 1` left. -/
def Phi0 (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2 ∗ others0 (F := F) c) ∗ (∃ r, prngReg c r))

theorem Phi0_succ (c : Dev nD) (n : ℕ) (hn : n < cfg0.N) :
    Phi0 V c (n + 1) hn = iprop(iprop(owns (c : Thread nD τ) scM0_0 fullShare (outsAt0 V c n hn).2.1 ∗ owns (c : Thread nD τ) scM0_1 fullShare (outsAt0 V c n hn).2.2 ∗ others0 (F := F) c) ∗ (∃ r, prngReg c r)) := rfl
theorem Phi0_pos (c : Dev nD) (n : ℕ) (h : n ≤ cfg0.N) (hz : n ≠ 0) :
    Phi0 V c n h = iprop(iprop(owns (c : Thread nD τ) scM0_0 fullShare (outsAt0 V c (n - 1) (by omega)).2.1 ∗ owns (c : Thread nD τ) scM0_1 fullShare (outsAt0 V c (n - 1) (by omega)).2.2 ∗ others0 (F := F) c) ∗ (∃ r, prngReg c r)) := by
  cases n with
  | zero => exact absurd rfl hz
  | succ n => rfl
/-- At any position the invariant yields the accumulators at SOME contents. -/
theorem Phi0_some (c : Dev nD) (n : ℕ) (h : n ≤ cfg0.N) :
    Phi0 V c n h ⊢ iprop(iprop((∃ d, owns (c : Thread nD τ) scM0_0 fullShare d) ∗ (∃ d, owns (c : Thread nD τ) scM0_1 fullShare d) ∗ others0 (F := F) c) ∗ (∃ r, prngReg c r)) := by
  cases n with
  | zero => rw [show Phi0 V c 0 h = Pipeline.ΦA spec0 c from rfl, PhiA0_eq]; try exact .rfl
  | succ n =>
    rw [Phi0_succ]
    iintro ⟨⟨H0, H1, Ho⟩, Hg⟩
    isplitr [Hg]
    · isplitl [H0]; · iexists _; iexact H0
      isplitl [H1]; · iexists _; iexact H1
      iexact Ho
    iexact Hg

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := Phi0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem Phi0_castSucc (c : Dev nD) (t : Fin cfg0.N) : (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ, leaves0_0, leaves0_1, leaves0_2, Phi0_castSucc]
  have hN : t.val < 352 := lt_of_lt_of_eq t.isLt (show cfg0.N = 352 from N_0)
  by_cases h0 : t.val % 4 = 0
  · have h3 : ¬t.val % 4 = 3 := by omega
    rw [Dat.leavesExact_idle (dat0 V c) 3 t (idleAt0_3 t (fun h => h3 ((hlast0 t).mp h))) (noFlush0_3 t (fun h => h3 ((hlast0 t).mp h)))]
    rw [outsAt0_A V c t h0 h3]
    unfold stepA0; dsimp only
    iintro ⟨HΦ, Ho, ⟨%d0, H0⟩, ⟨%d1, H1⟩, ⟨%d2, H2⟩, ⟨%d3, H3⟩⟩
    ihave HΦ' := (Phi0_some V c _ _) $$ HΦ
    icases HΦ' with ⟨⟨HS0, HS1, Hoth⟩, Hg⟩
    iapply ((kernelRun0_A c (grid0.coords t) _ _ _ _ _ _ _ _ _ _ _ _ ((hfirst0 t).mpr h0) (fun h => h3 ((hlast0 t).mp h)) (iblk0 V c 0 t) (iblk0 V c 1 t) (iblk0 V c 2 t)).2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hoth Hg]
    · isplitr [Hg]
      · isplitl [HS0]
        · unfold owns; iexists _; isplitr
          swap; · iexact HS0
          ipureintro; exact View.read_writes_of_cover _ _ _ _ _ (scoverA0 c _ _ _ _ _ _ _ _ _ _ _ _ _ _ _ _ _ _)
        isplitl [HS1]
        · unfold owns; iexists _; isplitr
          swap; · iexact HS1
          ipureintro; exact View.read_writes_of_cover _ _ _ _ _ (scoverA1 c _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    iexists _; iexact H3
  · have hz : t.val ≠ 0 := fun h => h0 (by rw [h])
    rw [Phi0_pos V c _ _ hz]
    by_cases h3 : t.val % 4 = 3
    · rw [show (dat0 V c).leavesExact 3 t = owns (c : Thread nD τ) (ms0_3 t) fullShare ((dat0 V c).after 3 t) from by
        unfold Dat.leavesExact; rw [liveAt0_3 t ((hlast0 t).mpr h3)], after0_3]
      rw [outsAt0_C V c t h0 h3]
      unfold stepC0; dsimp only
      iintro ⟨⟨⟨HS0, HS1, Hoth⟩, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hfirst0 t).mp h)) ((hlast0 t).mpr h3) (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scoverC0 c _ _ _ _ _ _ _ _ _ _ _ _ _ _ _ _ _ _ _ _)
          isplitl [HS1]
          · unfold owns; iexists _; isplitr
            swap; · iexact HS1
            ipureintro; exact View.read_writes_of_cover _ _ _ _ _ (scoverC1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC3 c _ _ _ _ _ _ _ _ _ _ _ _ _ _ _ _ _ _ _ _)
    · rw [Dat.leavesExact_idle (dat0 V c) 3 t (idleAt0_3 t (fun h => h3 ((hlast0 t).mp h))) (noFlush0_3 t (fun h => h3 ((hlast0 t).mp h)))]
      rw [outsAt0_B V c t h0 h3]
      unfold stepB0; dsimp only
      iintro ⟨⟨⟨HS0, HS1, Hoth⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hfirst0 t).mp h)) (fun h => h3 ((hlast0 t).mp h)) (iblk0 V c 0 t) (iblk0 V c 1 t) (iblk0 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scoverB0 c _ _ _ _ _ _ _ _ _ _ _ _ _ _ _ _ _ _ _ _)
          isplitl [HS1]
          · unfold owns; iexists _; isplitr
            swap; · iexact HS1
            ipureintro; exact View.read_writes_of_cover _ _ _ _ _ (scoverB1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

/-- The class invariant is the region invariant before the first point. -/
theorem hin0 (c : Dev nD) : Pipeline.ΦA spec0 c ⊢ (dat0 V c).Φ 0 := by
  rw [show (dat0 V c).Φ 0 = Phi0 V c 0 (Nat.zero_le _) from rfl]; exact .rfl
/-- After the last point the accumulators' contents are forgotten again. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl, PhiA0_eq]
  exact Phi0_some V c _ _

end Cert.KernelIdeal.Hand

end
-- ==== Proof.KI.R1Base.lean ====
/-
  Region 1 (the down projection): what every control case of its body shares.
  The body runs at 8 × 4 × 11 grid points (i, j, k); k walks the padded hidden axis in eleven blocks of 1024.
  At k = 0 it zeroes the f32 accumulator it keeps in scratch, at every k it adds one block product onto it, and at
  k = 10 it copies the accumulator into the output window, which is idle at the other points.
-/
import proofs.«178229_j42717744726585_1_alg».proof.Proof.Gen.KernelIdeal.Launch
import proofs.«178229_j42717744726585_1_alg».proof.Proof.Gen.KernelIdeal.Skeleton
import proofs.«178229_j42717744726585_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {U' : Type} [URA U'] {c : Dev nD} (dat : Dat τ (Elt F) Unit ℕ U' ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {U' : Type} [URA U'] {c : Dev nD} (dat : Dat τ (Elt F) Unit ℕ U' ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's two branch conditions, decided over the grid -/

/-- "this is the first block of the contraction" (k = 0): the accumulator is zeroed. -/
abbrev first1 (i : grid1.Coords) : Prop := (Scalar.cmpi .ne (Scalar.extui (Scalar.cmpi .eq (BitVec.ofNat 32 (i 2).val) 0#32)) 0#32) = 1#1
theorem hfirst1 : ∀ t : Fin cfg1.N, first1 (grid1.coords t) ↔ t.val % 11 = 0 :=
  (by decide +kernel : ∀ t : Fin grid1.N, first1 (grid1.coords t) ↔ t.val % 11 = 0)
/-- "this is the last block" (k = 10): the output block is written. -/
abbrev last1 (i : grid1.Coords) : Prop := k1_cond2 i = 1#1
theorem hlast1 : ∀ t : Fin cfg1.N, last1 (grid1.coords t) ↔ t.val % 11 = 10 :=
  (by decide +kernel : ∀ t : Fin grid1.N, last1 (grid1.coords t) ↔ t.val % 11 = 10)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem liveAt1_2 : ∀ t : Fin cfg1.N, last1 (grid1.coords t) → cfg1.idle 2 (grid1.coords t) = false := by decide +kernel

abbrev VO1_2 : View sig .tc .vmem S512x1024 .f32 := (Memref.whole cc1_stg2_0 : Memref sig .tc .vmem S512x1024 .f32).view
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
/-- The accumulator: a whole scoped buffer of the kernel's own, carried from point to point. -/
abbrev scM1_0 : Memref sig .tc .vmem S512x1024 .f32 := Memref.whole cc1_scratch0
abbrev VS1_0 : View sig .tc .vmem S512x1024 .f32 := scM1_0.view

end Cert.KernelIdeal.Hand

end
-- ==== Proof.KI.R1RunA.lean ====
/-
  Region 1, the body's run at a point with k = 0: the accumulator is zeroed and takes the first block product; the output window is left as found.
-/
import proofs.«178229_j42717744726585_1_alg».proof.Proof.KI.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : first1 i) (hc1 : ¬last1 i)
    (x0 : Vec F S512x1024 .bf16) (x1 : Vec F S1024x1024 .bf16) :
    { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__ffn2_kernel i arg3 harg3 arg4 harg4 arg5 harg5 arg6 harg6) K } := by
  refine ⟨?_, fun xi2 E K => ?run⟩
  case run =>
    simp only [cc1__ffn2_kernel_eq_skeleton]; unfold cc1__ffn2_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R1RunB.lean ====
/-
  Region 1, the body's run at a point with 0 < k < 10: the accumulator takes one more block product over what the point before left; the output window is left as found.
-/
import proofs.«178229_j42717744726585_1_alg».proof.Proof.KI.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬first1 i) (hc1 : ¬last1 i)
    (x0 : Vec F S512x1024 .bf16) (x1 : Vec F S1024x1024 .bf16) (xs0 : Vec F S512x1024 .f32) :
    { LS0 : List (View.Piece (Elt F) S512x1024 .f32) //
      ∀ (xi2 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__ffn2_kernel i arg3 harg3 arg4 harg4 arg5 harg5 arg6 harg6) K } := by
  refine ⟨?_, fun xi2 E K => ?run⟩
  case run =>
    simp only [cc1__ffn2_kernel_eq_skeleton]; unfold cc1__ffn2_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R1RunC.lean ====
/-
  Region 1, the body's run at a point with k = 10: the accumulator takes the last block product and is copied into the output window.
-/
import proofs.«178229_j42717744726585_1_alg».proof.Proof.KI.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬first1 i) (hc1 : last1 i)
    (x0 : Vec F S512x1024 .bf16) (x1 : Vec F S1024x1024 .bf16) (xs0 : Vec F S512x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__ffn2_kernel i arg3 harg3 arg4 harg4 arg5 harg5 arg6 harg6) K } := by
  refine ⟨?_, ?_, fun E K => ?run⟩
  case run =>
    simp only [cc1__ffn2_kernel_eq_skeleton]; unfold cc1__ffn2_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KI.R1Frame.lean ====
/-
  Region 1: what its accumulator and its output window hold after every grid point, the pipeline's proof data over
  those contents, and the body's obligation at a generic point.
  A point t = (i·4 + j)·11 + k of the 352 is a first block when t % 11 = 0 and a last block when t % 11 = 10.
-/
import proofs.«178229_j42717744726585_1_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scover1A (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : first1 i) (hc1 : ¬last1 i) (x0 : Vec F S512x1024 .bf16) (x1 : Vec F S1024x1024 .bf16) (y : S512x1024.Idx) :
    ∃ pc ∈ (kernelRun1_A c i arg3 harg3 arg4 harg4 arg5 harg5 arg6 harg6 hc0 hc1 x0 x1).1, y ∈ pc.1.set :=
  View.cover_of_tiledL _ S512x1024.size (by sl_kernel_rfl) y
theorem scover1B (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬first1 i) (hc1 : ¬last1 i) (x0 : Vec F S512x1024 .bf16) (x1 : Vec F S1024x1024 .bf16) (xs0 : Vec F S512x1024 .f32) (y : S512x1024.Idx) :
    ∃ pc ∈ (kernelRun1_B c i arg3 harg3 arg4 harg4 arg5 harg5 arg6 harg6 hc0 hc1 x0 x1 xs0).1, y ∈ pc.1.set :=
  View.cover_of_tiledL _ S512x1024.size (by sl_kernel_rfl) y
theorem cover1C (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬first1 i) (hc1 : last1 i) (x0 : Vec F S512x1024 .bf16) (x1 : Vec F S1024x1024 .bf16) (xs0 : Vec F S512x1024 .f32) (y : S512x1024.Idx) :
    ∃ pc ∈ (kernelRun1_C c i arg3 harg3 arg4 harg4 arg5 harg5 arg6 harg6 hc0 hc1 x0 x1 xs0).1, y ∈ pc.1.set :=
  View.cover_of_tiledL _ S512x1024.size (by sl_kernel_rfl) y
theorem scover1C (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬first1 i) (hc1 : last1 i) (x0 : Vec F S512x1024 .bf16) (x1 : Vec F S1024x1024 .bf16) (xs0 : Vec F S512x1024 .f32) (y : S512x1024.Idx) :
    ∃ pc ∈ (kernelRun1_C c i arg3 harg3 arg4 harg4 arg5 harg5 arg6 harg6 hc0 hc1 x0 x1 xs0).2.1, y ∈ pc.1.set :=
  View.cover_of_tiledL _ S512x1024.size (by sl_kernel_rfl) y

/-- What a point leaves: (output block, accumulator). -/
abbrev Pair1 (F : FTy → Type) : Type := Vec F S512x1024 .f32 × Vec F S512x1024 .f32
abbrev readO1 (L : List (View.Piece (Elt F) S512x1024 .f32)) : Vec F S512x1024 .f32 := VO1_2.read (Elt F) (VO1_2.writes (Elt F) VO1_2.junk L)
abbrev readT1 (L : List (View.Piece (Elt F) S512x1024 .f32)) : Vec F S512x1024 .f32 := VS1_0.read (Elt F) (VS1_0.writes (Elt F) VS1_0.junk L)

def stepA1 (c : Dev nD) (t : Fin cfg1.N) (h0 : t.val % 11 = 0) (h3 : ¬t.val % 11 = 10) : Pair1 F :=
  let R := kernelRun1_A (F := F) c (grid1.coords t) (ms1_0 t) (hs1_0 t) (ms1_1 t) (hs1_1 t) (ms1_2 t) (hs1_2 t) scM1_0 (Memref.isWhole_whole _) ((hfirst1 t).mpr h0) (fun h => h3 ((hlast1 t).mp h)) (iblk1 V c 0 t) (iblk1 V c 1 t)
  (readO1 [], readT1 R.1)
def stepB1 (c : Dev nD) (t : Fin cfg1.N) (h0 : ¬t.val % 11 = 0) (h3 : ¬t.val % 11 = 10) (xs0 : Vec F S512x1024 .f32) : Pair1 F :=
  let R := kernelRun1_B (F := F) c (grid1.coords t) (ms1_0 t) (hs1_0 t) (ms1_1 t) (hs1_1 t) (ms1_2 t) (hs1_2 t) scM1_0 (Memref.isWhole_whole _) (fun h => h0 ((hfirst1 t).mp h)) (fun h => h3 ((hlast1 t).mp h)) (iblk1 V c 0 t) (iblk1 V c 1 t) xs0
  (readO1 [], readT1 R.1)
def stepC1 (c : Dev nD) (t : Fin cfg1.N) (h0 : ¬t.val % 11 = 0) (h3 : t.val % 11 = 10) (xs0 : Vec F S512x1024 .f32) : Pair1 F :=
  let R := kernelRun1_C (F := F) c (grid1.coords t) (ms1_0 t) (hs1_0 t) (ms1_1 t) (hs1_1 t) (ms1_2 t) (hs1_2 t) scM1_0 (Memref.isWhole_whole _) (fun h => h0 ((hfirst1 t).mp h)) ((hlast1 t).mpr h3) (iblk1 V c 0 t) (iblk1 V c 1 t) xs0
  (readO1 R.1, readT1 R.2.1)

/-- THE ACCUMULATION: what the point at position `n` leaves, by the case `n % 11` selects. -/
def outsAt1 (c : Dev nD) : (n : ℕ) → n < cfg1.N → Pair1 F
  | 0, hn => stepA1 V c ⟨0, hn⟩ (Nat.zero_mod _) (by show ¬(0 : ℕ) % 11 = 10; decide)
  | n + 1, hn =>
    if h0 : (n + 1) % 11 = 0 then
      if h3 : (n + 1) % 11 = 10 then False.elim (by omega)
      else stepA1 V c ⟨n + 1, hn⟩ h0 h3
    else
      if h3 : (n + 1) % 11 = 10 then stepC1 V c ⟨n + 1, hn⟩ h0 h3 (outsAt1 c n (Nat.lt_of_succ_lt hn)).2
      else stepB1 V c ⟨n + 1, hn⟩ h0 h3 (outsAt1 c n (Nat.lt_of_succ_lt hn)).2

theorem outsAt1_A (c : Dev nD) (t : Fin cfg1.N) (h0 : t.val % 11 = 0) (h3 : ¬t.val % 11 = 10) :
    outsAt1 V c t.val t.isLt = stepA1 V c t h0 h3 := by
  obtain ⟨n, hn⟩ := t
  cases n with
  | zero => rfl
  | succ n => exact (dif_pos h0).trans (dif_neg h3)
theorem outsAt1_B (c : Dev nD) (t : Fin cfg1.N) (h0 : ¬t.val % 11 = 0) (h3 : ¬t.val % 11 = 10) :
    outsAt1 V c t.val t.isLt = stepB1 V c t h0 h3 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h3)
theorem outsAt1_C (c : Dev nD) (t : Fin cfg1.N) (h0 : ¬t.val % 11 = 0) (h3 : t.val % 11 = 10) :
    outsAt1 V c t.val t.isLt = stepC1 V c t h0 h3 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h3)

/-- The core's scoped buffers that are no staging buffer of this call: the other call's, each at some contents, and
    last the accumulator in the state `acc`. -/
def chain1 (c : Dev nD) (acc : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ acc)

theorem PhiA1_eq (c : Dev nD) :
    (Pipeline.ΦA spec1 c : sProp 𝕄) = iprop(chain1 (F := F) c iprop(∃ d, owns (c : Thread nD τ) scM1_0 fullShare d) ∗ (∃ r, prngReg c r)) := by
  unfold Pipeline.ΦA chain1; rw [scopedRest1_eq]; first | done | (simp only [scM1_0, owns_whole]; try rfl)

def Phi1 (c : Dev nD) : (n : ℕ) → n ≤ cfg1.N → sProp 𝕄
  | 0, _ => Pipeline.ΦA spec1 c
  | n + 1, hn => iprop(chain1 (F := F) c (owns (c : Thread nD τ) scM1_0 fullShare (outsAt1 V c n hn).2) ∗ (∃ r, prngReg c r))

theorem Phi1_succ (c : Dev nD) (n : ℕ) (hn : n < cfg1.N) :
    Phi1 V c (n + 1) hn = iprop(chain1 (F := F) c (owns (c : Thread nD τ) scM1_0 fullShare (outsAt1 V c n hn).2) ∗ (∃ r, prngReg c r)) := rfl
theorem Phi1_pos (c : Dev nD) (n : ℕ) (h : n ≤ cfg1.N) (hz : n ≠ 0) :
    Phi1 V c n h = iprop(chain1 (F := F) c (owns (c : Thread nD τ) scM1_0 fullShare (outsAt1 V c (n - 1) (by omega)).2) ∗ (∃ r, prngReg c r)) := by
  cases n with
  | zero => exact absurd rfl hz
  | succ n => rfl
/-- The chain is monotone in the accumulator's state. -/
theorem chain1_mono (c : Dev nD) {P Q : sProp 𝕄} (h : P ⊢ Q) : chain1 (F := F) c P ⊢ chain1 (F := F) c Q := by
  unfold chain1
  iintro ⟨O0, O1, O2, O3, O4, O5, O6, O7, O8, O9, HP⟩
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  iapply h; iexact HP
theorem Phi1_some (c : Dev nD) (n : ℕ) (h : n ≤ cfg1.N) :
    Phi1 V c n h ⊢ iprop(chain1 (F := F) c iprop(∃ d, owns (c : Thread nD τ) scM1_0 fullShare d) ∗ (∃ r, prngReg c r)) := by
  cases n with
  | zero => rw [show Phi1 V c 0 h = Pipeline.ΦA spec1 c from rfl, PhiA1_eq]; try exact .rfl
  | succ n =>
    rw [Phi1_succ]
    iintro ⟨Hc, Hg⟩
    isplitl [Hc]
    · iapply (chain1_mono c (show owns (c : Thread nD τ) scM1_0 fullShare (outsAt1 V c n h).2 ⊢ (iprop(∃ d, owns (c : Thread nD τ) scM1_0 fullShare d) : sProp 𝕄) from by iintro H; iexists _; iexact H))
      iexact Hc
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := Phi1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem Phi1_castSucc (c : Dev nD) (t : Fin cfg1.N) : (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ, leaves1_0, leaves1_1, Phi1_castSucc]
  have hN : t.val < 352 := lt_of_lt_of_eq t.isLt (show cfg1.N = 352 from N_1)
  by_cases h0 : t.val % 11 = 0
  · have h3 : ¬t.val % 11 = 10 := by omega
    rw [Dat.leavesExact_idle (dat1 V c) 2 t (idleAt1_2 t (fun h => h3 ((hlast1 t).mp h))) (noFlush1_2 t (fun h => h3 ((hlast1 t).mp h)))]
    rw [outsAt1_A V c t h0 h3]
    unfold stepA1; dsimp only
    iintro ⟨HΦ, Ho, ⟨%d0, H0⟩, ⟨%d1, H1⟩, ⟨%d2, H2⟩⟩
    ihave HΦ' := (Phi1_some V c _ _) $$ HΦ
    unfold chain1
    icases HΦ' with ⟨⟨O0, O1, O2, O3, O4, O5, O6, O7, O8, O9, HS0⟩, Hg⟩
    iapply ((kernelRun1_A c (grid1.coords t) _ _ _ _ _ _ _ _ ((hfirst1 t).mpr h0) (fun h => h3 ((hlast1 t).mp h)) (iblk1 V c 0 t) (iblk1 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [O0 O1 O2 O3 O4 O5 O6 O7 O8 O9 HS0 Hg]
    · isplitr [Hg]
      ·
        isplitl [O0]; · iexact O0
        isplitl [O1]; · iexact O1
        isplitl [O2]; · iexact O2
        isplitl [O3]; · iexact O3
        isplitl [O4]; · iexact O4
        isplitl [O5]; · iexact O5
        isplitl [O6]; · iexact O6
        isplitl [O7]; · iexact O7
        isplitl [O8]; · iexact O8
        isplitl [O9]; · iexact O9
        unfold owns; iexists _; isplitr
        swap; · iexact HS0
        ipureintro; exact View.read_writes_of_cover _ _ _ _ _ (scover1A c _ _ _ _ _ _ _ _ _ _ _ _ _)
      iexact Hg
    isplitl [Ho]; · iexact Ho
    isplitl [H0]; · iexact H0
    isplitl [H1]; · iexact H1
    iexists _; iexact H2
  · have hz : t.val ≠ 0 := fun h => h0 (by rw [h])
    rw [Phi1_pos V c _ _ hz]
    unfold chain1
    by_cases h3 : t.val % 11 = 10
    · rw [show (dat1 V c).leavesExact 2 t = owns (c : Thread nD τ) (ms1_2 t) fullShare ((dat1 V c).after 2 t) from by
        unfold Dat.leavesExact; rw [liveAt1_2 t ((hlast1 t).mpr h3)], after1_2]
      rw [outsAt1_C V c t h0 h3]
      unfold stepC1; dsimp only
      iintro ⟨⟨⟨O0, O1, O2, O3, O4, O5, O6, O7, O8, O9, HS0⟩, Hg⟩, Ho, ⟨%d0, H0⟩, ⟨%d1, H1⟩, ⟨%d2, H2⟩⟩
      iapply ((kernelRun1_C c (grid1.coords t) _ _ _ _ _ _ _ _ (fun h => h0 ((hfirst1 t).mp h)) ((hlast1 t).mpr h3) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [O0 O1 O2 O3 O4 O5 O6 O7 O8 O9 HS0 Hg]
      · isplitr [Hg]
        ·
          isplitl [O0]; · iexact O0
          isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          unfold owns; iexists _; isplitr
          swap; · iexact HS0
          ipureintro; exact View.read_writes_of_cover _ _ _ _ _ (scover1C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1C c _ _ _ _ _ _ _ _ _ _ _ _ _ _)
    · rw [Dat.leavesExact_idle (dat1 V c) 2 t (idleAt1_2 t (fun h => h3 ((hlast1 t).mp h))) (noFlush1_2 t (fun h => h3 ((hlast1 t).mp h)))]
      rw [outsAt1_B V c t h0 h3]
      unfold stepB1; dsimp only
      iintro ⟨⟨⟨O0, O1, O2, O3, O4, O5, O6, O7, O8, O9, HS0⟩, Hg⟩, Ho, ⟨%d0, H0⟩, ⟨%d1, H1⟩, ⟨%d2, H2⟩⟩
      iapply ((kernelRun1_B c (grid1.coords t) _ _ _ _ _ _ _ _ (fun h => h0 ((hfirst1 t).mp h)) (fun h => h3 ((hlast1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [O0 O1 O2 O3 O4 O5 O6 O7 O8 O9 HS0 Hg]
      · isplitr [Hg]
        ·
          isplitl [O0]; · iexact O0
          isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          isplitl [O9]; · iexact O9
          unfold owns; iexists _; isplitr
          swap; · iexact HS0
          ipureintro; exact View.read_writes_of_cover _ _ _ _ _ (scover1B c _ _ _ _ _ _ _ _ _ _ _ _ _ _)
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Phi1 V c 0 (Nat.zero_le _) from rfl]; exact .rfl
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl, PhiA1_eq]
  exact Phi1_some V c _ _

end Cert.KernelIdeal.Hand

end
-- ==== Proof.KI.Run.lean ====
/-
  The whole program as a chain of segments: six stretches of host operations (the bf16 conversions and the zero
  padding of the three weights), then the two kernel regions. Between segments the core holds every unscoped buffer
  at a known valuation; a region replaces its arrays' contents by what its write-backs leave and touches nothing else.
  The conclusion names what the result buffer holds at the end and says that the four arguments are unchanged.
-/
import proofs.«178229_j42717744726585_1_alg».proof.Proof.KI.R0Frame
import proofs.«178229_j42717744726585_1_alg».proof.Proof.KI.R1Frame
import proofs.«178229_j42717744726585_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents at the two regions' boundaries -/

/-- What region 0 finds: the launch memory after the six host stretches. -/
abbrev E0 (c : Dev nD) (b : Ref sig .tc) : Buf (Elt F) ((c : Thread nD τ).loc b) := V6 m c b
/-- At region 0's exit its arrays hold what the pipeline leaves; every other buffer is as entered. -/
def W7 (c : Dev nD) : Valuation τ sig (Elt F) :=
  Pipeline.withArrays spec0 c (V6 m c) fun w => (dat0 (E0 m) c).arrAt w cfg0.N
theorem W7_arr (c : Dev nD) (w : Fin cfg0.W) :
    W7 m c (Proc.devRef .tc (Pipeline.arrRef spec0 w)) = (dat0 (E0 m) c).arrAt w cfg0.N := by
  unfold W7; exact Pipeline.withArrays_arr spec0 launch0.win.arr_inj c _ _ w
theorem W7_of_ne (c : Dev nD) (b : Ref sig .tc) (hb : ∀ w, Pipeline.arrRef spec0 w ≠ b) :
    W7 m c (Proc.devRef .tc b) = V6 m c (Proc.devRef .tc b) := by
  unfold W7; exact Pipeline.withArrays_of_ne spec0 c _ _ b hb
/-- What region 1 finds. -/
abbrev E1 (c : Dev nD) (b : Ref sig .tc) : Buf (Elt F) ((c : Thread nD τ).loc b) := W7 m c b
theorem hF0 (c : Dev nD) (w : Fin cfg0.W) : (dat0 (E0 m) c).arrAt w cfg0.N = E1 m c (Pipeline.arrRef spec0 w) := (W7_arr m c w).symm
theorem hrest0 (c : Dev nD) : ∀ b, b ∉ Finset.univ.image (Pipeline.arrRef spec0) → E1 m c b = E0 m c b :=
  fun b hb => W7_of_ne m c b fun w e => hb (Finset.mem_image.mpr ⟨w, Finset.mem_univ _, e⟩)

/-- At region 1's exit. -/
def W8 (c : Dev nD) : Valuation τ sig (Elt F) :=
  Pipeline.withArrays spec1 c (W7 m c) fun w => (dat1 (E1 m) c).arrAt w cfg1.N
theorem W8_arr (c : Dev nD) (w : Fin cfg1.W) :
    W8 m c (Proc.devRef .tc (Pipeline.arrRef spec1 w)) = (dat1 (E1 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev E2 (c : Dev nD) (b : Ref sig .tc) : Buf (Elt F) ((c : Thread nD τ).loc b) := W8 m c b
theorem hF1 (c : Dev nD) (w : Fin cfg1.W) : (dat1 (E1 m) c).arrAt w cfg1.N = E2 m c (Pipeline.arrRef spec1 w) := (W8_arr m c w).symm
theorem hrest1 (c : Dev nD) : ∀ b, b ∉ Finset.univ.image (Pipeline.arrRef spec1) → E2 m c b = E1 m c b :=
  fun b hb => W8_of_ne m c b fun w e => hb (Finset.mem_image.mpr ⟨w, Finset.mem_univ _, e⟩)

/-! ## No segment writes an argument -/

theorem V6_main_arg0 (c : Dev nD) : V6 m c main_arg0 = m ((c : Thread nD τ).loc main_arg0) :=
  (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
theorem W8_main_arg0 (c : Dev nD) : W8 m c (Proc.devRef .tc main_arg0) = m ((c : Thread nD τ).loc main_arg0) :=
  (W8_of_ne m c main_arg0 (by decide)).trans <| (W7_of_ne m c main_arg0 (by decide)).trans (V6_main_arg0 m c)
theorem V6_main_arg1 (c : Dev nD) : V6 m c main_arg1 = m ((c : Thread nD τ).loc main_arg1) :=
  (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem W8_main_arg1 (c : Dev nD) : W8 m c (Proc.devRef .tc main_arg1) = m ((c : Thread nD τ).loc main_arg1) :=
  (W8_of_ne m c main_arg1 (by decide)).trans <| (W7_of_ne m c main_arg1 (by decide)).trans (V6_main_arg1 m c)
theorem V6_main_arg2 (c : Dev nD) : V6 m c main_arg2 = m ((c : Thread nD τ).loc main_arg2) :=
  (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
theorem W8_main_arg2 (c : Dev nD) : W8 m c (Proc.devRef .tc main_arg2) = m ((c : Thread nD τ).loc main_arg2) :=
  (W8_of_ne m c main_arg2 (by decide)).trans <| (W7_of_ne m c main_arg2 (by decide)).trans (V6_main_arg2 m c)
theorem V6_main_arg3 (c : Dev nD) : V6 m c main_arg3 = m ((c : Thread nD τ).loc main_arg3) :=
  (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl
theorem W8_main_arg3 (c : Dev nD) : W8 m c (Proc.devRef .tc main_arg3) = m ((c : Thread nD τ).loc main_arg3) :=
  (W8_of_ne m c main_arg3 (by decide)).trans <| (W7_of_ne m c main_arg3 (by decide)).trans (V6_main_arg3 m c)

/-! ## The proof data family and what rides beside the buffers -/

/-- Routing at a region's entry: the generator register and the scoped rest make the class invariant; the (empty)
    table family is dropped. -/
theorem rot_in (P Q S : sProp 𝕄) : iprop(P ∗ Q ∗ S) ⊢ iprop(S ∗ P) := by
  iintro ⟨Hp, -, Hr⟩
  isplitl [Hr]; · iexact Hr
  iexact Hp
/-- Routing at a region's exit: the class invariant gives the register and the scoped rest back. -/
theorem rot_out (P S : sProp 𝕄) : iprop(S ∗ P) ⊢ iprop(P ∗ BI.emp ∗ S) := by
  iintro ⟨Hr, Hp⟩
  isplitl [Hp]; · iexact Hp
  isplitr; · iempintro
  iexact Hr

def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- Beside the buffers: the core's generator register at some state and the core owing nothing. -/
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W8 m c) ∗ ∃ r, prngReg c r)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0 as a segment of @main: entered with every unscoped buffer at the boundary's contents, its arrays split
    out of them and, at the exit, put back at what the write-backs leave; the generator register passes through the
    region invariant; nothing is owed and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (rot_in _ _ _).trans (hin0 (E0 m) c)
  hout c := by
    rw [Pipeline.ownSems0_none]
    exact (hout0 (E0 m) c).trans (rot_out _ _)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at the boundary's contents, its arrays split
    out of them and, at the exit, put back at what the write-backs leave; the generator register passes through the
    region invariant; nothing is owed and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (rot_in _ _ _).trans (hin1 (E1 m) c)
  hout c := by
    rw [Pipeline.ownSems0_none]
    exact (hout1 (E1 m) c).trans (rot_out _ _)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The rest state is the same at the three places the host side names one. -/
abbrev Erest : Fin 3 → Dev nD → sProp 𝕄 := fun _ c => R c

set_option backward.isDefEq.respectTransparency.types false in
/-- Every weakly fair execution of @main terminates without a fault; at the end the result buffer holds what region
    1's write-backs leave and the four arguments are as launched. -/
theorem run_main : θ_run defs (onTc (τ := τ) (main (F := F))) ⟨m, fun _ => 0, ρ⟩ (fun r => ∀ c : Dev nD,
      r.2.mem ((c.tc : Thread nD τ).loc main_v8) = W8 m c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_dev (pcfgs (F := F)) adm (pdats m) () cellOf_inj emb₁ defs₀ 𝒱₀ L lv m ρ main
    (fun c => segs m 𝒱₀ L lv (Erest (F := F)) () (pdats m) (reg0 m) (reg1 m) c)
    (fun c Q => by
      rewrite [main_chain c, Seg.run_eq_chain,
        show (segs m 𝒱₀ L lv (Erest (F := F)) () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c =>
      ⟨h c _ (mem_uc main_v8 (by decide)),
       (h c _ (mem_uc main_arg0 (by decide))).trans (W8_main_arg0 m c),
       (h c _ (mem_uc main_arg1 (by decide))).trans (W8_main_arg1 m c),
       (h c _ (mem_uc main_arg2 (by decide))).trans (W8_main_arg2 m c),
       (h c _ (mem_uc main_arg3 (by decide))).trans (W8_main_arg3 m c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Hand

end
-- ==== Proof.KI.HostVals.lean ====
/-
  What region 0 finds in its input arrays. Before the first kernel region the host converts the four f32 arguments to
  bf16 — the identity on ideal values — and pads three of them with the constant 0 converted to a float, which is the
  real 0: the gate and up weights [4096 × 11008] by 256 columns on the right, the down weight [11008 × 4096] by 256 rows
  at the bottom. So at entry the activation array is the first argument itself, and each padded weight array is its
  argument inside the argument's extent and 0 in the padding. No host operation writes an argument.
-/
import proofs.«178229_j42717744726585_1_alg».proof.Proof.Gen.KernelIdeal.Regions
import Idealize.ShloMosaic.Lib.StableHlo.Run
import Idealize.ShloMosaic.Lib.ValueIdx
import Idealize.ShloMosaic.Lib.Pipeline.Value
import Idealize.ShloMosaic.Lib.KernelVsHost
import Idealize.ShloMosaic.PureOps.Ideal

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.ValueIdx

/-! ## A padded matrix read at an index -/

/-- A [4096 × 11008] matrix padded by 256 columns on the right, read at (r, h): the matrix there while h is one of its
    columns, the padding value past its last column. -/
theorem pad_cols_apply (x : S4096x11008.Idx → EReal) (v : S_.Idx → EReal) (r : Fin 4096) (h : Fin 11264) :
    pad S4096x11264 ![0, 0] ![0, 256] ![0, 0] x v pads_S4096x11008_S4096x11264_000_02560 h_S_ (ix2 r h)
      = if hh : h.val < 11008 then x (ix2 r ⟨h.val, hh⟩) else v (Shape.Idx.first h_S_) := by
  by_cases hh : h.val < 11008
  · rw [dif_pos hh]
    exact pad_apply_of_inside _ _ _ x v _ h_S_ _ (ix2 r (⟨h.val, hh⟩ : Fin 11008)) (by
      intro a
      match a with
      | ⟨0, _⟩ => show r.val = 0 + r.val * (0 + 1); omega
      | ⟨1, _⟩ => show h.val = 0 + h.val * (0 + 1); omega)
  · rw [dif_neg hh]
    exact pad_apply_of_not_inside _ _ _ x v _ h_S_ _ (1 : Fin 2) (by
      intro hin
      have e : (h.val - 0) / (0 + 1) < 11008 := hin.2.2
      omega)

/-- An [11008 × 4096] matrix padded by 256 rows at the bottom, read at (h, j): the matrix there while h is one of its
    rows, the padding value past its last row. -/
theorem pad_rows_apply (x : S11008x4096.Idx → EReal) (v : S_.Idx → EReal) (h : Fin 11264) (j : Fin 4096) :
    pad S11264x4096 ![0, 0] ![256, 0] ![0, 0] x v pads_S11008x4096_S11264x4096_02560_000 h_S_ (ix2 h j)
      = if hh : h.val < 11008 then x (ix2 ⟨h.val, hh⟩ j) else v (Shape.Idx.first h_S_) := by
  by_cases hh : h.val < 11008
  · rw [dif_pos hh]
    exact pad_apply_of_inside _ _ _ x v _ h_S_ _ (ix2 (⟨h.val, hh⟩ : Fin 11008) j) (by
      intro a
      match a with
      | ⟨0, _⟩ => show h.val = 0 + h.val * (0 + 1); omega
      | ⟨1, _⟩ => show j.val = 0 + j.val * (0 + 1); omega)
  · rw [dif_neg hh]
    exact pad_apply_of_not_inside _ _ _ x v _ h_S_ _ (0 : Fin 2) (by
      intro hin
      have e : (h.val - 0) / (0 + 1) < 11008 := hin.2.2
      omega)

/-- The padding value: the integer constant 0 converted to a float is the real 0. -/
theorem padval_zero (i : S_.Idx) : (sitofp (F := Ideal) .bf16 (constantI S_ 32 0#32) : S_.Idx → EReal) i = 0 := by
  show (((0#32 : BitVec 32).toInt : ℝ) : EReal) = 0
  simp

/-! ## The arrays at region 0's entry -/

variable (m : (ℓ : Loc nD τ sig) → Buf (Elt Ideal) ℓ) (c : Dev nD)

/-- The activations: the conversion to bf16 is the identity, so the array is the first argument. -/
theorem entry_x :
    (V6 (F := Ideal) m c main_v0 : S4096x4096.Idx → EReal) = (m ((c : Thread nD τ).loc main_arg0) : S4096x4096.Idx → EReal) := by
  rw [V6_of m c main_v0 (by decide), V5_of m c main_v0 (by decide), V4_of m c main_v0 (by decide),
    V3_of m c main_v0 (by decide), V2_of m c main_v0 (by decide)]
  show StableHlo.after hostOps0 (V0 m c) (Proc.devRef .tc main_v0) = _
  after_results
  rfl

/-- The gate weight's array as the host operations' term: the second argument padded with the converted constant. -/
theorem entry_w1p_eq :
    (V6 (F := Ideal) m c main_v2 : S4096x11264.Idx → EReal)
      = pad S4096x11264 ![0, 0] ![0, 256] ![0, 0] (m ((c : Thread nD τ).loc main_arg1) : S4096x11008.Idx → EReal)
          (sitofp (F := Ideal) .bf16 (constantI S_ 32 0#32) : S_.Idx → EReal) pads_S4096x11008_S4096x11264_000_02560 h_S_ := by
  rw [V6_of m c main_v2 (by decide), V5_of m c main_v2 (by decide), V4_of m c main_v2 (by decide),
    V3_of m c main_v2 (by decide)]
  show StableHlo.after hostOps0_1 (V1 m c) (Proc.devRef .tc main_v2) = _
  after_results
  rfl

/-- The gate weight, padded: the second argument on its 11008 columns, 0 on the 256 added ones. -/
theorem entry_w1p (r : Fin 4096) (h : Fin 11264) :
    (V6 (F := Ideal) m c main_v2 : S4096x11264.Idx → EReal) (ix2 r h)
      = (if hh : h.val < 11008 then (m ((c : Thread nD τ).loc main_arg1) : S4096x11008.Idx → EReal) (ix2 r ⟨h.val, hh⟩) else 0 : EReal) := by
  rw [entry_w1p_eq, pad_cols_apply]
  by_cases hh : h.val < 11008
  · rw [dif_pos hh, dif_pos hh]
  · rw [dif_neg hh, dif_neg hh, padval_zero]

/-- The up weight's array as the host operations' term: the fourth argument padded with the converted constant. -/
theorem entry_w3p_eq :
    (V6 (F := Ideal) m c main_v4 : S4096x11264.Idx → EReal)
      = pad S4096x11264 ![0, 0] ![0, 256] ![0, 0] (m ((c : Thread nD τ).loc main_arg3) : S4096x11008.Idx → EReal)
          (sitofp (F := Ideal) .bf16 (constantI S_ 32 0#32) : S_.Idx → EReal) pads_S4096x11008_S4096x11264_000_02560 h_S_ := by
  rw [V6_of m c main_v4 (by decide), V5_of m c main_v4 (by decide)]
  show StableHlo.after hostOps0_3 (V3 m c) (Proc.devRef .tc main_v4) = _
  after_results
  rfl

/-- The up weight, padded: the fourth argument on its 11008 columns, 0 on the 256 added ones. -/
theorem entry_w3p (r : Fin 4096) (h : Fin 11264) :
    (V6 (F := Ideal) m c main_v4 : S4096x11264.Idx → EReal) (ix2 r h)
      = (if hh : h.val < 11008 then (m ((c : Thread nD τ).loc main_arg3) : S4096x11008.Idx → EReal) (ix2 r ⟨h.val, hh⟩) else 0 : EReal) := by
  rw [entry_w3p_eq, pad_cols_apply]
  by_cases hh : h.val < 11008
  · rw [dif_pos hh, dif_pos hh]
  · rw [dif_neg hh, dif_neg hh, padval_zero]

/-- The down weight's array as the host operations' term: the third argument padded with the converted constant. -/
theorem entry_w2p_eq :
    (V6 (F := Ideal) m c main_v6 : S11264x4096.Idx → EReal)
      = pad S11264x4096 ![0, 0] ![256, 0] ![0, 0] (m ((c : Thread nD τ).loc main_arg2) : S11008x4096.Idx → EReal)
          (sitofp (F := Ideal) .bf16 (constantI S_ 32 0#32) : S_.Idx → EReal) pads_S11008x4096_S11264x4096_02560_000 h_S_ := by
  show StableHlo.after hostOps0_5 (V5 m c) (Proc.devRef .tc main_v6) = _
  after_results
  rfl

/-- The down weight, padded: the third argument on its 11008 rows, 0 on the 256 added ones. -/
theorem entry_w2p (h : Fin 11264) (j : Fin 4096) :
    (V6 (F := Ideal) m c main_v6 : S11264x4096.Idx → EReal) (ix2 h j)
      = (if hh : h.val < 11008 then (m ((c : Thread nD τ).loc main_arg2) : S11008x4096.Idx → EReal) (ix2 ⟨h.val, hh⟩ j) else 0 : EReal) := by
  rw [entry_w2p_eq, pad_rows_apply]
  by_cases hh : h.val < 11008
  · rw [dif_pos hh, dif_pos hh]
  · rw [dif_neg hh, dif_neg hh, padval_zero]

/-! ## The arguments are as launched -/

/-- No host operation writes the first argument. -/
theorem entry_arg0 : V6 (F := Ideal) m c main_arg0 = m ((c : Thread nD τ).loc main_arg0) :=
  (V6_of m c main_arg0 (by decide)).trans <| (V5_of m c main_arg0 (by decide)).trans <| (V4_of m c main_arg0 (by decide)).trans <|
    (V3_of m c main_arg0 (by decide)).trans <| (V2_of m c main_arg0 (by decide)).trans <| (V1_of m c main_arg0 (by decide)).trans rfl
/-- No host operation writes the second argument. -/
theorem entry_arg1 : V6 (F := Ideal) m c main_arg1 = m ((c : Thread nD τ).loc main_arg1) :=
  (V6_of m c main_arg1 (by decide)).trans <| (V5_of m c main_arg1 (by decide)).trans <| (V4_of m c main_arg1 (by decide)).trans <|
    (V3_of m c main_arg1 (by decide)).trans <| (V2_of m c main_arg1 (by decide)).trans <| (V1_of m c main_arg1 (by decide)).trans rfl
/-- No host operation writes the third argument. -/
theorem entry_arg2 : V6 (F := Ideal) m c main_arg2 = m ((c : Thread nD τ).loc main_arg2) :=
  (V6_of m c main_arg2 (by decide)).trans <| (V5_of m c main_arg2 (by decide)).trans <| (V4_of m c main_arg2 (by decide)).trans <|
    (V3_of m c main_arg2 (by decide)).trans <| (V2_of m c main_arg2 (by decide)).trans <| (V1_of m c main_arg2 (by decide)).trans rfl
/-- No host operation writes the fourth argument. -/
theorem entry_arg3 : V6 (F := Ideal) m c main_arg3 = m ((c : Thread nD τ).loc main_arg3) :=
  (V6_of m c main_arg3 (by decide)).trans <| (V5_of m c main_arg3 (by decide)).trans <| (V4_of m c main_arg3 (by decide)).trans <|
    (V3_of m c main_arg3 (by decide)).trans <| (V2_of m c main_arg3 (by decide)).trans <| (V1_of m c main_arg3 (by decide)).trans rfl

end Cert.KernelIdeal.Hand

end
-- ==== Proof.KI.Val0Pieces.lean ====
/-
  Region 0 at the extended reals: what each case of the body leaves in its buffers, index by index.
  One accumulator update adds, at entry (p, s) of the 512 × 1024 tile, the product of row p of the x block with
  column s of the weight block: acc[p,s] + Σ_q xb[p,q] · wb[q,s]. A first block updates a zeroed accumulator.
  At a last block the output tile is silu(gate) · up of the two updated accumulators.
-/
import proofs.«178229_j42717744726585_1_alg».proof.Proof.KI.R0Frame
import Idealize.ShloMosaic.PureOps.Ideal.Laws
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

/-- One accumulator update, index by index. -/
def upd (acc : S512x1024.Idx → EReal) (xb : S512x1024.Idx → EReal) (wb : S1024x1024.Idx → EReal) : S512x1024.Idx → EReal :=
  fun y => acc y + ∑ q : Fin 1024, xb (ix2 ⟨(y 0).val, (y 0).isLt⟩ q) * wb (ix2 q ⟨(y 1).val, (y 1).isLt⟩)

/-- The activation written at a last block. -/
def act (g u : S512x1024.Idx → EReal) : S512x1024.Idx → EReal := fun y => g y * Ideal.logistic (g y) * u y

/-! ## What the body's stores leave, as payloads of the entry contents (any float instance) -/

section Pieces
variable {F : FTy → Type} [FloatOps F]

/-- Every store of the body is through the whole tile at offset zero. -/
theorem hz : (![0, 0] : Fin 2 → Nat) = fun _ => 0 := funext fun a => by fin_cases a <;> rfl

/-- Middle block, gate accumulator: one update of what was there. -/
theorem pieceB0_gate (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : ¬last0 i) (x0 : Vec F S512x1024 .bf16) (x1 x2 : Vec F S1024x1024 .bf16) (xs0 xs1 : Vec F S512x1024 .f32) :
    readS0 (F := F) (kernelRun0_B (F := F) c i arg3 harg3 arg4 harg4 arg5 harg5 arg6 harg6 arg7 harg7 arg8 harg8 hc0 hc1 x0 x1 x2 xs0 xs1).1 = k0_pay3 xs0 x0 x1 := by
  unfold readS0
  rw [View.read_writes_eq_canon _ _ _ (scoverB0 c i arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg3.read_unread, harg4.read_unread, harg5.read_unread, harg7.read_unread, harg8.read_unread, View.ld_unit_zero (S := S512x1024) hz, View.ld_unit_zero (S := S1024x1024) hz]

/-- Middle block, up accumulator. -/
theorem pieceB0_up (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : ¬last0 i) (x0 : Vec F S512x1024 .bf16) (x1 x2 : Vec F S1024x1024 .bf16) (xs0 xs1 : Vec F S512x1024 .f32) :
    readS1 (F := F) (kernelRun0_B (F := F) c i arg3 harg3 arg4 harg4 arg5 harg5 arg6 harg6 arg7 harg7 arg8 harg8 hc0 hc1 x0 x1 x2 xs0 xs1).2.1 = k0_pay4 xs1 x0 x2 := by
  unfold readS1
  rw [View.read_writes_eq_canon _ _ _ (scoverB1 c i arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg3.read_unread, harg4.read_unread, harg5.read_unread, harg7.read_unread, harg8.read_unread, View.ld_unit_zero (S := S512x1024) hz, View.ld_unit_zero (S := S1024x1024) hz]

/-- First block, gate accumulator: the reset, then one update of the reset value. -/
theorem pieceA0_gate (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : first0 i) (hc1 : ¬last0 i) (x0 : Vec F S512x1024 .bf16) (x1 x2 : Vec F S1024x1024 .bf16) :
    readS0 (F := F) (kernelRun0_A (F := F) c i arg3 harg3 arg4 harg4 arg5 harg5 arg6 harg6 arg7 harg7 arg8 harg8 hc0 hc1 x0 x1 x2).1 = k0_pay3 k0_pay1 x0 x1 := by
  unfold readS0
  rw [View.read_writes_eq_canon _ _ _ (scoverA0 c i arg3 harg3 arg4 harg4 arg5 harg5 arg6 harg6 arg7 harg7 arg8 harg8 hc0 hc1 x0 x1 x2)]
  unfold kernelRun0_A
  dsimp only
  sl_unfold_words
  rw [View.canon_cons_unit_zero (S := S512x1024) hz, View.readCov_unit_zero (S := S512x1024) _ hz]
  simp only [View.readAt_eq_ld, harg3.read_unread, harg4.read_unread, harg5.read_unread, harg7.read_unread, harg8.read_unread, View.ld_unit_zero (S := S512x1024) hz, View.ld_unit_zero (S := S1024x1024) hz]

/-- First block, up accumulator. -/
theorem pieceA0_up (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : first0 i) (hc1 : ¬last0 i) (x0 : Vec F S512x1024 .bf16) (x1 x2 : Vec F S1024x1024 .bf16) :
    readS1 (F := F) (kernelRun0_A (F := F) c i arg3 harg3 arg4 harg4 arg5 harg5 arg6 harg6 arg7 harg7 arg8 harg8 hc0 hc1 x0 x1 x2).2.1 = k0_pay4 k0_pay2 x0 x2 := by
  unfold readS1
  rw [View.read_writes_eq_canon _ _ _ (scoverA1 c i arg3 harg3 arg4 harg4 arg5 harg5 arg6 harg6 arg7 harg7 arg8 harg8 hc0 hc1 x0 x1 x2)]
  unfold kernelRun0_A
  dsimp only
  sl_unfold_words
  rw [View.canon_cons_unit_zero (S := S512x1024) hz, View.readCov_unit_zero (S := S512x1024) _ hz]
  simp only [View.readAt_eq_ld, harg3.read_unread, harg4.read_unread, harg5.read_unread, harg7.read_unread, harg8.read_unread, View.ld_unit_zero (S := S512x1024) hz, View.ld_unit_zero (S := S1024x1024) hz]

/-- Last block, gate accumulator. -/
theorem pieceC0_gate (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : last0 i) (x0 : Vec F S512x1024 .bf16) (x1 x2 : Vec F S1024x1024 .bf16) (xs0 xs1 : Vec F S512x1024 .f32) :
    readS0 (F := F) (kernelRun0_C (F := F) c i arg3 harg3 arg4 harg4 arg5 harg5 arg6 harg6 arg7 harg7 arg8 harg8 hc0 hc1 x0 x1 x2 xs0 xs1).2.1 = k0_pay3 xs0 x0 x1 := by
  unfold readS0
  rw [View.read_writes_eq_canon _ _ _ (scoverC0 c i arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg3.read_unread, harg4.read_unread, harg5.read_unread, harg7.read_unread, harg8.read_unread, View.ld_unit_zero (S := S512x1024) hz, View.ld_unit_zero (S := S1024x1024) hz]

/-- Last block, up accumulator. -/
theorem pieceC0_up (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : last0 i) (x0 : Vec F S512x1024 .bf16) (x1 x2 : Vec F S1024x1024 .bf16) (xs0 xs1 : Vec F S512x1024 .f32) :
    readS1 (F := F) (kernelRun0_C (F := F) c i arg3 harg3 arg4 harg4 arg5 harg5 arg6 harg6 arg7 harg7 arg8 harg8 hc0 hc1 x0 x1 x2 xs0 xs1).2.2.1 = k0_pay4 xs1 x0 x2 := by
  unfold readS1
  rw [View.read_writes_eq_canon _ _ _ (scoverC1 c i arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg3.read_unread, harg4.read_unread, harg5.read_unread, harg7.read_unread, harg8.read_unread, View.ld_unit_zero (S := S512x1024) hz, View.ld_unit_zero (S := S1024x1024) hz]

/-- Last block, output tile: the activation payload of the two accumulators as just updated. -/
theorem pieceC0_out (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : last0 i) (x0 : Vec F S512x1024 .bf16) (x1 x2 : Vec F S1024x1024 .bf16) (xs0 xs1 : Vec F S512x1024 .f32) :
    readO0 (F := F) (kernelRun0_C (F := F) c i arg3 harg3 arg4 harg4 arg5 harg5 arg6 harg6 arg7 harg7 arg8 harg8 hc0 hc1 x0 x1 x2 xs0 xs1).1 = k0_pay5 (k0_pay3 xs0 x0 x1) (k0_pay4 xs1 x0 x2) := by
  unfold readO0
  rw [View.read_writes_eq_canon _ _ _ (coverC3 c i arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readCov_unit_zero (S := S512x1024) _ hz, View.readAt_eq_ld, harg3.read_unread, harg4.read_unread, harg5.read_unread, harg7.read_unread, harg8.read_unread, View.ld_unit_zero (S := S512x1024) hz, View.ld_unit_zero (S := S1024x1024) hz]

end Pieces

/-! ## The block product read at an index -/

/-- The product's left operand index at output index i and contraction index q: the row is i's. -/
theorem lhs_dot_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- The column of the left operand index is the contraction index. -/
theorem lhs_dot_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- The row of the right operand index is the contraction index. -/
theorem rhs_dot_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- The column of the right operand index is i's. -/
theorem rhs_dot_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A block product into a zero accumulator, at an index: row times column. -/
theorem matmul_zero_apply (xb : FVec Ideal S512x1024 .bf16) (wb : FVec Ideal S1024x1024 .bf16) (y : S512x1024.Idx) :
    (matmul (F := Ideal) dot_S512x1024_S1024x1024_S512x1024_1_0_0_1_n_n none xb wb (constant (F := Ideal) S512x1024 .f32 0x00000000#32) : S512x1024.Idx → EReal) y
      = ∑ q : Fin 1024, (xb (ix2 ⟨(y 0).val, (y 0).isLt⟩ q) : EReal) * (wb (ix2 q ⟨(y 1).val, (y 1).isLt⟩) : EReal) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx y ((ValueIdx.contrEquiv1 dot_S512x1024_S1024x1024_S512x1024_1_0_0_1_n_n 1024 rfl rfl).symm k) = ix2 ⟨(y 0).val, (y 0).isLt⟩ k := funext fun a => Fin.ext (by
    match a with
    | ⟨0, _⟩ => exact lhs_dot_0 _ _
    | ⟨1, _⟩ => exact (lhs_dot_1 _ _).trans hk)
  have er : dot_S512x1024_S1024x1024_S512x1024_1_0_0_1_n_n.rhsIdx y ((ValueIdx.contrEquiv1 dot_S512x1024_S1024x1024_S512x1024_1_0_0_1_n_n 1024 rfl rfl).symm k) = ix2 k ⟨(y 1).val, (y 1).isLt⟩ := funext fun a => Fin.ext (by
    match a with
    | ⟨0, _⟩ => exact (rhs_dot_0 _ _).trans hk
    | ⟨1, _⟩ => exact rhs_dot_1 _ _)
  rw [el, er]
  try rfl

/-! ## The payloads at the extended reals -/

/-- An accumulator update: the accumulator plus the block product, entry by entry. -/
theorem pay3_eq (v3 : Vec Ideal S512x1024 .f32) (v4 : Vec Ideal S512x1024 .bf16) (v6 : Vec Ideal S1024x1024 .bf16) :
    (k0_pay3 (F := Ideal) v3 v4 v6 : S512x1024.Idx → EReal) = upd v3 v4 v6 := by
  funext y
  unfold k0_pay3 upd
  simp only [shapeCast_self]
  refine (addf_apply (φ := .f32) _ _ y).trans ?_
  exact congrArg (fun z : EReal => (v3 y : EReal) + z) (matmul_zero_apply v4 v6 y)

/-- The same for the second accumulator. -/
theorem pay4_eq (v13 : Vec Ideal S512x1024 .f32) (v14 : Vec Ideal S512x1024 .bf16) (v16 : Vec Ideal S1024x1024 .bf16) :
    (k0_pay4 (F := Ideal) v13 v14 v16 : S512x1024.Idx → EReal) = upd v13 v14 v16 := by
  funext y
  unfold k0_pay4 upd
  simp only [shapeCast_self]
  refine (addf_apply (φ := .f32) _ _ y).trans ?_
  exact congrArg (fun z : EReal => (v13 y : EReal) + z) (matmul_zero_apply v14 v16 y)

/-- The reset stores the real 0 everywhere. -/
theorem pay1_eq : (k0_pay1 (F := Ideal) : S512x1024.Idx → EReal) = fun _ => 0 := by
  funext y
  unfold k0_pay1
  simp only [shapeCast_self]
  show Ideal.ofBits .f32 0x00000000#32 = 0
  exact Ideal.ofBits_zero_f32
theorem pay2_eq : (k0_pay2 (F := Ideal) : S512x1024.Idx → EReal) = fun _ => 0 := by
  funext y
  unfold k0_pay2
  simp only [shapeCast_self]
  show Ideal.ofBits .f32 0x00000000#32 = 0
  exact Ideal.ofBits_zero_f32

/-- The output: silu of the gate accumulator times the up accumulator; the conversion to bf16 is the identity. -/
theorem pay5_eq (v26 v27 : Vec Ideal S512x1024 .f32) :
    (k0_pay5 (F := Ideal) v26 v27 : S512x1024.Idx → EReal) = act v26 v27 := by
  funext y
  unfold k0_pay5 act
  rfl

/-! ## The seven pieces at the extended reals -/

theorem runA0_gate (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : first0 i) (hc1 : ¬last0 i) (x0 : Vec Ideal S512x1024 .bf16) (x1 x2 : Vec Ideal S1024x1024 .bf16) :
    (readS0 (F := Ideal) (kernelRun0_A (F := Ideal) c i arg3 harg3 arg4 harg4 arg5 harg5 arg6 harg6 arg7 harg7 arg8 harg8 hc0 hc1 x0 x1 x2).1 : S512x1024.Idx → EReal) = upd (fun _ => 0) x0 x1 :=
  (pieceA0_gate (F := Ideal) c i arg3 harg3 arg4 harg4 arg5 harg5 arg6 harg6 arg7 harg7 arg8 harg8 hc0 hc1 x0 x1 x2).trans
    ((congrArg (fun z : Vec Ideal S512x1024 .f32 => (k0_pay3 (F := Ideal) z x0 x1 : S512x1024.Idx → EReal)) pay1_eq).trans (pay3_eq (fun _ => (0 : EReal)) x0 x1))
theorem runA0_up (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : first0 i) (hc1 : ¬last0 i) (x0 : Vec Ideal S512x1024 .bf16) (x1 x2 : Vec Ideal S1024x1024 .bf16) :
    (readS1 (F := Ideal) (kernelRun0_A (F := Ideal) c i arg3 harg3 arg4 harg4 arg5 harg5 arg6 harg6 arg7 harg7 arg8 harg8 hc0 hc1 x0 x1 x2).2.1 : S512x1024.Idx → EReal) = upd (fun _ => 0) x0 x2 :=
  (pieceA0_up (F := Ideal) c i arg3 harg3 arg4 harg4 arg5 harg5 arg6 harg6 arg7 harg7 arg8 harg8 hc0 hc1 x0 x1 x2).trans
    ((congrArg (fun z : Vec Ideal S512x1024 .f32 => (k0_pay4 (F := Ideal) z x0 x2 : S512x1024.Idx → EReal)) pay2_eq).trans (pay4_eq (fun _ => (0 : EReal)) x0 x2))
theorem runB0_gate (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : ¬last0 i) (x0 : Vec Ideal S512x1024 .bf16) (x1 x2 : Vec Ideal S1024x1024 .bf16) (xs0 xs1 : Vec Ideal S512x1024 .f32) :
    (readS0 (F := Ideal) (kernelRun0_B (F := Ideal) c i arg3 harg3 arg4 harg4 arg5 harg5 arg6 harg6 arg7 harg7 arg8 harg8 hc0 hc1 x0 x1 x2 xs0 xs1).1 : S512x1024.Idx → EReal) = upd xs0 x0 x1 :=
  (pieceB0_gate (F := Ideal) c i arg3 harg3 arg4 harg4 arg5 harg5 arg6 harg6 arg7 harg7 arg8 harg8 hc0 hc1 x0 x1 x2 xs0 xs1).trans (pay3_eq xs0 x0 x1)
theorem runB0_up (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : ¬last0 i) (x0 : Vec Ideal S512x1024 .bf16) (x1 x2 : Vec Ideal S1024x1024 .bf16) (xs0 xs1 : Vec Ideal S512x1024 .f32) :
    (readS1 (F := Ideal) (kernelRun0_B (F := Ideal) c i arg3 harg3 arg4 harg4 arg5 harg5 arg6 harg6 arg7 harg7 arg8 harg8 hc0 hc1 x0 x1 x2 xs0 xs1).2.1 : S512x1024.Idx → EReal) = upd xs1 x0 x2 :=
  (pieceB0_up (F := Ideal) c i arg3 harg3 arg4 harg4 arg5 harg5 arg6 harg6 arg7 harg7 arg8 harg8 hc0 hc1 x0 x1 x2 xs0 xs1).trans (pay4_eq xs1 x0 x2)
theorem runC0_gate (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : last0 i) (x0 : Vec Ideal S512x1024 .bf16) (x1 x2 : Vec Ideal S1024x1024 .bf16) (xs0 xs1 : Vec Ideal S512x1024 .f32) :
    (readS0 (F := Ideal) (kernelRun0_C (F := Ideal) c i arg3 harg3 arg4 harg4 arg5 harg5 arg6 harg6 arg7 harg7 arg8 harg8 hc0 hc1 x0 x1 x2 xs0 xs1).2.1 : S512x1024.Idx → EReal) = upd xs0 x0 x1 :=
  (pieceC0_gate (F := Ideal) c i arg3 harg3 arg4 harg4 arg5 harg5 arg6 harg6 arg7 harg7 arg8 harg8 hc0 hc1 x0 x1 x2 xs0 xs1).trans (pay3_eq xs0 x0 x1)
theorem runC0_up (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : last0 i) (x0 : Vec Ideal S512x1024 .bf16) (x1 x2 : Vec Ideal S1024x1024 .bf16) (xs0 xs1 : Vec Ideal S512x1024 .f32) :
    (readS1 (F := Ideal) (kernelRun0_C (F := Ideal) c i arg3 harg3 arg4 harg4 arg5 harg5 arg6 harg6 arg7 harg7 arg8 harg8 hc0 hc1 x0 x1 x2 xs0 xs1).2.2.1 : S512x1024.Idx → EReal) = upd xs1 x0 x2 :=
  (pieceC0_up (F := Ideal) c i arg3 harg3 arg4 harg4 arg5 harg5 arg6 harg6 arg7 harg7 arg8 harg8 hc0 hc1 x0 x1 x2 xs0 xs1).trans (pay4_eq xs1 x0 x2)
theorem runC0_out (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole) (hc0 : ¬first0 i) (hc1 : last0 i) (x0 : Vec Ideal S512x1024 .bf16) (x1 x2 : Vec Ideal S1024x1024 .bf16) (xs0 xs1 : Vec Ideal S512x1024 .f32) :
    (readO0 (F := Ideal) (kernelRun0_C (F := Ideal) c i arg3 harg3 arg4 harg4 arg5 harg5 arg6 harg6 arg7 harg7 arg8 harg8 hc0 hc1 x0 x1 x2 xs0 xs1).1 : S512x1024.Idx → EReal) = act (upd xs0 x0 x1) (upd xs1 x0 x2) :=
  (pieceC0_out (F := Ideal) c i arg3 harg3 arg4 harg4 arg5 harg5 arg6 harg6 arg7 harg7 arg8 harg8 hc0 hc1 x0 x1 x2 xs0 xs1).trans
    ((pay5_eq _ _).trans (congrArg₂ act (pay3_eq xs0 x0 x1) (pay4_eq xs1 x0 x2)))

end Cert.KernelIdeal.Hand

end
-- ==== Proof.KSpec.lean ====
/-
  The same function in the shape the tiled evaluation produces it: arrays read at natural-number coordinates (zero
  outside their extents), a contraction taken in blocks of 1024 and accumulated from zero block after block.
-/
import Idealize.ShloMosaic.PureOps.Ideal
import Idealize.ShloMosaic.Lib.ValueIdx

noncomputable section

open scoped BigOperators

namespace Cert.FfnSpec

open Idealize.ShloMosaic Idealize.ShloMosaic.ValueIdx

/-- A rank-2 array read at natural coordinates; zero outside its extents. -/
def at2 {n0 n1 : ℕ} (a : (⟨2, ![n0, n1]⟩ : Shape).Idx → EReal) (r s : ℕ) : EReal :=
  if h : r < n0 ∧ s < n1 then a (ix2 ⟨r, h.1⟩ ⟨s, h.2⟩) else 0

/-- One block of a contraction: 1024 consecutive terms starting at `kb * 1024`. -/
def blockDot (xa wa : ℕ → ℕ → EReal) (r h kb : ℕ) : EReal :=
  ∑ q : Fin 1024, xa r (kb * 1024 + q.val) * wa (kb * 1024 + q.val) h

/-- The first `n` blocks accumulated from zero, in the order an accumulator adds them: ((0 + b₀) + b₁) + … -/
def accDot (xa wa : ℕ → ℕ → EReal) (r h : ℕ) : ℕ → EReal
  | 0 => 0
  | n + 1 => accDot xa wa r h n + blockDot xa wa r h n

/-- The hidden activation as the first kernel region leaves it: four blocks of the two projections, then silu · up. -/
def hidK (xa w1a w3a : ℕ → ℕ → EReal) (r h : ℕ) : EReal :=
  accDot xa w1a r h 4 * Ideal.logistic (accDot xa w1a r h 4) * accDot xa w3a r h 4

/-- The result as the second kernel region leaves it: eleven blocks of the padded hidden axis. -/
def outK (ha w2a : ℕ → ℕ → EReal) (r j : ℕ) : EReal := accDot ha w2a r j 11

end Cert.FfnSpec

end
-- ==== Proof.KI.Val0Array.lean ====
/-
  Region 0 at the extended reals: the array it leaves. Point t = (i·11 + j)·4 + k reads rows 512·i… of x against
  columns 1024·j… of the two padded weights, 1024 terms of the contraction per k; after k = 3 the accumulators hold the
  four-block sums, and the block written back at (i, j) is silu(gate) · up of them. The 88 written blocks tile the
  4096 × 11264 array.
-/
import proofs.«178229_j42717744726585_1_alg».proof.Proof.KI.Val0Pieces
import proofs.«178229_j42717744726585_1_alg».proof.Proof.KSpec
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

open Cert.FfnSpec

variable (V : (c : Dev nD) → (b : Ref sig .tc) → Buf (Elt Ideal) ((c : Thread nD τ).loc b))

/-- The windows' block indices over the grid: point t = (i·11 + j)·4 + k has i = t / 44, j = (t / 4) % 11, k = t % 4;
    x is indexed (i, k), the two weights (k, j), the output (i, j). -/
theorem idx_facts0 : ∀ t : Fin cfg0.N,
    win0_0.index t (0 : Fin 2) = t.val / 44 ∧ win0_0.index t (1 : Fin 2) = t.val % 4
    ∧ win0_1.index t (0 : Fin 2) = t.val % 4 ∧ win0_1.index t (1 : Fin 2) = t.val / 4 % 11
    ∧ win0_2.index t (0 : Fin 2) = t.val % 4 ∧ win0_2.index t (1 : Fin 2) = t.val / 4 % 11
    ∧ win0_3.index t (0 : Fin 2) = t.val / 44 ∧ win0_3.index t (1 : Fin 2) = t.val / 4 % 11 :=
  (by decide +kernel : ∀ t : Fin grid0.N, _)

/-- The three input blocks at a point and the three arrays they are cut from, at their literal shapes. -/
abbrev xblk (c : Dev nD) (t : Fin cfg0.N) : S512x1024.Idx → EReal := iblk0 (F := Ideal) V c 0 t
abbrev gblk (c : Dev nD) (t : Fin cfg0.N) : S1024x1024.Idx → EReal := iblk0 (F := Ideal) V c 1 t
abbrev ublk (c : Dev nD) (t : Fin cfg0.N) : S1024x1024.Idx → EReal := iblk0 (F := Ideal) V c 2 t
abbrev xarr (c : Dev nD) : S4096x4096.Idx → EReal := V c main_v0
abbrev garr (c : Dev nD) : S4096x11264.Idx → EReal := V c main_v2
abbrev uarr (c : Dev nD) : S4096x11264.Idx → EReal := V c main_v4

/-- Entry (p, q) of the x block at point t is x at row 512·i + p, column 1024·k + q. -/
theorem xblk_apply (c : Dev nD) (t : Fin cfg0.N) (p : Fin 512) (q : Fin 1024) :
    xblk V c t (ix2 p q) = at2 (xarr V c) (512 * (t.val / 44) + p.val) (t.val % 4 * 1024 + q.val) := by
  have hN : t.val < 352 := lt_of_lt_of_eq t.isLt (show cfg0.N = 352 from N_0)
  obtain ⟨e0, e1, -⟩ := idx_facts0 t
  unfold at2
  rw [dif_pos ⟨by have := p.isLt; omega, by have := q.isLt; omega⟩]
  show V c main_v0 (((cfg0.win 0).blk t).view.emb (ix2 p q)) = V c main_v0 _
  congr 1
  funext a
  apply Fin.ext
  match a with
  | ⟨0, _⟩ => show win0_0.index t (0 : Fin 2) * 512 + 1 * p.val = 512 * (t.val / 44) + p.val; rw [e0]; omega
  | ⟨1, _⟩ => show win0_0.index t (1 : Fin 2) * 1024 + 1 * q.val = t.val % 4 * 1024 + q.val; rw [e1]; omega

/-- Entry (q, s) of the gate-weight block at point t is the weight at row 1024·k + q, column 1024·j + s. -/
theorem gblk_apply (c : Dev nD) (t : Fin cfg0.N) (q : Fin 1024) (s : Fin 1024) :
    gblk V c t (ix2 q s) = at2 (garr V c) (t.val % 4 * 1024 + q.val) (1024 * (t.val / 4 % 11) + s.val) := by
  have hN : t.val < 352 := lt_of_lt_of_eq t.isLt (show cfg0.N = 352 from N_0)
  obtain ⟨-, -, e0, e1, -⟩ := idx_facts0 t
  unfold at2
  rw [dif_pos ⟨by have := q.isLt; omega, by have := s.isLt; omega⟩]
  show V c main_v2 (((cfg0.win 1).blk t).view.emb (ix2 q s)) = V c main_v2 _
  congr 1
  funext a
  apply Fin.ext
  match a with
  | ⟨0, _⟩ => show win0_1.index t (0 : Fin 2) * 1024 + 1 * q.val = t.val % 4 * 1024 + q.val; rw [e0]; omega
  | ⟨1, _⟩ => show win0_1.index t (1 : Fin 2) * 1024 + 1 * s.val = 1024 * (t.val / 4 % 11) + s.val; rw [e1]; omega

/-- The same for the up-weight block. -/
theorem ublk_apply (c : Dev nD) (t : Fin cfg0.N) (q : Fin 1024) (s : Fin 1024) :
    ublk V c t (ix2 q s) = at2 (uarr V c) (t.val % 4 * 1024 + q.val) (1024 * (t.val / 4 % 11) + s.val) := by
  have hN : t.val < 352 := lt_of_lt_of_eq t.isLt (show cfg0.N = 352 from N_0)
  obtain ⟨-, -, -, -, e0, e1, -⟩ := idx_facts0 t
  unfold at2
  rw [dif_pos ⟨by have := q.isLt; omega, by have := s.isLt; omega⟩]
  show V c main_v4 (((cfg0.win 2).blk t).view.emb (ix2 q s)) = V c main_v4 _
  congr 1
  funext a
  apply Fin.ext
  match a with
  | ⟨0, _⟩ => show win0_2.index t (0 : Fin 2) * 1024 + 1 * q.val = t.val % 4 * 1024 + q.val; rw [e0]; omega
  | ⟨1, _⟩ => show win0_2.index t (1 : Fin 2) * 1024 + 1 * s.val = 1024 * (t.val / 4 % 11) + s.val; rw [e1]; omega

/-- One accumulator update is one more block of the accumulated contraction: if the accumulator holds the first k
    blocks at (r, h), and the two blocks are the k-th stretch of row r and of column h, the update holds k + 1. -/
theorem upd_apply_acc (xa wa : ℕ → ℕ → EReal) (acc xb : S512x1024.Idx → EReal) (wb : S1024x1024.Idx → EReal)
    (r h k : ℕ) (p : Fin 512) (s : Fin 1024)
    (hacc : acc (ix2 p s) = accDot xa wa r h k)
    (hx : ∀ q : Fin 1024, xb (ix2 p q) = xa r (k * 1024 + q.val))
    (hw : ∀ q : Fin 1024, wb (ix2 q s) = wa (k * 1024 + q.val) h) :
    upd acc xb wb (ix2 p s) = accDot xa wa r h (k + 1) := by
  show acc (ix2 p s) + ∑ q : Fin 1024, xb (ix2 p q) * wb (ix2 q s) = accDot xa wa r h k + blockDot xa wa r h k
  rw [hacc]
  unfold blockDot
  congr 1
  exact Finset.sum_congr rfl fun q _ => by rw [hx q, hw q]

/-- The two accumulators `g`, `u` hold, entry by entry, the first `k` blocks of the gate and of the up contraction
    for the tile (i, j) of point `n`: row 512·i + p of x against column 1024·j + s of the padded weight. -/
def HoldsAcc (c : Dev nD) (g u : S512x1024.Idx → EReal) (n k : ℕ) : Prop :=
  ∀ (p : Fin 512) (s : Fin 1024),
    g (ix2 p s) = accDot (at2 (xarr V c)) (at2 (garr V c)) (512 * (n / 44) + p.val) (1024 * (n / 4 % 11) + s.val) k
    ∧ u (ix2 p s) = accDot (at2 (xarr V c)) (at2 (uarr V c)) (512 * (n / 44) + p.val) (1024 * (n / 4 % 11) + s.val) k

/-- One point's two updates carry the invariant from k = t % 4 blocks to k + 1. -/
theorem holds_upd (c : Dev nD) (t : Fin cfg0.N) (g u : S512x1024.Idx → EReal) (h : HoldsAcc V c g u t.val (t.val % 4)) :
    HoldsAcc V c (upd g (xblk V c t) (gblk V c t)) (upd u (xblk V c t) (ublk V c t)) t.val (t.val % 4 + 1) := fun p s =>
  ⟨upd_apply_acc (at2 (xarr V c)) (at2 (garr V c)) g (xblk V c t) (gblk V c t) (512 * (t.val / 44) + p.val) (1024 * (t.val / 4 % 11) + s.val) (t.val % 4) p s
      (h p s).1 (fun q => xblk_apply V c t p q) (fun q => gblk_apply V c t q s),
   upd_apply_acc (at2 (xarr V c)) (at2 (uarr V c)) u (xblk V c t) (ublk V c t) (512 * (t.val / 44) + p.val) (1024 * (t.val / 4 % 11) + s.val) (t.val % 4) p s
      (h p s).2 (fun q => xblk_apply V c t p q) (fun q => ublk_apply V c t q s)⟩

/-- Off a first block the point before belongs to the same tile and has one block fewer. -/
theorem holds_of_prev (c : Dev nD) (g u : S512x1024.Idx → EReal) (n : ℕ) (h0 : ¬(n + 1) % 4 = 0)
    (h : HoldsAcc V c g u n (n % 4 + 1)) : HoldsAcc V c g u (n + 1) ((n + 1) % 4) := by
  have e1 : n / 44 = (n + 1) / 44 := by omega
  have e2 : n / 4 % 11 = (n + 1) / 4 % 11 := by omega
  have e3 : n % 4 + 1 = (n + 1) % 4 := by omega
  intro p s
  have hps := h p s
  rw [e1, e2, e3] at hps
  exact hps

/-- What a point leaves in the accumulators, given what the point before left (nothing is asked at a first block). -/
theorem acc_step (c : Dev nD) (t : Fin cfg0.N)
    (ih : ¬t.val % 4 = 0 → HoldsAcc V c (outsAt0 (F := Ideal) V c (t.val - 1) (Nat.lt_of_le_of_lt (Nat.sub_le _ _) t.isLt)).2.1 (outsAt0 (F := Ideal) V c (t.val - 1) (Nat.lt_of_le_of_lt (Nat.sub_le _ _) t.isLt)).2.2 t.val (t.val % 4)) :
    HoldsAcc V c (outsAt0 (F := Ideal) V c t.val t.isLt).2.1 (outsAt0 (F := Ideal) V c t.val t.isLt).2.2 t.val (t.val % 4 + 1) := by
  by_cases h0 : t.val % 4 = 0
  · have h3 : ¬t.val % 4 = 3 := by omega
    have hz : HoldsAcc V c (fun _ => 0) (fun _ => 0) t.val (t.val % 4) := fun p s => by rw [h0]; exact ⟨rfl, rfl⟩
    have hu := holds_upd V c t _ _ hz
    have eg := runA0_gate c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hfirst0 t).mpr h0) (fun h => h3 ((hlast0 t).mp h)) (iblk0 V c 0 t) (iblk0 V c 1 t) (iblk0 V c 2 t)
    have eu := runA0_up c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hfirst0 t).mpr h0) (fun h => h3 ((hlast0 t).mp h)) (iblk0 V c 0 t) (iblk0 V c 1 t) (iblk0 V c 2 t)
    rw [outsAt0_A V c t h0 h3]
    unfold stepA0; dsimp only
    intro p s
    exact ⟨(congrFun eg (ix2 p s)).trans (hu p s).1, (congrFun eu (ix2 p s)).trans (hu p s).2⟩
  · have hu := holds_upd V c t _ _ (ih h0)
    by_cases h3 : t.val % 4 = 3
    · have eg := runC0_gate c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hfirst0 t).mp h)) ((hlast0 t).mpr h3) (iblk0 V c 0 t) (iblk0 V c 1 t) (iblk0 V c 2 t) (outsAt0 (F := Ideal) V c (t.val - 1) (Nat.lt_of_le_of_lt (Nat.sub_le _ _) t.isLt)).2.1 (outsAt0 (F := Ideal) V c (t.val - 1) (Nat.lt_of_le_of_lt (Nat.sub_le _ _) t.isLt)).2.2
      have eu := runC0_up c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hfirst0 t).mp h)) ((hlast0 t).mpr h3) (iblk0 V c 0 t) (iblk0 V c 1 t) (iblk0 V c 2 t) (outsAt0 (F := Ideal) V c (t.val - 1) (Nat.lt_of_le_of_lt (Nat.sub_le _ _) t.isLt)).2.1 (outsAt0 (F := Ideal) V c (t.val - 1) (Nat.lt_of_le_of_lt (Nat.sub_le _ _) t.isLt)).2.2
      rw [outsAt0_C V c t h0 h3]
      unfold stepC0; dsimp only
      intro p s
      exact ⟨(congrFun eg (ix2 p s)).trans (hu p s).1, (congrFun eu (ix2 p s)).trans (hu p s).2⟩
    · have eg := runB0_gate c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hfirst0 t).mp h)) (fun h => h3 ((hlast0 t).mp h)) (iblk0 V c 0 t) (iblk0 V c 1 t) (iblk0 V c 2 t) (outsAt0 (F := Ideal) V c (t.val - 1) (Nat.lt_of_le_of_lt (Nat.sub_le _ _) t.isLt)).2.1 (outsAt0 (F := Ideal) V c (t.val - 1) (Nat.lt_of_le_of_lt (Nat.sub_le _ _) t.isLt)).2.2
      have eu := runB0_up c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hfirst0 t).mp h)) (fun h => h3 ((hlast0 t).mp h)) (iblk0 V c 0 t) (iblk0 V c 1 t) (iblk0 V c 2 t) (outsAt0 (F := Ideal) V c (t.val - 1) (Nat.lt_of_le_of_lt (Nat.sub_le _ _) t.isLt)).2.1 (outsAt0 (F := Ideal) V c (t.val - 1) (Nat.lt_of_le_of_lt (Nat.sub_le _ _) t.isLt)).2.2
      rw [outsAt0_B V c t h0 h3]
      unfold stepB0; dsimp only
      intro p s
      exact ⟨(congrFun eg (ix2 p s)).trans (hu p s).1, (congrFun eu (ix2 p s)).trans (hu p s).2⟩

/-- After every point the accumulators hold k + 1 blocks of their tile's two contractions, k the point's place on the
    contraction axis: by induction along the grid. -/
theorem acc_inv (c : Dev nD) : ∀ (n : ℕ) (hn : n < cfg0.N),
    HoldsAcc V c (outsAt0 (F := Ideal) V c n hn).2.1 (outsAt0 (F := Ideal) V c n hn).2.2 n (n % 4 + 1)
  | 0, hn => acc_step V c ⟨0, hn⟩ (fun h => absurd (Nat.zero_mod 4) h)
  | n + 1, hn => acc_step V c ⟨n + 1, hn⟩ (fun h0 => holds_of_prev V c _ _ n h0 (acc_inv c n (Nat.lt_of_succ_lt hn)))

/-- At a last block the output tile is silu(gate) · up of the four-block sums. -/
theorem out_apply (c : Dev nD) (t : Fin cfg0.N) (h3 : t.val % 4 = 3) (p : Fin 512) (s : Fin 1024) :
    ((outsAt0 (F := Ideal) V c t.val t.isLt).1 : S512x1024.Idx → EReal) (ix2 p s)
      = hidK (at2 (xarr V c)) (at2 (garr V c)) (at2 (uarr V c)) (512 * (t.val / 44) + p.val) (1024 * (t.val / 4 % 11) + s.val) := by
  have h0 : ¬t.val % 4 = 0 := by omega
  have hprev : HoldsAcc V c (outsAt0 (F := Ideal) V c (t.val - 1) (Nat.lt_of_le_of_lt (Nat.sub_le _ _) t.isLt)).2.1 (outsAt0 (F := Ideal) V c (t.val - 1) (Nat.lt_of_le_of_lt (Nat.sub_le _ _) t.isLt)).2.2 t.val (t.val % 4) := by
    obtain ⟨n, hn⟩ := t
    cases n with
    | zero => exact absurd (Nat.zero_mod 4) h0
    | succ n => exact holds_of_prev V c _ _ n h0 (acc_inv V c n (Nat.lt_of_succ_lt hn))
  have hu := holds_upd V c t _ _ hprev
  have e4 : t.val % 4 + 1 = 4 := by omega
  have hg := (hu p s).1
  have hv := (hu p s).2
  rw [e4] at hg hv
  rw [outsAt0_C V c t h0 h3]
  unfold stepC0; dsimp only
  refine (congrFun (runC0_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hfirst0 t).mp h)) ((hlast0 t).mpr h3) (iblk0 V c 0 t) (iblk0 V c 1 t) (iblk0 V c 2 t) (outsAt0 (F := Ideal) V c (t.val - 1) (Nat.lt_of_le_of_lt (Nat.sub_le _ _) t.isLt)).2.1 (outsAt0 (F := Ideal) V c (t.val - 1) (Nat.lt_of_le_of_lt (Nat.sub_le _ _) t.isLt)).2.2) (ix2 p s)).trans ?_
  exact congr (congrArg (fun a b => a * Ideal.logistic a * b) hg) hv

/-- The array region 0 leaves: silu(gate) · up of the four-block sums, entry by entry. -/
abbrev hidArr (c : Dev nD) : S4096x11264.Idx → EReal := fun idx =>
  hidK (at2 (xarr V c)) (at2 (garr V c)) (at2 (uarr V c)) (idx 0).val (idx 1).val

/-- What a last block writes back is its tile of that array: tile (i, j) starts at row 512·i, column 1024·j. -/
theorem flushed0_eq (c : Dev nD) (t : Fin cfg0.N) (hf : (cfg0.win 3).flush t = true) :
    (dat0 (F := Ideal) V c).flushed 3 t = ((cfg0.win 3).blk t).view.read (Elt Ideal) (hidArr V c) := by
  have h3 : t.val % 4 = 3 := (flush0_3 t).mp hf
  obtain ⟨-, -, -, -, -, -, e0, e1⟩ := idx_facts0 t
  show (cfg0.win 3).cut (grid0.coords t) ((dat0 (F := Ideal) V c).after 3 t) = _
  rw [after0_3]
  funext y
  have hy0 : (y 0).val < 512 := (y 0).isLt
  have hy1 : (y 1).val < 1024 := (y 1).isLt
  show ((outsAt0 (F := Ideal) V c t.val t.isLt).1 : S512x1024.Idx → EReal) ((cfg0.win 3).xinj (grid0.coords t) y)
    = hidArr V c (((cfg0.win 3).blk t).view.emb y)
  have ey : ((cfg0.win 3).xinj (grid0.coords t) y : S512x1024.Idx) = ix2 ⟨(y 0).val, hy0⟩ ⟨(y 1).val, hy1⟩ := by
    funext a
    match a with
    | ⟨0, _⟩ => rfl
    | ⟨1, _⟩ => rfl
  rw [ey, out_apply V c t h3]
  show hidK _ _ _ _ _ = hidK _ _ _ ((((cfg0.win 3).blk t).view.emb y) 0).val ((((cfg0.win 3).blk t).view.emb y) 1).val
  congr 1
  · show 512 * (t.val / 44) + (y 0).val = win0_3.index t (0 : Fin 2) * 512 + 1 * (y 0).val
    rw [e0]; omega
  · show 1024 * (t.val / 4 % 11) + (y 1).val = win0_3.index t (1 : Fin 2) * 1024 + 1 * (y 1).val
    rw [e1]; omega

/-- An entry of the array lies in point t's tile iff each coordinate lies in the tile's range on its axis. -/
theorem mem_blk0 (t : Fin cfg0.N) (i : S4096x11264.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v7).slice (win0_3.rect t)).set ↔ _
  rw [View.set_slice_whole, Rect.mem_set_unit]
  exact Iff.rfl

/-- The 88 written tiles cover the array: entry (r, h) is written at the last block of tile (r / 512, h / 1024). -/
theorem cover0 (i : S4096x11264.Idx) :
    ∃ t : Fin cfg0.N, (cfg0.win 3).flush t = true ∧ i ∈ ((cfg0.win 3).blk t).view.set := by
  have hi0 : (i 0).val < 4096 := (i 0).isLt
  have hi1 : (i 1).val < 11264 := (i 1).isLt
  obtain ⟨t, ht⟩ : ∃ t : Fin cfg0.N, t.val = ((i 0).val / 512 * 11 + (i 1).val / 1024) * 4 + 3 :=
    ⟨⟨((i 0).val / 512 * 11 + (i 1).val / 1024) * 4 + 3, by rw [show cfg0.N = 352 from N_0]; omega⟩, rfl⟩
  obtain ⟨-, -, -, -, -, -, e0, e1⟩ := idx_facts0 t
  refine ⟨t, (flush0_3 t).mpr (by omega), ?_⟩
  rw [mem_blk0]
  intro a
  match a with
  | ⟨0, _⟩ =>
    show win0_3.index t (0 : Fin 2) * 512 ≤ (i 0).val ∧ (i 0).val < win0_3.index t (0 : Fin 2) * 512 + 512
    rw [e0]; omega
  | ⟨1, _⟩ =>
    show win0_3.index t (1 : Fin 2) * 1024 ≤ (i 1).val ∧ (i 1).val < win0_3.index t (1 : Fin 2) * 1024 + 1024
    rw [e1]; omega

/-- What region 0 leaves in its output array, as one function of the three arrays it reads. -/
theorem region0_value (c : Dev nD) :
    ((dat0 (F := Ideal) V c).arrAt 3 cfg0.N : S4096x11264.Idx → EReal)
      = fun idx => hidK (at2 (V c main_v0 : S4096x4096.Idx → EReal)) (at2 (V c main_v2 : S4096x11264.Idx → EReal))
          (at2 (V c main_v4 : S4096x11264.Idx → EReal)) (idx 0).val (idx 1).val :=
  (dat0 (F := Ideal) V c).arrAt_eq_of_cover 3 (hidArr V c) (fun t hf => flushed0_eq V c t hf) (cover0)

end Cert.KernelIdeal.Hand

end
-- ==== Proof.KI.Val1Pieces.lean ====
/-
  Region 1 at the extended reals: what each case of the body leaves in its buffers, index by index.
  One accumulator update adds, at entry (p, s) of the 512 × 1024 tile, row p of the hidden block against column s of
  the weight block. At a last block the output tile is the updated accumulator itself.
-/
import proofs.«178229_j42717744726585_1_alg».proof.Proof.KI.R1Frame
import proofs.«178229_j42717744726585_1_alg».proof.Proof.KI.Val0Pieces
import Idealize.ShloMosaic.PureOps.Ideal.Laws
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

namespace Val1

/-! ## The stores found in each case, for every number format

Every store and every load of the body goes through the whole 512 × 1024 (or 1024 × 1024) rectangle at offset (0, 0):
a load reads the buffer's contents, and the last store alone decides what the buffer holds. -/

section AnyFormat
variable {F : FTy → Type} [FloatOps F]

/-- The offset (0, 0), as the constant-zero function. -/
theorem off_zero : (![0, 0] : Fin 2 → Nat) = fun _ => 0 := funext fun a => by fin_cases a <;> rfl

/-- A middle block leaves one store in the accumulator: the update of what it held on entry. -/
theorem accB (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬first1 i) (hc1 : ¬last1 i) (x0 : Vec F S512x1024 .bf16) (x1 : Vec F S1024x1024 .bf16) (xs0 : Vec F S512x1024 .f32) :
    readT1 (F := F) (kernelRun1_B (F := F) c i arg3 harg3 arg4 harg4 arg5 harg5 arg6 harg6 hc0 hc1 x0 x1 xs0).1 = k1_pay2 xs0 x0 x1 := by
  unfold readT1
  rw [View.read_writes_eq_canon _ _ _ (scover1B c i arg3 harg3 arg4 harg4 arg5 harg5 arg6 harg6 hc0 hc1 x0 x1 xs0)]
  unfold kernelRun1_B
  dsimp only
  sl_unfold_words
  rw [View.canon_unit_zero off_zero]
  simp only [View.readAt_eq_ld, harg3.read_unread, harg4.read_unread, harg6.read_unread, View.ld_unit_zero (S := S512x1024) off_zero, View.ld_unit_zero (S := S1024x1024) off_zero]

/-- A first block leaves two stores in the accumulator, the zero fill and then the update of that zero fill read back;
    the later one covers. -/
theorem accA (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : first1 i) (hc1 : ¬last1 i) (x0 : Vec F S512x1024 .bf16) (x1 : Vec F S1024x1024 .bf16) :
    readT1 (F := F) (kernelRun1_A (F := F) c i arg3 harg3 arg4 harg4 arg5 harg5 arg6 harg6 hc0 hc1 x0 x1).1 = k1_pay2 (k1_pay1 (F := F)) x0 x1 := by
  unfold readT1
  rw [View.read_writes_eq_canon _ _ _ (scover1A c i arg3 harg3 arg4 harg4 arg5 harg5 arg6 harg6 hc0 hc1 x0 x1)]
  unfold kernelRun1_A
  dsimp only
  sl_unfold_words
  rw [View.canon_cons_unit_zero (S := S512x1024) off_zero]
  simp only [View.readAt_eq_ld, harg3.read_unread, harg4.read_unread, harg6.read_unread, View.ld_unit_zero (S := S512x1024) off_zero, View.ld_unit_zero (S := S1024x1024) off_zero, View.readCov_unit_zero (S := S512x1024) _ off_zero]

/-- A last block leaves one store in the accumulator: the update of what it held on entry. -/
theorem accC (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬first1 i) (hc1 : last1 i) (x0 : Vec F S512x1024 .bf16) (x1 : Vec F S1024x1024 .bf16) (xs0 : Vec F S512x1024 .f32) :
    readT1 (F := F) (kernelRun1_C (F := F) c i arg3 harg3 arg4 harg4 arg5 harg5 arg6 harg6 hc0 hc1 x0 x1 xs0).2.1 = k1_pay2 xs0 x0 x1 := by
  unfold readT1
  rw [View.read_writes_eq_canon _ _ _ (scover1C c i arg3 harg3 arg4 harg4 arg5 harg5 arg6 harg6 hc0 hc1 x0 x1 xs0)]
  unfold kernelRun1_C
  dsimp only
  sl_unfold_words
  rw [View.canon_unit_zero off_zero]
  simp only [View.readAt_eq_ld, harg3.read_unread, harg4.read_unread, harg6.read_unread, View.ld_unit_zero (S := S512x1024) off_zero, View.ld_unit_zero (S := S1024x1024) off_zero]

/-- A last block leaves one store in the output tile: the accumulator read back after its update. -/
theorem outC (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬first1 i) (hc1 : last1 i) (x0 : Vec F S512x1024 .bf16) (x1 : Vec F S1024x1024 .bf16) (xs0 : Vec F S512x1024 .f32) :
    readO1 (F := F) (kernelRun1_C (F := F) c i arg3 harg3 arg4 harg4 arg5 harg5 arg6 harg6 hc0 hc1 x0 x1 xs0).1 = k1_pay2 xs0 x0 x1 := by
  unfold readO1
  rw [View.read_writes_eq_canon _ _ _ (cover1C c i arg3 harg3 arg4 harg4 arg5 harg5 arg6 harg6 hc0 hc1 x0 x1 xs0)]
  unfold kernelRun1_C
  dsimp only
  sl_unfold_words
  rw [View.canon_unit_zero off_zero]
  simp only [View.readAt_eq_ld, harg3.read_unread, harg4.read_unread, harg6.read_unread, View.ld_unit_zero (S := S512x1024) off_zero, View.ld_unit_zero (S := S1024x1024) off_zero, View.readCov_unit_zero (S := S512x1024) _ off_zero]

end AnyFormat

/-! ## The block product at an entry

The product contracts axis 1 of the hidden block against axis 0 of the weight block: at output entry (p, s) and
contraction position q the left factor sits at (p, q) and the right factor at (q, s). -/

theorem lhs_axis_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_axis_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_axis_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_axis_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The left factor's position: row of the output entry, contraction position. -/
abbrev lpos (i : S512x1024.Idx) (k : Fin 1024) : S512x1024.Idx := fun a => match a with
  | ⟨0, _⟩ => ⟨(i 0).val, (i 0).isLt⟩
  | ⟨1, _⟩ => ⟨k.val, k.isLt⟩
/-- The right factor's position: contraction position, column of the output entry. -/
abbrev rpos (i : S512x1024.Idx) (k : Fin 1024) : S1024x1024.Idx := fun a => match a with
  | ⟨0, _⟩ => ⟨k.val, k.isLt⟩
  | ⟨1, _⟩ => ⟨(i 1).val, (i 1).isLt⟩

/-- The block product into a zero accumulator, at an entry: the sum over the 1024 contraction positions. -/
theorem prod_apply (xb : FVec Ideal S512x1024 .bf16) (wb : FVec Ideal S1024x1024 .bf16) (i : S512x1024.Idx) :
    matmul (F := Ideal) dot_S512x1024_S1024x1024_S512x1024_1_0_0_1_n_n none xb wb (constant (F := Ideal) S512x1024 .f32 0x00000000#32) i
      = ∑ k : Fin 1024, xb (lpos i k) * wb (rpos i k) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx i ((ValueIdx.contrEquiv1 dot_S512x1024_S1024x1024_S512x1024_1_0_0_1_n_n 1024 rfl rfl).symm k) = lpos i k := funext fun a => Fin.ext (by
    match a with
    | ⟨0, _⟩ => exact lhs_axis_0 _ _
    | ⟨1, _⟩ => exact (lhs_axis_1 _ _).trans hk)
  have er : dot_S512x1024_S1024x1024_S512x1024_1_0_0_1_n_n.rhsIdx i ((ValueIdx.contrEquiv1 dot_S512x1024_S1024x1024_S512x1024_1_0_0_1_n_n 1024 rfl rfl).symm k) = rpos i k := funext fun a => Fin.ext (by
    match a with
    | ⟨0, _⟩ => exact (rhs_axis_0 _ _).trans hk
    | ⟨1, _⟩ => exact rhs_axis_1 _ _)
  rw [el, er]

/-- The two positions, by coordinates. -/
theorem lpos_eq (i : S512x1024.Idx) (k : Fin 1024) : lpos i k = ix2 ⟨(i 0).val, (i 0).isLt⟩ k :=
  funext fun a => by match a with | ⟨0, _⟩ => rfl | ⟨1, _⟩ => rfl
theorem rpos_eq (i : S512x1024.Idx) (k : Fin 1024) : rpos i k = ix2 k ⟨(i 1).val, (i 1).isLt⟩ :=
  funext fun a => by match a with | ⟨0, _⟩ => rfl | ⟨1, _⟩ => rfl

/-- The zero fill is zero at every entry. -/
theorem fill_apply (y : S512x1024.Idx) : (k1_pay1 (F := Ideal) y : EReal) = 0 := by
  unfold k1_pay1
  simp only [shapeCast_self]
  exact Ideal.ofBits_zero_f32

/-- One update of the accumulator, at an entry. -/
theorem update_eq (acc : Vec Ideal S512x1024 .f32) (xb : Vec Ideal S512x1024 .bf16) (wb : Vec Ideal S1024x1024 .bf16) :
    (k1_pay2 (F := Ideal) acc xb wb : S512x1024.Idx → EReal) = upd acc xb wb := by
  funext y
  unfold k1_pay2 upd
  simp only [shapeCast_self]
  refine (addf_apply _ _ y).trans ?_
  refine congrArg (acc y + ·) ((prod_apply xb wb y).trans ?_)
  exact Finset.sum_congr rfl fun k _ => by rw [lpos_eq, rpos_eq]; rfl

end Val1

theorem runA1_acc (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : first1 i) (hc1 : ¬last1 i) (x0 : Vec Ideal S512x1024 .bf16) (x1 : Vec Ideal S1024x1024 .bf16) :
    (readT1 (F := Ideal) (kernelRun1_A (F := Ideal) c i arg3 harg3 arg4 harg4 arg5 harg5 arg6 harg6 hc0 hc1 x0 x1).1 : S512x1024.Idx → EReal) = upd (fun _ => 0) x0 x1 := by
  refine (Val1.accA (F := Ideal) c i arg3 harg3 arg4 harg4 arg5 harg5 arg6 harg6 hc0 hc1 x0 x1).trans ?_
  refine (Val1.update_eq (k1_pay1 (F := Ideal)) x0 x1).trans ?_
  exact congrArg (fun a : S512x1024.Idx → EReal => upd a x0 x1) (funext Val1.fill_apply)
theorem runB1_acc (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬first1 i) (hc1 : ¬last1 i) (x0 : Vec Ideal S512x1024 .bf16) (x1 : Vec Ideal S1024x1024 .bf16) (xs0 : Vec Ideal S512x1024 .f32) :
    (readT1 (F := Ideal) (kernelRun1_B (F := Ideal) c i arg3 harg3 arg4 harg4 arg5 harg5 arg6 harg6 hc0 hc1 x0 x1 xs0).1 : S512x1024.Idx → EReal) = upd xs0 x0 x1 :=
  (Val1.accB (F := Ideal) c i arg3 harg3 arg4 harg4 arg5 harg5 arg6 harg6 hc0 hc1 x0 x1 xs0).trans (Val1.update_eq xs0 x0 x1)
theorem runC1_acc (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬first1 i) (hc1 : last1 i) (x0 : Vec Ideal S512x1024 .bf16) (x1 : Vec Ideal S1024x1024 .bf16) (xs0 : Vec Ideal S512x1024 .f32) :
    (readT1 (F := Ideal) (kernelRun1_C (F := Ideal) c i arg3 harg3 arg4 harg4 arg5 harg5 arg6 harg6 hc0 hc1 x0 x1 xs0).2.1 : S512x1024.Idx → EReal) = upd xs0 x0 x1 :=
  (Val1.accC (F := Ideal) c i arg3 harg3 arg4 harg4 arg5 harg5 arg6 harg6 hc0 hc1 x0 x1 xs0).trans (Val1.update_eq xs0 x0 x1)
theorem runC1_out (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole) (hc0 : ¬first1 i) (hc1 : last1 i) (x0 : Vec Ideal S512x1024 .bf16) (x1 : Vec Ideal S1024x1024 .bf16) (xs0 : Vec Ideal S512x1024 .f32) :
    (readO1 (F := Ideal) (kernelRun1_C (F := Ideal) c i arg3 harg3 arg4 harg4 arg5 harg5 arg6 harg6 hc0 hc1 x0 x1 xs0).1 : S512x1024.Idx → EReal) = upd xs0 x0 x1 :=
  (Val1.outC (F := Ideal) c i arg3 harg3 arg4 harg4 arg5 harg5 arg6 harg6 hc0 hc1 x0 x1 xs0).trans (Val1.update_eq xs0 x0 x1)

end Cert.KernelIdeal.Hand

end
-- ==== Proof.KI.Val1Array.lean ====
/-
  Region 1 at the extended reals: the array it leaves. Point t = (i·4 + j)·11 + k reads rows 512·i… of the hidden
  array against columns 1024·j… of the padded W₂, 1024 terms of the contraction per k; after k = 10 the accumulator
  holds the eleven-block sum, which is the block written back at (i, j). The 32 written blocks tile the 4096 × 4096
  result.
-/
import proofs.«178229_j42717744726585_1_alg».proof.Proof.KI.Val1Pieces
import proofs.«178229_j42717744726585_1_alg».proof.Proof.KSpec
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

open Cert.FfnSpec

variable (V : (c : Dev nD) → (b : Ref sig .tc) → Buf (Elt Ideal) ((c : Thread nD τ).loc b))

namespace R1

/-- The hidden array and the padded second weight as the region finds them, and the blocks a point reads of them. -/
abbrev harr (c : Dev nD) : S4096x11264.Idx → EReal := V c main_v7
abbrev warr (c : Dev nD) : S11264x4096.Idx → EReal := V c main_v6
abbrev hblk (c : Dev nD) (t : Fin cfg1.N) : S512x1024.Idx → EReal := iblk1 V c 0 t
abbrev wblk (c : Dev nD) (t : Fin cfg1.N) : S1024x1024.Idx → EReal := iblk1 V c 1 t

/-- Point t = (i·4 + j)·11 + k: the hidden block is (i, k), the weight block (k, j), the result block (i, j). -/
theorem idx_facts1 : ∀ t : Fin cfg1.N, win1_0.index t (0 : Fin 2) = t.val / 44 ∧ win1_0.index t (1 : Fin 2) = t.val % 11
    ∧ win1_1.index t (0 : Fin 2) = t.val % 11 ∧ win1_1.index t (1 : Fin 2) = t.val / 11 % 4
    ∧ win1_2.index t (0 : Fin 2) = t.val / 44 ∧ win1_2.index t (1 : Fin 2) = t.val / 11 % 4 :=
  (by decide +kernel : ∀ t : Fin grid1.N, _)

/-- Entry (p, q) of the hidden block at point t is entry (512·i + p, 1024·k + q) of the hidden array. -/
theorem hblk_apply (c : Dev nD) (t : Fin cfg1.N) (y : S512x1024.Idx) (i : S4096x11264.Idx)
    (h0 : (i 0).val = 512 * (t.val / 44) + (y 0).val) (h1 : (i 1).val = t.val % 11 * 1024 + (y 1).val) :
    hblk V c t y = harr V c i := by
  obtain ⟨e0, e1, e2, e3, e4, e5⟩ := idx_facts1 t
  show V c main_v7 (((cfg1.win 0).blk t).view.emb y) = V c main_v7 i
  congr 1
  funext a
  apply Fin.ext
  match a with
  | ⟨0, _⟩ => show win1_0.index t (0 : Fin 2) * 512 + 1 * (y 0).val = (i 0).val; omega
  | ⟨1, _⟩ => show win1_0.index t (1 : Fin 2) * 1024 + 1 * (y 1).val = (i 1).val; omega

/-- Entry (q, s) of the weight block at point t is entry (1024·k + q, 1024·j + s) of the padded weight. -/
theorem wblk_apply (c : Dev nD) (t : Fin cfg1.N) (y : S1024x1024.Idx) (i : S11264x4096.Idx)
    (h0 : (i 0).val = t.val % 11 * 1024 + (y 0).val) (h1 : (i 1).val = 1024 * (t.val / 11 % 4) + (y 1).val) :
    wblk V c t y = warr V c i := by
  obtain ⟨e0, e1, e2, e3, e4, e5⟩ := idx_facts1 t
  show V c main_v6 (((cfg1.win 1).blk t).view.emb y) = V c main_v6 i
  congr 1
  funext a
  apply Fin.ext
  match a with
  | ⟨0, _⟩ => show win1_1.index t (0 : Fin 2) * 1024 + 1 * (y 0).val = (i 0).val; omega
  | ⟨1, _⟩ => show win1_1.index t (1 : Fin 2) * 1024 + 1 * (y 1).val = (i 1).val; omega

theorem accDot_zero (xa wa : ℕ → ℕ → EReal) (r h : ℕ) : accDot xa wa r h 0 = 0 := rfl
theorem accDot_succ (xa wa : ℕ → ℕ → EReal) (r h n : ℕ) : accDot xa wa r h (n + 1) = accDot xa wa r h n + blockDot xa wa r h n := rfl

/-- One update at point t adds block k of the contraction of row 512·i + p against column 1024·j + s. -/
theorem upd_blocks (c : Dev nD) (t : Fin cfg1.N) (acc : S512x1024.Idx → EReal) (y : S512x1024.Idx) :
    upd acc (hblk V c t) (wblk V c t) y
      = acc y + blockDot (at2 (harr V c)) (at2 (warr V c)) (512 * (t.val / 44) + (y 0).val) (1024 * (t.val / 11 % 4) + (y 1).val) (t.val % 11) := by
  have hN : t.val < 352 := lt_of_lt_of_eq t.isLt (show cfg1.N = 352 from N_1)
  have hy0 : (y 0).val < 512 := (y 0).isLt
  have hy1 : (y 1).val < 1024 := (y 1).isLt
  unfold upd blockDot
  congr 1
  refine Finset.sum_congr rfl fun q _ => ?_
  have hq : q.val < 1024 := q.isLt
  have hA : 512 * (t.val / 44) + (y 0).val < 4096 ∧ t.val % 11 * 1024 + q.val < 11264 := by omega
  have hB : t.val % 11 * 1024 + q.val < 11264 ∧ 1024 * (t.val / 11 % 4) + (y 1).val < 4096 := by omega
  unfold at2
  rw [dif_pos hA, dif_pos hB]
  congr 1
  · exact hblk_apply V c t _ _ rfl rfl
  · exact wblk_apply V c t _ _ rfl rfl

/-- What each control case leaves in the accumulator (and, at a last block, in the output tile): one update. -/
theorem stepA1_acc (c : Dev nD) (t : Fin cfg1.N) (h0 : t.val % 11 = 0) (h3 : ¬t.val % 11 = 10) :
    ((stepA1 (F := Ideal) V c t h0 h3).2 : S512x1024.Idx → EReal) = upd (fun _ => 0) (hblk V c t) (wblk V c t) := by
  unfold stepA1; dsimp only
  exact runA1_acc c (grid1.coords t) (ms1_0 t) (hs1_0 t) (ms1_1 t) (hs1_1 t) (ms1_2 t) (hs1_2 t) scM1_0 (Memref.isWhole_whole _) ((hfirst1 t).mpr h0) (fun h => h3 ((hlast1 t).mp h)) (iblk1 V c 0 t) (iblk1 V c 1 t)
theorem stepB1_acc (c : Dev nD) (t : Fin cfg1.N) (h0 : ¬t.val % 11 = 0) (h3 : ¬t.val % 11 = 10) (xs0 : Vec Ideal S512x1024 .f32) :
    ((stepB1 (F := Ideal) V c t h0 h3 xs0).2 : S512x1024.Idx → EReal) = upd xs0 (hblk V c t) (wblk V c t) := by
  unfold stepB1; dsimp only
  exact runB1_acc c (grid1.coords t) (ms1_0 t) (hs1_0 t) (ms1_1 t) (hs1_1 t) (ms1_2 t) (hs1_2 t) scM1_0 (Memref.isWhole_whole _) (fun h => h0 ((hfirst1 t).mp h)) (fun h => h3 ((hlast1 t).mp h)) (iblk1 V c 0 t) (iblk1 V c 1 t) xs0
theorem stepC1_acc (c : Dev nD) (t : Fin cfg1.N) (h0 : ¬t.val % 11 = 0) (h3 : t.val % 11 = 10) (xs0 : Vec Ideal S512x1024 .f32) :
    ((stepC1 (F := Ideal) V c t h0 h3 xs0).2 : S512x1024.Idx → EReal) = upd xs0 (hblk V c t) (wblk V c t) := by
  unfold stepC1; dsimp only
  exact runC1_acc c (grid1.coords t) (ms1_0 t) (hs1_0 t) (ms1_1 t) (hs1_1 t) (ms1_2 t) (hs1_2 t) scM1_0 (Memref.isWhole_whole _) (fun h => h0 ((hfirst1 t).mp h)) ((hlast1 t).mpr h3) (iblk1 V c 0 t) (iblk1 V c 1 t) xs0
theorem stepC1_out (c : Dev nD) (t : Fin cfg1.N) (h0 : ¬t.val % 11 = 0) (h3 : t.val % 11 = 10) (xs0 : Vec Ideal S512x1024 .f32) :
    ((stepC1 (F := Ideal) V c t h0 h3 xs0).1 : S512x1024.Idx → EReal) = upd xs0 (hblk V c t) (wblk V c t) := by
  unfold stepC1; dsimp only
  exact runC1_out c (grid1.coords t) (ms1_0 t) (hs1_0 t) (ms1_1 t) (hs1_1 t) (ms1_2 t) (hs1_2 t) scM1_0 (Memref.isWhole_whole _) (fun h => h0 ((hfirst1 t).mp h)) ((hlast1 t).mpr h3) (iblk1 V c 0 t) (iblk1 V c 1 t) xs0

/-- THE ACCUMULATOR after point n = (i·4 + j)·11 + k: at (p, s), the first k + 1 blocks of row 512·i + p of the
    hidden array against column 1024·j + s of the weight, accumulated from zero in order. -/
theorem acc_inv (c : Dev nD) : ∀ (n : ℕ) (hn : n < cfg1.N) (y : S512x1024.Idx),
    ((outsAt1 (F := Ideal) V c n hn).2 : S512x1024.Idx → EReal) y
      = accDot (at2 (harr V c)) (at2 (warr V c)) (512 * (n / 44) + (y 0).val) (1024 * (n / 11 % 4) + (y 1).val) (n % 11 + 1) := by
  intro n
  induction n with
  | zero =>
    intro hn y
    have h3 : ¬(⟨0, hn⟩ : Fin cfg1.N).val % 11 = 10 := by show ¬(0 : ℕ) % 11 = 10; decide
    rw [outsAt1_A V c ⟨0, hn⟩ (Nat.zero_mod _) h3, stepA1_acc, upd_blocks]
    show 0 + blockDot _ _ _ _ 0 = accDot _ _ _ _ 0 + blockDot _ _ _ _ 0
    rfl
  | succ n ih =>
    intro hn y
    by_cases h0 : (n + 1) % 11 = 0
    · have h3 : ¬(n + 1) % 11 = 10 := by omega
      rw [outsAt1_A V c ⟨n + 1, hn⟩ h0 h3, stepA1_acc, upd_blocks]
      show 0 + blockDot _ _ (512 * ((n + 1) / 44) + (y 0).val) (1024 * ((n + 1) / 11 % 4) + (y 1).val) ((n + 1) % 11) = _
      rw [h0]
      rfl
    · have e1 : (n + 1) / 44 = n / 44 := by omega
      have e2 : (n + 1) / 11 % 4 = n / 11 % 4 := by omega
      have e3 : (n + 1) % 11 = n % 11 + 1 := by omega
      by_cases h3 : (n + 1) % 11 = 10
      · rw [outsAt1_C V c ⟨n + 1, hn⟩ h0 h3, stepC1_acc, upd_blocks]
        show (outsAt1 (F := Ideal) V c n _).2 y + blockDot _ _ (512 * ((n + 1) / 44) + (y 0).val) (1024 * ((n + 1) / 11 % 4) + (y 1).val) ((n + 1) % 11) = _
        rw [ih, e1, e2, e3]
        rfl
      · rw [outsAt1_B V c ⟨n + 1, hn⟩ h0 h3, stepB1_acc, upd_blocks]
        show (outsAt1 (F := Ideal) V c n _).2 y + blockDot _ _ (512 * ((n + 1) / 44) + (y 0).val) (1024 * ((n + 1) / 11 % 4) + (y 1).val) ((n + 1) % 11) = _
        rw [ih, e1, e2, e3]
        rfl

/-- THE OUTPUT TILE at a last block (k = 10): all eleven blocks. -/
theorem out_inv (c : Dev nD) (t : Fin cfg1.N) (h3 : t.val % 11 = 10) (y : S512x1024.Idx) (p s : ℕ)
    (hp : (y 0).val = p) (hs : (y 1).val = s) :
    ((outsAt1 (F := Ideal) V c t.val t.isLt).1 : S512x1024.Idx → EReal) y
      = accDot (at2 (harr V c)) (at2 (warr V c)) (512 * (t.val / 44) + p) (1024 * (t.val / 11 % 4) + s) 11 := by
  subst hp hs
  have h0 : ¬t.val % 11 = 0 := by omega
  have e1 : (t.val - 1) / 44 = t.val / 44 := by omega
  have e2 : (t.val - 1) / 11 % 4 = t.val / 11 % 4 := by omega
  have e3 : (t.val - 1) % 11 + 1 = 10 := by omega
  rw [outsAt1_C V c t h0 h3, stepC1_out, upd_blocks, acc_inv, e1, e2, e3, h3]
  rfl

/-- What region 1 leaves in the result array. -/
abbrev G1 (c : Dev nD) : S4096x4096.Idx → EReal :=
  fun idx => outK (at2 (harr V c)) (at2 (warr V c)) (idx 0).val (idx 1).val

/-- What a last-block point writes back is its block of that array. -/
theorem flushed_eq1 (c : Dev nD) (t : Fin cfg1.N) (hf : (cfg1.win 2).flush t = true) :
    (dat1 (F := Ideal) V c).flushed 2 t = ((cfg1.win 2).blk t).view.read (Elt Ideal) (G1 V c) := by
  have h3 : t.val % 11 = 10 := (flush1_2 t).mp hf
  obtain ⟨e0, e1, e2, e3, e4, e5⟩ := idx_facts1 t
  show (cfg1.win 2).cut (grid1.coords t) ((dat1 (F := Ideal) V c).after 2 t) = _
  rw [after1_2]
  funext y
  have hr : ((((cfg1.win 2).blk t).view.emb y) 0).val = 512 * (t.val / 44) + (y 0).val := by
    show win1_2.index t (0 : Fin 2) * 512 + 1 * (y 0).val = _; omega
  have hc : ((((cfg1.win 2).blk t).view.emb y) 1).val = 1024 * (t.val / 11 % 4) + (y 1).val := by
    show win1_2.index t (1 : Fin 2) * 1024 + 1 * (y 1).val = _; omega
  show ((outsAt1 (F := Ideal) V c t.val t.isLt).1 : S512x1024.Idx → EReal) ((cfg1.win 2).xinj (grid1.coords t) y)
    = outK (at2 (harr V c)) (at2 (warr V c)) ((((cfg1.win 2).blk t).view.emb y) 0).val ((((cfg1.win 2).blk t).view.emb y) 1).val
  rw [hr, hc]
  exact out_inv V c t h3 _ _ _ rfl rfl

/-- An index of the result is in point t's block iff each coordinate is in the block's range on its axis. -/
theorem mem_blk1 (t : Fin cfg1.N) (i : S4096x4096.Idx) :
    i ∈ ((cfg1.win 2).blk t).view.set ↔ ∀ a : Fin 2, win1_2.index t a * S512x1024.size a ≤ (i a).val ∧ (i a).val < win1_2.index t a * S512x1024.size a + S512x1024.size a := by
  show i ∈ ((View.whole main_v8).slice (win1_2.rect t)).set ↔ _
  rw [View.set_slice_whole, Rect.mem_set_unit]
  exact Iff.rfl

/-- The 32 written blocks tile the result: entry (r, h) is written at point ((r / 512)·4 + h / 1024)·11 + 10. -/
theorem cover1 (i : S4096x4096.Idx) : ∃ t : Fin cfg1.N, (cfg1.win 2).flush t = true ∧ i ∈ ((cfg1.win 2).blk t).view.set := by
  have hi0 : (i 0).val < 4096 := (i 0).isLt
  have hi1 : (i 1).val < 4096 := (i 1).isLt
  have hN : cfg1.N = 352 := N_1
  have hlt : (((i 0).val / 512) * 4 + (i 1).val / 1024) * 11 + 10 < cfg1.N := by rw [hN]; omega
  refine ⟨⟨(((i 0).val / 512) * 4 + (i 1).val / 1024) * 11 + 10, hlt⟩, (flush1_2 _).mpr (by show ((((i 0).val / 512) * 4 + (i 1).val / 1024) * 11 + 10) % 11 = 10; omega), ?_⟩
  obtain ⟨e0, e1, e2, e3, e4, e5⟩ := idx_facts1 ⟨(((i 0).val / 512) * 4 + (i 1).val / 1024) * 11 + 10, hlt⟩
  rw [mem_blk1]
  intro a
  match a with
  | ⟨0, _⟩ =>
    show win1_2.index _ (0 : Fin 2) * 512 ≤ (i 0).val ∧ (i 0).val < win1_2.index _ (0 : Fin 2) * 512 + 512
    rw [e4]
    show ((((i 0).val / 512) * 4 + (i 1).val / 1024) * 11 + 10) / 44 * 512 ≤ (i 0).val ∧ (i 0).val < ((((i 0).val / 512) * 4 + (i 1).val / 1024) * 11 + 10) / 44 * 512 + 512
    omega
  | ⟨1, _⟩ =>
    show win1_2.index _ (1 : Fin 2) * 1024 ≤ (i 1).val ∧ (i 1).val < win1_2.index _ (1 : Fin 2) * 1024 + 1024
    rw [e5]
    show ((((i 0).val / 512) * 4 + (i 1).val / 1024) * 11 + 10) / 11 % 4 * 1024 ≤ (i 1).val ∧ (i 1).val < ((((i 0).val / 512) * 4 + (i 1).val / 1024) * 11 + 10) / 11 % 4 * 1024 + 1024
    omega

end R1

/-- What region 1 leaves in the result array, as one function of the two arrays it reads. -/
theorem region1_value (c : Dev nD) :
    ((dat1 (F := Ideal) V c).arrAt 2 cfg1.N : S4096x4096.Idx → EReal)
      = fun idx => outK (at2 (V c main_v7 : S4096x11264.Idx → EReal)) (at2 (V c main_v6 : S11264x4096.Idx → EReal))
          (idx 0).val (idx 1).val :=
  (dat1 (F := Ideal) V c).arrAt_eq_of_cover 2 (R1.G1 V c) (R1.flushed_eq1 V c) R1.cover1

end Cert.KernelIdeal.Hand

end
-- ==== Proof.Spec.lean ====
/-
  The function both programs compute, over the extended reals: the SwiGLU feed-forward block
      out[r, j] = Σ_h ( g[r,h] · σ(g[r,h]) · u[r,h] ) · W₂[h, j],   g = x·W₁,  u = x·W₃,
  with σ(t) = 1 / (1 + e^(−t)); and the two facts about sums that relate the tiled, zero-padded evaluation to it:
  a sum over n·b consecutive indices taken block by block, and a sum whose tail terms vanish.
-/
import Idealize.ShloMosaic.PureOps.Ideal
import Idealize.ShloMosaic.PureOps.Ideal.Laws
import Idealize.ShloMosaic.Lib.ValueIdx
import Mathlib.Algebra.BigOperators.Group.Finset.Basic
import Mathlib.Algebra.BigOperators.Fin

noncomputable section

open scoped BigOperators

namespace Cert.FfnSpec

open Idealize.ShloMosaic Idealize.ShloMosaic.ValueIdx

/-- x and the result: 4096 × 4096. -/
abbrev SX : Shape := ⟨2, ![4096, 4096]⟩
/-- W₁ and W₃: 4096 × 11008. -/
abbrev SW : Shape := ⟨2, ![4096, 11008]⟩
/-- W₂: 11008 × 4096. -/
abbrev SD : Shape := ⟨2, ![11008, 4096]⟩

/-- One projection entry: row `r` of x against column `h` of w. -/
def proj (x : SX.Idx → EReal) (w : SW.Idx → EReal) (r : Fin 4096) (h : Fin 11008) : EReal :=
  ∑ k : Fin 4096, x (ix2 r k) * w (ix2 k h)

/-- The hidden activation: silu(gate) · up. -/
def hidden (x : SX.Idx → EReal) (w1 w3 : SW.Idx → EReal) (r : Fin 4096) (h : Fin 11008) : EReal :=
  proj x w1 r h * Ideal.logistic (proj x w1 r h) * proj x w3 r h

/-- The whole block, index by index. -/
def G (x : SX.Idx → EReal) (w1 : SW.Idx → EReal) (w2 : SD.Idx → EReal) (w3 : SW.Idx → EReal) : SX.Idx → EReal :=
  fun i => ∑ h : Fin 11008, hidden x w1 w3 ⟨(i 0).val, (i 0).isLt⟩ h * w2 (ix2 h ⟨(i 1).val, (i 1).isLt⟩)

/-- A sum over `n * b` consecutive naturals, taken as `n` blocks of `b`. -/
theorem sum_blocks {M : Type} [AddCommMonoid M] (n b : ℕ) (f : ℕ → M) :
    ∑ q : Fin n, ∑ p : Fin b, f (q.val * b + p.val) = ∑ k : Fin (n * b), f k.val := by
  -- Pass to sums over initial segments of ℕ, then peel off one block at a time:
  -- the first (n+1)·b naturals are the first n·b followed by the b naturals n·b + p.
  rw [Fin.sum_univ_eq_sum_range (fun q => ∑ p : Fin b, f (q * b + p.val)) n,
      Fin.sum_univ_eq_sum_range f (n * b)]
  induction n with
  | zero => simp
  | succ n ih =>
    rw [Finset.sum_range_succ, ih, Nat.succ_mul, Finset.sum_range_add,
      Fin.sum_univ_eq_sum_range (fun p => f (n * b + p)) b]

/-- A sum whose terms vanish from `n` on is the sum of the first `n`. -/
theorem sum_tail_zero {M : Type} [AddCommMonoid M] (n N : ℕ) (hnN : n ≤ N) (f : ℕ → M) (hz : ∀ k, n ≤ k → k < N → f k = 0) :
    ∑ k : Fin N, f k.val = ∑ k : Fin n, f k.val := by
  -- Write N = n + m; the sum splits into the first n terms and m terms f (n + x), all of which vanish.
  rw [Fin.sum_univ_eq_sum_range f N, Fin.sum_univ_eq_sum_range f n]
  obtain ⟨m, rfl⟩ := Nat.exists_eq_add_of_le hnN
  rw [Finset.sum_range_add]
  have htail : ∑ x ∈ Finset.range m, f (n + x) = 0 := by
    apply Finset.sum_eq_zero
    intro x hx
    exact hz (n + x) (Nat.le_add_right n x) (Nat.add_lt_add_left (Finset.mem_range.mp hx) n)
  rw [htail, add_zero]

/-- The left fold `((0 + a 0) + a 1) + …` an accumulator performs is the sum. -/
theorem foldAcc_eq_sum {M : Type} [AddCommMonoid M] (a : ℕ → M) : ∀ n : ℕ,
    (Nat.rec (0 : M) (fun k acc => acc + a k) n : M) = ∑ k : Fin n, a k.val := by
  -- Induction on the number of steps: the (n+1)-st step adds a n, which is the last term of the sum.
  intro n
  induction n with
  | zero => simp
  | succ n ih =>
    rw [Fin.sum_univ_castSucc]
    simp only [Fin.coe_castSucc, Fin.val_last]
    rw [← ih]

/-- Padding a projection's weight columns with zeros leaves the hidden activation zero there. -/
theorem hidden_formula_zero (g u : EReal) (hg : g = 0) : g * Ideal.logistic g * u = 0 := by
  -- In the extended reals 0 · y = 0 for every y, infinite or not.
  subst hg
  rw [zero_mul, zero_mul]

/-- A sum all of whose terms are zero is zero. -/
theorem sum_fin_zero {M : Type} [AddCommMonoid M] (n : ℕ) (f : Fin n → M) (hz : ∀ k, f k = 0) :
    ∑ k : Fin n, f k = 0 :=
  Finset.sum_eq_zero (fun k _ => hz k)

/-- A product with a zero right factor contributes nothing to a sum over the extended reals. -/
theorem sum_fin_mul_zero (n : ℕ) (f g : Fin n → EReal) (hz : ∀ k, g k = 0) :
    ∑ k : Fin n, f k * g k = 0 :=
  Finset.sum_eq_zero (fun k _ => by rw [hz k, mul_zero])

/-- A product with a zero left factor contributes nothing to a sum over the extended reals. -/
theorem sum_fin_zero_mul (n : ℕ) (f g : Fin n → EReal) (hz : ∀ k, f k = 0) :
    ∑ k : Fin n, f k * g k = 0 :=
  Finset.sum_eq_zero (fun k _ => by rw [hz k, zero_mul])

/-- Two sums over the same index set agree when they agree term by term. -/
theorem sum_fin_congr {M : Type} [AddCommMonoid M] (n : ℕ) (f g : Fin n → M) (h : ∀ k, f k = g k) :
    ∑ k : Fin n, f k = ∑ k : Fin n, g k :=
  Finset.sum_congr rfl (fun k _ => h k)

/-- Block form combined with a vanishing tail: a sum over n * b padded indices, taken block by block,
    equals the sum over the first m indices when the terms vanish from m on. -/
theorem sum_blocks_tail_zero {M : Type} [AddCommMonoid M] (n b m : ℕ) (hm : m ≤ n * b) (f : ℕ → M)
    (hz : ∀ k, m ≤ k → k < n * b → f k = 0) :
    ∑ q : Fin n, ∑ p : Fin b, f (q.val * b + p.val) = ∑ k : Fin m, f k.val := by
  rw [sum_blocks n b f, sum_tail_zero m (n * b) hm f hz]

end Cert.FfnSpec

end
-- ==== Proof.KAlg.lean ====
/-
  The tiled, zero-padded evaluation is the specification. A contraction accumulated block after block, 1024 terms
  at a time, is the plain sum over all its terms, because addition in the extended reals is commutative and
  associative. The weights' hidden axis is padded from 11008 to 11264 = 11 · 1024 with zeros: a padded column of W₁
  or W₃ makes the projection there a sum of products x · 0 = 0, so the hidden activation 0 · σ(0) · u is 0 there, and
  the padded rows of W₂ are 0 as well; the 11264-term contraction therefore has a vanishing tail and equals the
  11008-term one, term by term the specification's.
-/
import proofs.«178229_j42717744726585_1_alg».proof.Proof.Spec
import proofs.«178229_j42717744726585_1_alg».proof.Proof.KSpec

noncomputable section

open scoped BigOperators

namespace Cert.FfnSpec

open Idealize.ShloMosaic Idealize.ShloMosaic.ValueIdx

/-- Inside its extents, an array read at natural coordinates is the array's entry. -/
theorem at2_of_lt {n0 n1 : ℕ} (a : (⟨2, ![n0, n1]⟩ : Shape).Idx → EReal) (r s : ℕ) (hr : r < n0) (hs : s < n1) :
    at2 a r s = a (ix2 ⟨r, hr⟩ ⟨s, hs⟩) := by
  unfold at2
  rw [dif_pos ⟨hr, hs⟩]

/-- Beyond its second extent, an array read at natural coordinates is zero. -/
theorem at2_of_ge_right {n0 n1 : ℕ} (a : (⟨2, ![n0, n1]⟩ : Shape).Idx → EReal) (r s : ℕ) (hs : n1 ≤ s) :
    at2 a r s = 0 := by
  unfold at2
  rw [dif_neg (fun h => absurd h.2 (Nat.not_lt.mpr hs))]

/-- Beyond its first extent, an array read at natural coordinates is zero. -/
theorem at2_of_ge_left {n0 n1 : ℕ} (a : (⟨2, ![n0, n1]⟩ : Shape).Idx → EReal) (r s : ℕ) (hr : n0 ≤ r) :
    at2 a r s = 0 := by
  unfold at2
  rw [dif_neg (fun h => absurd h.1 (Nat.not_lt.mpr hr))]

/-- The accumulator after n blocks holds the sum of the n block sums. -/
theorem accDot_eq_sum_blocks (xa wa : ℕ → ℕ → EReal) (r h : ℕ) : ∀ n : ℕ,
    accDot xa wa r h n = ∑ kb : Fin n, blockDot xa wa r h kb.val := by
  intro n
  induction n with
  | zero => simp [accDot]
  | succ n ih =>
    rw [accDot, ih, Fin.sum_univ_castSucc]
    simp only [Fin.coe_castSucc, Fin.val_last]

/-- The accumulator after n blocks of 1024 holds the sum of the first n · 1024 terms. -/
theorem accDot_eq_sum (xa wa : ℕ → ℕ → EReal) (r h n : ℕ) :
    accDot xa wa r h n = ∑ k : Fin (n * 1024), xa r k.val * wa k.val h := by
  rw [accDot_eq_sum_blocks]
  unfold blockDot
  exact sum_blocks n 1024 (fun k => xa r k * wa k h)

/-- The same, with the number of terms named. -/
theorem accDot_eq_sum_of_eq (xa wa : ℕ → ℕ → EReal) (r h n N : ℕ) (hN : n * 1024 = N) :
    accDot xa wa r h n = ∑ k : Fin N, xa r k.val * wa k.val h := by
  subst hN
  exact accDot_eq_sum xa wa r h n

/-- Four blocks against an unpadded column of the padded weights: the projection entry. -/
theorem accDot_proj (x : SX.Idx → EReal) (w : SW.Idx → EReal) (wp : (⟨2, ![4096, 11264]⟩ : Shape).Idx → EReal)
    (hw : ∀ (r : Fin 4096) (h : Fin 11264), wp (ix2 r h) = (if hh : h.val < 11008 then w (ix2 r ⟨h.val, hh⟩) else 0 : EReal))
    (r h : ℕ) (hr : r < 4096) (hh : h < 11008) :
    accDot (at2 x) (at2 wp) r h 4 = proj x w ⟨r, hr⟩ ⟨h, hh⟩ := by
  rw [accDot_eq_sum_of_eq (at2 x) (at2 wp) r h 4 4096 (by norm_num)]
  unfold proj
  refine Finset.sum_congr rfl fun k _ => ?_
  rw [at2_of_lt x r k.val hr k.isLt, at2_of_lt wp k.val h k.isLt (Nat.lt_trans hh (by norm_num)), hw, dif_pos hh]

/-- Four blocks against a padded column: every term is x · 0, so the projection there is zero. -/
theorem accDot_pad_zero (x : SX.Idx → EReal) (w : SW.Idx → EReal) (wp : (⟨2, ![4096, 11264]⟩ : Shape).Idx → EReal)
    (hw : ∀ (r : Fin 4096) (h : Fin 11264), wp (ix2 r h) = (if hh : h.val < 11008 then w (ix2 r ⟨h.val, hh⟩) else 0 : EReal))
    (r h : ℕ) (hh : 11008 ≤ h) :
    accDot (at2 x) (at2 wp) r h 4 = 0 := by
  rw [accDot_eq_sum_of_eq (at2 x) (at2 wp) r h 4 4096 (by norm_num)]
  refine Finset.sum_eq_zero fun k _ => ?_
  have hz : at2 wp k.val h = 0 := by
    by_cases hlt : h < 11264
    · rw [at2_of_lt wp k.val h k.isLt hlt, hw, dif_neg (Nat.not_lt.mpr hh)]
    · exact at2_of_ge_right wp k.val h (Nat.not_lt.mp hlt)
  rw [hz, mul_zero]

/-- On the unpadded part of the hidden axis the tiled hidden activation is the specification's. -/
theorem hidK_eq_hidden (x : SX.Idx → EReal) (w1 w3 : SW.Idx → EReal)
    (w1p w3p : (⟨2, ![4096, 11264]⟩ : Shape).Idx → EReal)
    (hw1 : ∀ (r : Fin 4096) (h : Fin 11264), w1p (ix2 r h) = (if hh : h.val < 11008 then w1 (ix2 r ⟨h.val, hh⟩) else 0 : EReal))
    (hw3 : ∀ (r : Fin 4096) (h : Fin 11264), w3p (ix2 r h) = (if hh : h.val < 11008 then w3 (ix2 r ⟨h.val, hh⟩) else 0 : EReal))
    (r h : ℕ) (hr : r < 4096) (hh : h < 11008) :
    hidK (at2 x) (at2 w1p) (at2 w3p) r h = hidden x w1 w3 ⟨r, hr⟩ ⟨h, hh⟩ := by
  unfold hidK hidden
  rw [accDot_proj x w1 w1p hw1 r h hr hh, accDot_proj x w3 w3p hw3 r h hr hh]

/-- On the padded part of the hidden axis the tiled hidden activation is zero: 0 · σ(0) · u. -/
theorem hidK_pad_zero (x : SX.Idx → EReal) (w1 : SW.Idx → EReal)
    (w1p w3p : (⟨2, ![4096, 11264]⟩ : Shape).Idx → EReal)
    (hw1 : ∀ (r : Fin 4096) (h : Fin 11264), w1p (ix2 r h) = (if hh : h.val < 11008 then w1 (ix2 r ⟨h.val, hh⟩) else 0 : EReal))
    (r h : ℕ) (hh : 11008 ≤ h) :
    hidK (at2 x) (at2 w1p) (at2 w3p) r h = 0 := by
  unfold hidK
  exact hidden_formula_zero _ _ (accDot_pad_zero x w1 w1p hw1 r h hh)

/-- The stored hidden activation, read at natural coordinates inside its extents. -/
theorem at2_hid (x : SX.Idx → EReal) (w1p w3p : (⟨2, ![4096, 11264]⟩ : Shape).Idx → EReal)
    (hid : (⟨2, ![4096, 11264]⟩ : Shape).Idx → EReal)
    (hhid : hid = fun idx => hidK (at2 x) (at2 w1p) (at2 w3p) (idx 0).val (idx 1).val)
    (r k : ℕ) (hr : r < 4096) (hk : k < 11264) :
    at2 hid r k = hidK (at2 x) (at2 w1p) (at2 w3p) r k := by
  rw [at2_of_lt hid r k hr hk, hhid]

/-- The tiled, padded evaluation computes the specification. -/
theorem kernel_form_is_G (x : SX.Idx → EReal) (w1 w3 : SW.Idx → EReal) (w2 : SD.Idx → EReal)
    (w1p w3p : (⟨2, ![4096, 11264]⟩ : Shape).Idx → EReal) (w2p : (⟨2, ![11264, 4096]⟩ : Shape).Idx → EReal)
    (hw1 : ∀ (r : Fin 4096) (h : Fin 11264), w1p (ix2 r h) = (if hh : h.val < 11008 then w1 (ix2 r ⟨h.val, hh⟩) else 0 : EReal))
    (hw3 : ∀ (r : Fin 4096) (h : Fin 11264), w3p (ix2 r h) = (if hh : h.val < 11008 then w3 (ix2 r ⟨h.val, hh⟩) else 0 : EReal))
    (hw2 : ∀ (h : Fin 11264) (j : Fin 4096), w2p (ix2 h j) = (if hh : h.val < 11008 then w2 (ix2 ⟨h.val, hh⟩ j) else 0 : EReal))
    (hid : (⟨2, ![4096, 11264]⟩ : Shape).Idx → EReal)
    (hhid : hid = fun idx => hidK (at2 x) (at2 w1p) (at2 w3p) (idx 0).val (idx 1).val) :
    (fun idx : SX.Idx => outK (at2 hid) (at2 w2p) (idx 0).val (idx 1).val) = G x w1 w2 w3 := by
  funext idx
  have hr : (idx 0).val < 4096 := idx2_lt0 idx
  have hj : (idx 1).val < 4096 := idx2_lt1 idx
  show accDot (at2 hid) (at2 w2p) (idx 0).val (idx 1).val 11
    = ∑ h : Fin 11008, hidden x w1 w3 ⟨(idx 0).val, (idx 0).isLt⟩ h * w2 (ix2 h ⟨(idx 1).val, (idx 1).isLt⟩)
  rw [accDot_eq_sum_of_eq (at2 hid) (at2 w2p) (idx 0).val (idx 1).val 11 11264 (by norm_num)]
  have hz : ∀ k, 11008 ≤ k → k < 11264 →
      (fun k => at2 hid (idx 0).val k * at2 w2p k (idx 1).val) k = 0 := by
    intro k hk hk'
    show at2 hid (idx 0).val k * at2 w2p k (idx 1).val = 0
    rw [at2_of_lt w2p k (idx 1).val hk' hj, hw2, dif_neg (Nat.not_lt.mpr hk), mul_zero]
  rw [sum_tail_zero 11008 11264 (by norm_num) (fun k => at2 hid (idx 0).val k * at2 w2p k (idx 1).val) hz]
  refine Finset.sum_congr rfl fun h _ => ?_
  have hh' : h.val < 11264 := Nat.lt_trans h.isLt (by norm_num)
  rw [at2_hid x w1p w3p hid hhid (idx 0).val h.val hr hh', hidK_eq_hidden x w1 w3 w1p w3p hw1 hw3 (idx 0).val h.val hr h.isLt,
    at2_of_lt w2p h.val (idx 1).val hh' hj, hw2, dif_pos h.isLt]

end Cert.FfnSpec

end
-- ==== Proof.KI.Result.lean ====
/-
  What the result buffer holds at the end, at the extended reals: region 1 leaves the eleven-block contraction of the
  hidden array with the padded W₂; the hidden array is what region 0 left, silu(gate) · up over four-block
  contractions of x with the padded W₁ and W₃; the padded arrays are the arguments with zeros beyond 11008. That is
  the specification `G` of the four arguments.
-/
import proofs.«178229_j42717744726585_1_alg».proof.Proof.KI.Run
import proofs.«178229_j42717744726585_1_alg».proof.Proof.KI.HostVals
import proofs.«178229_j42717744726585_1_alg».proof.Proof.KI.Val0Array
import proofs.«178229_j42717744726585_1_alg».proof.Proof.KI.Val1Array
import proofs.«178229_j42717744726585_1_alg».proof.Proof.KAlg

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

open Cert.FfnSpec

variable (m : (ℓ : Loc nD τ sig) → Buf (Elt Ideal) ℓ)

theorem result_value (c : Dev nD) :
    (W8 (F := Ideal) m c (Proc.devRef .tc main_v8) : S4096x4096.Idx → EReal)
      = G (m ((c : Thread nD τ).loc main_arg0) : S4096x4096.Idx → EReal) (m ((c : Thread nD τ).loc main_arg1) : S4096x11008.Idx → EReal)
          (m ((c : Thread nD τ).loc main_arg2) : S11008x4096.Idx → EReal) (m ((c : Thread nD τ).loc main_arg3) : S4096x11008.Idx → EReal) := by
  have h8 : (W8 (F := Ideal) m c (Proc.devRef .tc main_v8) : S4096x4096.Idx → EReal) = (dat1 (F := Ideal) (E1 m) c).arrAt 2 cfg1.N := W8_arr m c 2
  have h7 : (E1 (F := Ideal) m c main_v7 : S4096x11264.Idx → EReal)
      = fun idx => hidK (at2 (V6 (F := Ideal) m c main_v0 : S4096x4096.Idx → EReal)) (at2 (V6 (F := Ideal) m c main_v2 : S4096x11264.Idx → EReal))
          (at2 (V6 (F := Ideal) m c main_v4 : S4096x11264.Idx → EReal)) (idx 0).val (idx 1).val :=
    (W7_arr m c 3).trans (region0_value (E0 m) c)
  have h6 : (E1 (F := Ideal) m c main_v6 : S11264x4096.Idx → EReal) = (V6 (F := Ideal) m c main_v6 : S11264x4096.Idx → EReal) :=
    W7_of_ne m c main_v6 (by decide)
  refine h8.trans ((region1_value (E1 m) c).trans ?_)
  rw [h6]
  have key := kernel_form_is_G (V6 (F := Ideal) m c main_v0 : S4096x4096.Idx → EReal) (m ((c : Thread nD τ).loc main_arg1) : S4096x11008.Idx → EReal)
    (m ((c : Thread nD τ).loc main_arg3) : S4096x11008.Idx → EReal) (m ((c : Thread nD τ).loc main_arg2) : S11008x4096.Idx → EReal)
    (V6 (F := Ideal) m c main_v2 : S4096x11264.Idx → EReal) (V6 (F := Ideal) m c main_v4 : S4096x11264.Idx → EReal) (V6 (F := Ideal) m c main_v6 : S11264x4096.Idx → EReal)
    (entry_w1p m c) (entry_w3p m c) (entry_w2p m c) (E1 (F := Ideal) m c main_v7 : S4096x11264.Idx → EReal) h7
  rw [entry_x m c] at key
  exact key

end Cert.KernelIdeal.Hand

end
-- ==== Proof.Ref.lean ====
/-
  The reference program computes the specification. Its last operation contracts the hidden activation against W₂;
  the hidden activation is the product of three element-wise factors: the gate projection g = x·W₁, the quotient
  1 / (1 + e^(−g)) built from negate, exponential, add and divide, and the up projection u = x·W₃. Each contraction
  is a finite sum over the shared axis, read at the index whose coordinates are the row of the left operand and the
  column of the right one, so index by index the program's value is
      Σ_h ( g[r,h] · σ(g[r,h]) · u[r,h] ) · W₂[h, j],
  which is the function G of the specification.
-/
import proofs.«178229_j42717744726585_1_alg».proof.Proof.Gen.ReferenceIdeal.Read
import proofs.«178229_j42717744726585_1_alg».proof.Proof.Spec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx
open Cert.FfnSpec

/-- The left operand of the first contraction is read at (row of the result, k). -/
theorem lidx_v0_eq (j : S4096x11008.Idx) (k : Fin 4096) :
    lidx_main_v0 j k = ix2 (⟨(j 0).val, (j 0).isLt⟩ : Fin 4096) k := by
  funext a
  match a with
  | ⟨0, _⟩ => rfl
  | ⟨1, _⟩ => rfl

/-- The right operand of the first contraction is read at (k, column of the result). -/
theorem ridx_v0_eq (j : S4096x11008.Idx) (k : Fin 4096) :
    ridx_main_v0 j k = ix2 k (⟨(j 1).val, (j 1).isLt⟩ : Fin 11008) := by
  funext a
  match a with
  | ⟨0, _⟩ => rfl
  | ⟨1, _⟩ => rfl

/-- The gate projection x·W₁, entry by entry. -/
theorem v0_eq_proj (x0 : (⟨S4096x4096, .f32⟩ : BufTy).Contents (Elt Ideal)) (x1 : (⟨S4096x11008, .f32⟩ : BufTy).Contents (Elt Ideal))
    (j : S4096x11008.Idx) :
    val_main_v0 (F := Ideal) x0 x1 j = proj x0 x1 ⟨(j 0).val, (j 0).isLt⟩ ⟨(j 1).val, (j 1).isLt⟩ := by
  rw [val_main_v0_apply]
  unfold proj
  refine Finset.sum_congr rfl fun k _ => ?_
  rw [lidx_v0_eq, ridx_v0_eq]

/-- The up projection x·W₃, entry by entry. -/
theorem v1_eq_proj (x0 : (⟨S4096x4096, .f32⟩ : BufTy).Contents (Elt Ideal)) (x3 : (⟨S4096x11008, .f32⟩ : BufTy).Contents (Elt Ideal))
    (j : S4096x11008.Idx) :
    val_main_v1 (F := Ideal) x0 x3 j = proj x0 x3 ⟨(j 0).val, (j 0).isLt⟩ ⟨(j 1).val, (j 1).isLt⟩ := by
  rw [val_main_v1_apply]
  unfold proj
  refine Finset.sum_congr rfl fun k _ => ?_
  rw [show lidx_main_v1 j k = ix2 (⟨(j 0).val, (j 0).isLt⟩ : Fin 4096) k from lidx_v0_eq j k,
      show ridx_main_v1 j k = ix2 k (⟨(j 1).val, (j 1).isLt⟩ : Fin 11008) from ridx_v0_eq j k]

/-- The hidden activation is read at (row of the result, h) by the last contraction. -/
theorem lidx_v4_eq (i : S4096x4096.Idx) (h : Fin 11008) :
    lidx_main_v4 i h = ix2 (⟨(i 0).val, (i 0).isLt⟩ : Fin 4096) h := by
  funext a
  match a with
  | ⟨0, _⟩ => rfl
  | ⟨1, _⟩ => rfl

/-- W₂ is read at (h, column of the result) by the last contraction. -/
theorem ridx_v4_eq (i : S4096x4096.Idx) (h : Fin 11008) :
    ridx_main_v4 i h = ix2 h (⟨(i 1).val, (i 1).isLt⟩ : Fin 4096) := by
  funext a
  match a with
  | ⟨0, _⟩ => rfl
  | ⟨1, _⟩ => rfl

/-- The element-wise chain negate, exponential, 1 + ·, 1 / ·, then the two products, is g · σ(g) · u:
    the constant pattern is the extended real one, and 1 / (1 + e^(−g)) is the logistic function by definition. -/
theorem v3_eq_hidden (x0 : (⟨S4096x4096, .f32⟩ : BufTy).Contents (Elt Ideal)) (x1 x3 : (⟨S4096x11008, .f32⟩ : BufTy).Contents (Elt Ideal))
    (j : S4096x11008.Idx) :
    val_main_v3 (F := Ideal) x0 x1 x3 j = hidden x0 x1 x3 ⟨(j 0).val, (j 0).isLt⟩ ⟨(j 1).val, (j 1).isLt⟩ := by
  rw [val_main_v3_apply, val_main_v2_apply, val_main_call0_v5_apply, val_main_call0_v4_apply, val_main_call0_cst_0_apply,
    val_main_call0_v3_apply, val_main_call0_v2_apply, val_main_call0_cst_apply, val_main_call0_v1_apply,
    val_main_call0_v0_apply, v0_eq_proj, v1_eq_proj]
  simp only [Ideal.mulf_def, Ideal.addf_def, Ideal.hostDivf_def, Ideal.hostNegf_def, Ideal.negf_def,
    Ideal.hostUnary_exp_def, Ideal.ofBits_def, Ideal.ofBits_one_f32]
  rfl

/-- The reference's result is the specification G of its four arguments. -/
theorem ref_is_G (x0 : (⟨S4096x4096, .f32⟩ : BufTy).Contents (Elt Ideal)) (x1 : (⟨S4096x11008, .f32⟩ : BufTy).Contents (Elt Ideal)) (x2 : (⟨S11008x4096, .f32⟩ : BufTy).Contents (Elt Ideal)) (x3 : (⟨S4096x11008, .f32⟩ : BufTy).Contents (Elt Ideal)) :
    Cert.ReferenceIdeal.Read.val_main_v4 (F := Ideal) x0 x1 x2 x3 = Cert.FfnSpec.G x0 x1 x2 x3 := by
  funext i
  rw [val_main_v4_apply]
  unfold G
  refine Finset.sum_congr rfl fun h _ => ?_
  rw [v3_eq_hidden, lidx_v4_eq, ridx_v4_eq]

end Cert.ReferenceIdeal.RefValue

end
-- ==== Proof.lean ====
/-
  The certificate of the SwiGLU feed-forward kernel against its jnp reference.
  Both idealized programs compute, over the extended reals,
      out[r, j] = Σ_h ( g[r,h] · σ(g[r,h]) · u[r,h] ) · W₂[h, j],   g = x·W₁,  u = x·W₃,  σ(t) = 1 / (1 + e^(−t)).
  The kernel does it in two tiled regions (the hidden activation with the hidden axis zero-padded from 11008 to 11264,
  then the down projection), each contraction accumulated block by block from zero in a scratch buffer; a change of
  float format is the identity here, the kernel's logistic is the reference's 1 / (1 + exp(−·)), a padded column of
  W₁ or W₃ makes the activation 0·σ(0)·0 = 0 and a padded row of W₂ is zero, and sums of extended reals may be
  regrouped freely. The frames: each region's body runs at every grid point on whole staging buffers, its accumulators
  carried from point to point in the region invariant; the host stretches only write their own result buffers.
  The ideal pass rewrote nothing, so the idealization claim is trivial.
-/
import proofs.«178229_j42717744726585_1_alg».proof.Defs
import proofs.«178229_j42717744726585_1_alg».proof.Proof.Gen.Kernel
import proofs.«178229_j42717744726585_1_alg».proof.Proof.Gen.KernelIdeal
import proofs.«178229_j42717744726585_1_alg».proof.Proof.Gen.ReferenceIdeal
import proofs.«178229_j42717744726585_1_alg».proof.Proof.Gen.Pre_finite_inputs
import proofs.«178229_j42717744726585_1_alg».proof.Proof.Gen.ReferenceIdeal.Run
import proofs.«178229_j42717744726585_1_alg».proof.Proof.Gen.ReferenceIdeal.Read
import proofs.«178229_j42717744726585_1_alg».proof.Proof.K.Run
import proofs.«178229_j42717744726585_1_alg».proof.Proof.KI.Result
import proofs.«178229_j42717744726585_1_alg».proof.Proof.Ref

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result at the specification `G` of the arguments, which agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.W8 (F := Ideal) m c (Proc.devRef .tc Cert.KernelIdeal.main_v8), Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_is_G, (hagree c).1, (hagree c).2.1, (hagree c).2.2.1, (hagree c).2.2.2]
  exact (Cert.KernelIdeal.Hand.result_value m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
